-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x128x128x128 : Shape := ⟨5, ![2, 12, 128, 128, 128]⟩
abbrev S2x1x128x128x128 : Shape := ⟨5, ![2, 1, 128, 128, 128]⟩
abbrev S12x12 : Shape := ⟨2, ![12, 12]⟩
abbrev S_ : Shape := ⟨0, ![]⟩

class Facts : Prop where
  bcast_S_S2x12x128x128x128 : S_.BroadcastsInDim S2x12x128x128x128 (![] : Fin 0 → Fin S2x12x128x128x128.rank)
  reducesTo_S2x12x128x128x128_S_d0_1_2_3_4 : S2x12x128x128x128.ReducesTo [0, 1, 2, 3, 4] S_
  h_S_ : 0 < S_.numel
  bcast_S_S12x12 : S_.BroadcastsInDim S12x12 (![] : Fin 0 → Fin S12x12.rank)
  reducesTo_S12x12_S_d0_1 : S12x12.ReducesTo [0, 1] S_
  bcast_S_S2x1x128x128x128 : S_.BroadcastsInDim S2x1x128x128x128 (![] : Fin 0 → Fin S2x1x128x128x128.rank)
  reducesTo_S2x1x128x128x128_S_d0_1_2_3_4 : S2x1x128x128x128.ReducesTo [0, 1, 2, 3, 4] S_

variable [Facts]

def fn {F : FTy → Type} [FloatOps F] (main_arg0 : FVec F S2x12x128x128x128 .f32) (main_arg1 : IVec S2x1x128x128x128 32) (main_arg2 : FVec F S12x12 .f32) : IVec S_ 1 :=
  let main_v0 : FVec F S2x12x128x128x128 .f32 := Host.absf main_arg0
  let main_cst : FVec F S_ .f32 := constant S_ .f32 0x7F800000#32
  let main_v1 : FVec F S2x12x128x128x128 .f32 := broadcastInDim S2x12x128x128x128 ![] bcast_S_S2x12x128x128x128 main_cst
  let main_v2 : IVec S2x12x128x128x128 1 := cmpf .olt main_v0 main_v1
  let main_c : IVec S_ 1 := constantI S_ 1 1#1
  let main_v3 : IVec S_ 1 := (fun x v => Host.reduce IntOp.andi x v reducesTo_S2x12x128x128x128_S_d0_1_2_3_4 h_S_) main_v2 main_c
  let main_v4 : FVec F S12x12 .f32 := Host.absf main_arg2
  let main_cst_0 : FVec F S_ .f32 := constant S_ .f32 0x7F800000#32
  let main_v5 : FVec F S12x12 .f32 := broadcastInDim S12x12 ![] bcast_S_S12x12 main_cst_0
  let main_v6 : IVec S12x12 1 := cmpf .olt main_v4 main_v5
  let main_c_1 : IVec S_ 1 := constantI S_ 1 1#1
  let main_v7 : IVec S_ 1 := (fun x v => Host.reduce IntOp.andi x v reducesTo_S12x12_S_d0_1 h_S_) main_v6 main_c_1
  let main_v8 : IVec S_ 1 := andi main_v3 main_v7
  let main_c_2 : IVec S_ 32 := constantI S_ 32 0#32
  let main_v9 : IVec S2x1x128x128x128 32 := broadcastInDim S2x1x128x128x128 ![] bcast_S_S2x1x128x128x128 main_c_2
  let main_v10 : IVec S2x1x128x128x128 1 := cmpi .sge main_arg1 main_v9
  let main_c_3 : IVec S_ 32 := constantI S_ 32 12#32
  let main_v11 : IVec S2x1x128x128x128 32 := broadcastInDim S2x1x128x128x128 ![] bcast_S_S2x1x128x128x128 main_c_3
  let main_v12 : IVec S2x1x128x128x128 1 := cmpi .slt main_arg1 main_v11
  let main_v13 : IVec S2x1x128x128x128 1 := andi main_v10 main_v12
  let main_c_4 : IVec S_ 1 := constantI S_ 1 1#1
  let main_v14 : IVec S_ 1 := (fun x v => Host.reduce IntOp.andi x v reducesTo_S2x1x128x128x128_S_d0_1_2_3_4 h_S_) main_v13 main_c_4
  let main_v15 : IVec S_ 1 := andi main_v8 main_v14
  main_v15
-- ==== Kernel.lean ====
abbrev S2x12x128x128x128 : Shape := ⟨5, ![2, 12, 128, 128, 128]⟩
abbrev S2x1x128x128x128 : Shape := ⟨5, ![2, 1, 128, 128, 128]⟩
abbrev S12x12 : Shape := ⟨2, ![12, 12]⟩
abbrev S2x128x128x128 : Shape := ⟨4, ![2, 128, 128, 128]⟩
abbrev S2x1x12 : Shape := ⟨3, ![2, 1, 12]⟩
abbrev S2x1x1 : Shape := ⟨3, ![2, 1, 1]⟩
abbrev S1x12x8x128x128 : Shape := ⟨5, ![1, 12, 8, 128, 128]⟩
abbrev S1x8x128x128 : Shape := ⟨4, ![1, 8, 128, 128]⟩
abbrev S1x1x12 : Shape := ⟨3, ![1, 1, 12]⟩
abbrev S1x1x1 : Shape := ⟨3, ![1, 1, 1]⟩
abbrev S1x12 : Shape := ⟨2, ![1, 12]⟩
abbrev S1x1 : Shape := ⟨2, ![1, 1]⟩
abbrev S1x1x8x128x128 : Shape := ⟨5, ![1, 1, 8, 128, 128]⟩
abbrev S8x128x128 : Shape := ⟨3, ![8, 128, 128]⟩
abbrev S8x128 : Shape := ⟨2, ![8, 128]⟩
abbrev S8 : Shape := ⟨1, ![8]⟩
abbrev S8x1 : Shape := ⟨2, ![8, 1]⟩
abbrev S1 : Shape := ⟨1, ![1]⟩
abbrev S2x12 : Shape := ⟨2, ![2, 12]⟩
abbrev S2 : Shape := ⟨1, ![2]⟩
abbrev S_ : Shape := ⟨0, ![]⟩

abbrev nBuf : Space → Nat
  | .hbm => 45
  | .vmem => 15
  | .smem => 0
  | _ => 0

abbrev bufTy : (tb : Table) → Fin (tcTables nBuf tb) → BufTy
  | .hbm, ⟨0, _⟩ => ⟨S2x12x128x128x128, .f32⟩
  | .hbm, ⟨1, _⟩ => ⟨S2x1x128x128x128, .i32⟩
  | .hbm, ⟨2, _⟩ => ⟨S12x12, .f32⟩
  | .hbm, ⟨3, _⟩ => ⟨S2x128x128x128, .i32⟩
  | .hbm, ⟨4, _⟩ => ⟨S2x1x12, .f32⟩
  | .hbm, ⟨5, _⟩ => ⟨S2x1x12, .f32⟩
  | .hbm, ⟨6, _⟩ => ⟨S2x1x12, .f32⟩
  | .hbm, ⟨7, _⟩ => ⟨S2x1x1, .f32⟩
  | .hbm, ⟨8, _⟩ => ⟨S2x1x1, .f32⟩
  | .hbm, ⟨9, _⟩ => ⟨S2x12, .f32⟩
  | .hbm, ⟨10, _⟩ => ⟨S2x12, .f32⟩
  | .hbm, ⟨11, _⟩ => ⟨S2x12, .f32⟩
  | .hbm, ⟨12, _⟩ => ⟨S2, .f32⟩
  | .hbm, ⟨13, _⟩ => ⟨S2, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x12, .f32⟩
  | .hbm, ⟨27, _⟩ => ⟨S2x12, .f32⟩
  | .hbm, ⟨28, _⟩ => ⟨S_, .f32⟩
  | .hbm, ⟨29, _⟩ => ⟨S2x12, .f32⟩
  | .hbm, ⟨30, _⟩ => ⟨S2x12, .f32⟩
  | .hbm, ⟨31, _⟩ => ⟨S2x12, .f32⟩
  | .hbm, ⟨32, _⟩ => ⟨S_, .f32⟩
  | .hbm, ⟨33, _⟩ => ⟨S2x12, .f32⟩
  | .hbm, ⟨34, _⟩ => ⟨S2x12, .f32⟩
  | .hbm, ⟨35, _⟩ => ⟨S2x12, .f32⟩
  | .hbm, ⟨36, _⟩ => ⟨S_, .f32⟩
  | .hbm, ⟨37, _⟩ => ⟨S2x12, .f32⟩
  | .hbm, ⟨38, _⟩ => ⟨S2x12, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1x12x8x128x128, .f32⟩
  | .local _ .vmem, ⟨1, _⟩ => ⟨S1x12x8x128x128, .f32⟩
  | .local _ .vmem, ⟨2, _⟩ => ⟨S1x8x128x128, .i32⟩
  | .local _ .vmem, ⟨3, _⟩ => ⟨S1x8x128x128, .i32⟩
  | .local _ .vmem, ⟨4, _⟩ => ⟨S12x12, .f32⟩
  | .local _ .vmem, ⟨5, _⟩ => ⟨S1x1x12, .f32⟩
  | .local _ .vmem, ⟨6, _⟩ => ⟨S1x1x12, .f32⟩
  | .local _ .vmem, ⟨7, _⟩ => ⟨S1x1x12, .f32⟩
  | .local _ .vmem, ⟨8, _⟩ => ⟨S1x1x12, .f32⟩
  | .local _ .vmem, ⟨9, _⟩ => ⟨S1x1x12, .f32⟩
  | .local _ .vmem, ⟨10, _⟩ => ⟨S1x1x12, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | _, _ => ⟨S2x12x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_cst_9 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x12x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S12x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x12 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x12 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2x1x128x128x128_S2x128x128x128 : S2x1x128x128x128.ShapeCasts S2x128x128x128
  inb_S1x1x12_S1x1x12_0_0_0 : ∀ a, (![0, 0, 0] : Fin 3 → Nat) a + S1x1x12.size a ≤ S1x1x12.size a
  h_S1x1x12 : 0 < S1x1x12.numel
  shapeCasts_S1x1x12_S1x12 : S1x1x12.ShapeCasts S1x12
  shapeCasts_S1x12_S1x1x12 : S1x12.ShapeCasts S1x1x12
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x12x8x128x128_S1x1x8x128x128_0_0_0_0_0 : ∀ a, (![0, 0, 0, 0, 0] : Fin 5 → Nat) a + S1x1x8x128x128.size a ≤ S1x12x8x128x128.size a
  h_S1x1x8x128x128 : 0 < S1x1x8x128x128.numel
  shapeCasts_S1x1x8x128x128_S8x128x128 : S1x1x8x128x128.ShapeCasts S8x128x128
  inb_S1x12x8x128x128_S1x1x8x128x128_0_1_0_0_0 : ∀ a, (![0, 1, 0, 0, 0] : Fin 5 → Nat) a + S1x1x8x128x128.size a ≤ S1x12x8x128x128.size a
  inb_S1x12x8x128x128_S1x1x8x128x128_0_2_0_0_0 : ∀ a, (![0, 2, 0, 0, 0] : Fin 5 → Nat) a + S1x1x8x128x128.size a ≤ S1x12x8x128x128.size a
  inb_S1x12x8x128x128_S1x1x8x128x128_0_3_0_0_0 : ∀ a, (![0, 3, 0, 0, 0] : Fin 5 → Nat) a + S1x1x8x128x128.size a ≤ S1x12x8x128x128.size a
  inb_S1x12x8x128x128_S1x1x8x128x128_0_4_0_0_0 : ∀ a, (![0, 4, 0, 0, 0] : Fin 5 → Nat) a + S1x1x8x128x128.size a ≤ S1x12x8x128x128.size a
  inb_S1x12x8x128x128_S1x1x8x128x128_0_5_0_0_0 : ∀ a, (![0, 5, 0, 0, 0] : Fin 5 → Nat) a + S1x1x8x128x128.size a ≤ S1x12x8x128x128.size a
  inb_S1x12x8x128x128_S1x1x8x128x128_0_6_0_0_0 : ∀ a, (![0, 6, 0, 0, 0] : Fin 5 → Nat) a + S1x1x8x128x128.size a ≤ S1x12x8x128x128.size a
  inb_S1x12x8x128x128_S1x1x8x128x128_0_7_0_0_0 : ∀ a, (![0, 7, 0, 0, 0] : Fin 5 → Nat) a + S1x1x8x128x128.size a ≤ S1x12x8x128x128.size a
  inb_S1x12x8x128x128_S1x1x8x128x128_0_8_0_0_0 : ∀ a, (![0, 8, 0, 0, 0] : Fin 5 → Nat) a + S1x1x8x128x128.size a ≤ S1x12x8x128x128.size a
  inb_S1x12x8x128x128_S1x1x8x128x128_0_9_0_0_0 : ∀ a, (![0, 9, 0, 0, 0] : Fin 5 → Nat) a + S1x1x8x128x128.size a ≤ S1x12x8x128x128.size a
  inb_S1x12x8x128x128_S1x1x8x128x128_0_10_0_0_0 : ∀ a, (![0, 10, 0, 0, 0] : Fin 5 → Nat) a + S1x1x8x128x128.size a ≤ S1x12x8x128x128.size a
  inb_S1x12x8x128x128_S1x1x8x128x128_0_11_0_0_0 : ∀ a, (![0, 11, 0, 0, 0] : Fin 5 → Nat) a + S1x1x8x128x128.size a ≤ S1x12x8x128x128.size a
  inb_S1x8x128x128_S1x8x128x128_0_0_0_0 : ∀ a, (![0, 0, 0, 0] : Fin 4 → Nat) a + S1x8x128x128.size a ≤ S1x8x128x128.size a
  h_S1x8x128x128 : 0 < S1x8x128x128.numel
  shapeCasts_S1x8x128x128_S8x128x128 : S1x8x128x128.ShapeCasts S8x128x128
  natLt_1_32 : 1 < 32
  reduces_S8x128x128_S8x128 : S8x128x128.Reduces [2] S8x128
  reduces_S8x128_S8 : S8x128.Reduces [1] S8
  shapeCasts_S8_S8x1 : S8.ShapeCasts S8x1
  reduces_S8x1_S1 : S8x1.Reduces [0] S1
  shapeCasts_S1_S1x1 : S1.ShapeCasts S1x1
  inb_S12x12_S12x12_0_0 : ∀ a, (![0, 0] : Fin 2 → Nat) a + S12x12.size a ≤ S12x12.size a
  h_S12x12 : 0 < S12x12.numel
  slices_S12x12_o0_0_S1x1 : S12x12.Slices ![0, 0] S1x1
  inpos_S1x1_p0_0 : ∀ a, (![0, 0] : Fin 2 → Nat) a < S1x1.size a
  slices_S12x12_o0_1_S1x1 : S12x12.Slices ![0, 1] S1x1
  slices_S12x12_o0_2_S1x1 : S12x12.Slices ![0, 2] S1x1
  slices_S12x12_o0_3_S1x1 : S12x12.Slices ![0, 3] S1x1
  slices_S12x12_o0_4_S1x1 : S12x12.Slices ![0, 4] S1x1
  slices_S12x12_o0_5_S1x1 : S12x12.Slices ![0, 5] S1x1
  slices_S12x12_o0_6_S1x1 : S12x12.Slices ![0, 6] S1x1
  slices_S12x12_o0_7_S1x1 : S12x12.Slices ![0, 7] S1x1
  slices_S12x12_o0_8_S1x1 : S12x12.Slices ![0, 8] S1x1
  slices_S12x12_o0_9_S1x1 : S12x12.Slices ![0, 9] S1x1
  slices_S12x12_o0_10_S1x1 : S12x12.Slices ![0, 10] S1x1
  slices_S12x12_o0_11_S1x1 : S12x12.Slices ![0, 11] S1x1
  slices_S12x12_o1_0_S1x1 : S12x12.Slices ![1, 0] S1x1
  slices_S12x12_o1_1_S1x1 : S12x12.Slices ![1, 1] S1x1
  slices_S12x12_o1_2_S1x1 : S12x12.Slices ![1, 2] S1x1
  slices_S12x12_o1_3_S1x1 : S12x12.Slices ![1, 3] S1x1
  slices_S12x12_o1_4_S1x1 : S12x12.Slices ![1, 4] S1x1
  slices_S12x12_o1_5_S1x1 : S12x12.Slices ![1, 5] S1x1
  slices_S12x12_o1_6_S1x1 : S12x12.Slices ![1, 6] S1x1
  slices_S12x12_o1_7_S1x1 : S12x12.Slices ![1, 7] S1x1
  slices_S12x12_o1_8_S1x1 : S12x12.Slices ![1, 8] S1x1
  slices_S12x12_o1_9_S1x1 : S12x12.Slices ![1, 9] S1x1
  slices_S12x12_o1_10_S1x1 : S12x12.Slices ![1, 10] S1x1
  slices_S12x12_o1_11_S1x1 : S12x12.Slices ![1, 11] S1x1
  slices_S12x12_o2_0_S1x1 : S12x12.Slices ![2, 0] S1x1
  slices_S12x12_o2_1_S1x1 : S12x12.Slices ![2, 1] S1x1
  slices_S12x12_o2_2_S1x1 : S12x12.Slices ![2, 2] S1x1
  slices_S12x12_o2_3_S1x1 : S12x12.Slices ![2, 3] S1x1
  slices_S12x12_o2_4_S1x1 : S12x12.Slices ![2, 4] S1x1
  slices_S12x12_o2_5_S1x1 : S12x12.Slices ![2, 5] S1x1
  slices_S12x12_o2_6_S1x1 : S12x12.Slices ![2, 6] S1x1
  slices_S12x12_o2_7_S1x1 : S12x12.Slices ![2, 7] S1x1
  slices_S12x12_o2_8_S1x1 : S12x12.Slices ![2, 8] S1x1
  slices_S12x12_o2_9_S1x1 : S12x12.Slices ![2, 9] S1x1
  slices_S12x12_o2_10_S1x1 : S12x12.Slices ![2, 10] S1x1
  slices_S12x12_o2_11_S1x1 : S12x12.Slices ![2, 11] S1x1
  slices_S12x12_o3_0_S1x1 : S12x12.Slices ![3, 0] S1x1
  slices_S12x12_o3_1_S1x1 : S12x12.Slices ![3, 1] S1x1
  slices_S12x12_o3_2_S1x1 : S12x12.Slices ![3, 2] S1x1
  slices_S12x12_o3_3_S1x1 : S12x12.Slices ![3, 3] S1x1
  slices_S12x12_o3_4_S1x1 : S12x12.Slices ![3, 4] S1x1
  slices_S12x12_o3_5_S1x1 : S12x12.Slices ![3, 5] S1x1
  slices_S12x12_o3_6_S1x1 : S12x12.Slices ![3, 6] S1x1
  slices_S12x12_o3_7_S1x1 : S12x12.Slices ![3, 7] S1x1
  slices_S12x12_o3_8_S1x1 : S12x12.Slices ![3, 8] S1x1
  slices_S12x12_o3_9_S1x1 : S12x12.Slices ![3, 9] S1x1
  slices_S12x12_o3_10_S1x1 : S12x12.Slices ![3, 10] S1x1
  slices_S12x12_o3_11_S1x1 : S12x12.Slices ![3, 11] S1x1
  slices_S12x12_o4_0_S1x1 : S12x12.Slices ![4, 0] S1x1
  slices_S12x12_o4_1_S1x1 : S12x12.Slices ![4, 1] S1x1
  slices_S12x12_o4_2_S1x1 : S12x12.Slices ![4, 2] S1x1
  slices_S12x12_o4_3_S1x1 : S12x12.Slices ![4, 3] S1x1
  slices_S12x12_o4_4_S1x1 : S12x12.Slices ![4, 4] S1x1
  slices_S12x12_o4_5_S1x1 : S12x12.Slices ![4, 5] S1x1
  slices_S12x12_o4_6_S1x1 : S12x12.Slices ![4, 6] S1x1
  slices_S12x12_o4_7_S1x1 : S12x12.Slices ![4, 7] S1x1
  slices_S12x12_o4_8_S1x1 : S12x12.Slices ![4, 8] S1x1
  slices_S12x12_o4_9_S1x1 : S12x12.Slices ![4, 9] S1x1
  slices_S12x12_o4_10_S1x1 : S12x12.Slices ![4, 10] S1x1
  slices_S12x12_o4_11_S1x1 : S12x12.Slices ![4, 11] S1x1
  slices_S12x12_o5_0_S1x1 : S12x12.Slices ![5, 0] S1x1
  slices_S12x12_o5_1_S1x1 : S12x12.Slices ![5, 1] S1x1
  slices_S12x12_o5_2_S1x1 : S12x12.Slices ![5, 2] S1x1
  slices_S12x12_o5_3_S1x1 : S12x12.Slices ![5, 3] S1x1
  slices_S12x12_o5_4_S1x1 : S12x12.Slices ![5, 4] S1x1
  slices_S12x12_o5_5_S1x1 : S12x12.Slices ![5, 5] S1x1
  slices_S12x12_o5_6_S1x1 : S12x12.Slices ![5, 6] S1x1
  slices_S12x12_o5_7_S1x1 : S12x12.Slices ![5, 7] S1x1
  slices_S12x12_o5_8_S1x1 : S12x12.Slices ![5, 8] S1x1
  slices_S12x12_o5_9_S1x1 : S12x12.Slices ![5, 9] S1x1
  slices_S12x12_o5_10_S1x1 : S12x12.Slices ![5, 10] S1x1
  slices_S12x12_o5_11_S1x1 : S12x12.Slices ![5, 11] S1x1
  slices_S12x12_o6_0_S1x1 : S12x12.Slices ![6, 0] S1x1
  slices_S12x12_o6_1_S1x1 : S12x12.Slices ![6, 1] S1x1
  slices_S12x12_o6_2_S1x1 : S12x12.Slices ![6, 2] S1x1
  slices_S12x12_o6_3_S1x1 : S12x12.Slices ![6, 3] S1x1
  slices_S12x12_o6_4_S1x1 : S12x12.Slices ![6, 4] S1x1
  slices_S12x12_o6_5_S1x1 : S12x12.Slices ![6, 5] S1x1
  slices_S12x12_o6_6_S1x1 : S12x12.Slices ![6, 6] S1x1
  slices_S12x12_o6_7_S1x1 : S12x12.Slices ![6, 7] S1x1
  slices_S12x12_o6_8_S1x1 : S12x12.Slices ![6, 8] S1x1
  slices_S12x12_o6_9_S1x1 : S12x12.Slices ![6, 9] S1x1
  slices_S12x12_o6_10_S1x1 : S12x12.Slices ![6, 10] S1x1
  slices_S12x12_o6_11_S1x1 : S12x12.Slices ![6, 11] S1x1
  slices_S12x12_o7_0_S1x1 : S12x12.Slices ![7, 0] S1x1
  slices_S12x12_o7_1_S1x1 : S12x12.Slices ![7, 1] S1x1
  slices_S12x12_o7_2_S1x1 : S12x12.Slices ![7, 2] S1x1
  slices_S12x12_o7_3_S1x1 : S12x12.Slices ![7, 3] S1x1
  slices_S12x12_o7_4_S1x1 : S12x12.Slices ![7, 4] S1x1
  slices_S12x12_o7_5_S1x1 : S12x12.Slices ![7, 5] S1x1
  slices_S12x12_o7_6_S1x1 : S12x12.Slices ![7, 6] S1x1
  slices_S12x12_o7_7_S1x1 : S12x12.Slices ![7, 7] S1x1
  slices_S12x12_o7_8_S1x1 : S12x12.Slices ![7, 8] S1x1
  slices_S12x12_o7_9_S1x1 : S12x12.Slices ![7, 9] S1x1
  slices_S12x12_o7_10_S1x1 : S12x12.Slices ![7, 10] S1x1
  slices_S12x12_o7_11_S1x1 : S12x12.Slices ![7, 11] S1x1
  slices_S12x12_o8_0_S1x1 : S12x12.Slices ![8, 0] S1x1
  slices_S12x12_o8_1_S1x1 : S12x12.Slices ![8, 1] S1x1
  slices_S12x12_o8_2_S1x1 : S12x12.Slices ![8, 2] S1x1
  slices_S12x12_o8_3_S1x1 : S12x12.Slices ![8, 3] S1x1
  slices_S12x12_o8_4_S1x1 : S12x12.Slices ![8, 4] S1x1
  slices_S12x12_o8_5_S1x1 : S12x12.Slices ![8, 5] S1x1
  slices_S12x12_o8_6_S1x1 : S12x12.Slices ![8, 6] S1x1
  slices_S12x12_o8_7_S1x1 : S12x12.Slices ![8, 7] S1x1
  slices_S12x12_o8_8_S1x1 : S12x12.Slices ![8, 8] S1x1
  slices_S12x12_o8_9_S1x1 : S12x12.Slices ![8, 9] S1x1
  slices_S12x12_o8_10_S1x1 : S12x12.Slices ![8, 10] S1x1
  slices_S12x12_o8_11_S1x1 : S12x12.Slices ![8, 11] S1x1
  slices_S12x12_o9_0_S1x1 : S12x12.Slices ![9, 0] S1x1
  slices_S12x12_o9_1_S1x1 : S12x12.Slices ![9, 1] S1x1
  slices_S12x12_o9_2_S1x1 : S12x12.Slices ![9, 2] S1x1
  slices_S12x12_o9_3_S1x1 : S12x12.Slices ![9, 3] S1x1
  slices_S12x12_o9_4_S1x1 : S12x12.Slices ![9, 4] S1x1
  slices_S12x12_o9_5_S1x1 : S12x12.Slices ![9, 5] S1x1
  slices_S12x12_o9_6_S1x1 : S12x12.Slices ![9, 6] S1x1
  slices_S12x12_o9_7_S1x1 : S12x12.Slices ![9, 7] S1x1
  slices_S12x12_o9_8_S1x1 : S12x12.Slices ![9, 8] S1x1
  slices_S12x12_o9_9_S1x1 : S12x12.Slices ![9, 9] S1x1
  slices_S12x12_o9_10_S1x1 : S12x12.Slices ![9, 10] S1x1
  slices_S12x12_o9_11_S1x1 : S12x12.Slices ![9, 11] S1x1
  slices_S12x12_o10_0_S1x1 : S12x12.Slices ![10, 0] S1x1
  slices_S12x12_o10_1_S1x1 : S12x12.Slices ![10, 1] S1x1
  slices_S12x12_o10_2_S1x1 : S12x12.Slices ![10, 2] S1x1
  slices_S12x12_o10_3_S1x1 : S12x12.Slices ![10, 3] S1x1
  slices_S12x12_o10_4_S1x1 : S12x12.Slices ![10, 4] S1x1
  slices_S12x12_o10_5_S1x1 : S12x12.Slices ![10, 5] S1x1
  slices_S12x12_o10_6_S1x1 : S12x12.Slices ![10, 6] S1x1
  slices_S12x12_o10_7_S1x1 : S12x12.Slices ![10, 7] S1x1
  slices_S12x12_o10_8_S1x1 : S12x12.Slices ![10, 8] S1x1
  slices_S12x12_o10_9_S1x1 : S12x12.Slices ![10, 9] S1x1
  slices_S12x12_o10_10_S1x1 : S12x12.Slices ![10, 10] S1x1
  slices_S12x12_o10_11_S1x1 : S12x12.Slices ![10, 11] S1x1
  slices_S12x12_o11_0_S1x1 : S12x12.Slices ![11, 0] S1x1
  slices_S12x12_o11_1_S1x1 : S12x12.Slices ![11, 1] S1x1
  slices_S12x12_o11_2_S1x1 : S12x12.Slices ![11, 2] S1x1
  slices_S12x12_o11_3_S1x1 : S12x12.Slices ![11, 3] S1x1
  slices_S12x12_o11_4_S1x1 : S12x12.Slices ![11, 4] S1x1
  slices_S12x12_o11_5_S1x1 : S12x12.Slices ![11, 5] S1x1
  slices_S12x12_o11_6_S1x1 : S12x12.Slices ![11, 6] S1x1
  slices_S12x12_o11_7_S1x1 : S12x12.Slices ![11, 7] S1x1
  slices_S12x12_o11_8_S1x1 : S12x12.Slices ![11, 8] S1x1
  slices_S12x12_o11_9_S1x1 : S12x12.Slices ![11, 9] S1x1
  slices_S12x12_o11_10_S1x1 : S12x12.Slices ![11, 10] S1x1
  slices_S12x12_o11_11_S1x1 : S12x12.Slices ![11, 11] S1x1
  concatenates_S1x1_S1x1_S1x1_S1x1_S1x1_S1x1_S1x1_S1x1_S1x1_S1x1_S1x1_S1x1_S1x12_d1 : Shape.Concatenates [S1x1, S1x1, S1x1, S1x1, S1x1, S1x1, S1x1, S1x1, S1x1, S1x1, S1x1, S1x1] S1x12 1
  shapeCasts_S2x1x12_S2x12 : S2x1x12.ShapeCasts S2x12
  shapeCasts_S2x1x1_S2 : S2x1x1.ShapeCasts S2
  reducesTo_S2_S_d0 : S2.ReducesTo [0] S_
  h_S_ : 0 < S_.numel
  bcast_S_S2x12 : S_.BroadcastsInDim S2x12 (![] : Fin 0 → Fin S2x12.rank)
  reducesTo_S2x12_S_d0_1 : S2x12.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12x8x128x128.size a ≤ S2x12x128x128x128.size a
  hwx0_0 : ∀ i : grid0.Coords, EltTy.bits .f32 = 32 ∨ (Rect.block (s := S2x12x128x128x128) S1x12x8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128x128.size a ≤ S2x128x128x128.size a
  hwx0_1 : ∀ i : grid0.Coords, EltTy.bits .i32 = 32 ∨ (Rect.block (s := S2x128x128x128) S1x8x128x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x12.size a ≤ S12x12.size a
  hwx0_2 : ∀ i : grid0.Coords, EltTy.bits .f32 = 32 ∨ (Rect.block (s := S12x12) S12x12.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x12.size a ≤ S2x1x12.size a
  hwx0_3 : ∀ i : grid0.Coords, EltTy.bits .f32 = 32 ∨ (Rect.block (s := S2x1x12) S1x1x12.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x12.size a ≤ S2x1x12.size a
  hwx0_4 : ∀ i : grid0.Coords, EltTy.bits .f32 = 32 ∨ (Rect.block (s := S2x1x12) S1x1x12.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x12.size a ≤ S2x1x12.size a
  hwx0_5 : ∀ i : grid0.Coords, EltTy.bits .f32 = 32 ∨ (Rect.block (s := S2x1x12) S1x1x12.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S2x1x1.size a
  hwx0_7 : ∀ i : grid0.Coords, EltTy.bits .f32 = 32 ∨ (Rect.block (s := S2x1x1) S1x1x1.size (cc0_transform_7 i) (hinb0_7 i)).WholeWords (EltTy.packing .f32)

variable [Facts₀]

abbrev win0_0 : Pipeline.Window sig grid0 :=
  Pipeline.Window.ofSpec (Memref.whole main_arg0) S1x12x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S12x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1x12.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1x12.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x1x12.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_3) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_4) S1x1x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x12x128x128x128 : Shape := ⟨5, ![2, 12, 128, 128, 128]⟩
abbrev S2x1x128x128x128 : Shape := ⟨5, ![2, 1, 128, 128, 128]⟩
abbrev S12x12 : Shape := ⟨2, ![12, 12]⟩
abbrev S2x128x128x128 : Shape := ⟨4, ![2, 128, 128, 128]⟩
abbrev S_ : Shape := ⟨0, ![]⟩
abbrev S2x1x128x128x128x1 : Shape := ⟨6, ![2, 1, 128, 128, 128, 1]⟩
abbrev S1 : Shape := ⟨1, ![1]⟩
abbrev S1x1x1x1x1x1 : Shape := ⟨6, ![1, 1, 1, 1, 1, 1]⟩
abbrev S1x12x1x1x1 : Shape := ⟨5, ![1, 12, 1, 1, 1]⟩
abbrev S2x12 : Shape := ⟨2, ![2, 12]⟩
abbrev S2x128x128x128x1 : Shape := ⟨5, ![2, 128, 128, 128, 1]⟩
abbrev S2x128x128x128x12 : Shape := ⟨5, ![2, 128, 128, 128, 12]⟩

abbrev nBuf : Space → Nat
  | .hbm => 99
  | .vmem => 0
  | .smem => 0
  | _ => 0

abbrev bufTy : (tb : Table) → Fin (tcTables nBuf tb) → BufTy
  | .hbm, ⟨0, _⟩ => ⟨S2x12x128x128x128, .f32⟩
  | .hbm, ⟨1, _⟩ => ⟨S2x1x128x128x128, .i32⟩
  | .hbm, ⟨2, _⟩ => ⟨S12x12, .f32⟩
  | .hbm, ⟨3, _⟩ => ⟨S2x128x128x128, .i32⟩
  | .hbm, ⟨4, _⟩ => ⟨S_, .f32⟩
  | .hbm, ⟨5, _⟩ => ⟨S2x128x128x128, .f32⟩
  | .hbm, ⟨6, _⟩ => ⟨S_, .f32⟩
  | .hbm, ⟨7, _⟩ => ⟨S2x128x128x128, .f32⟩
  | .hbm, ⟨8, _⟩ => ⟨S2x128x128x128, .f32⟩
  | .hbm, ⟨9, _⟩ => ⟨S2x1x128x128x128, .f32⟩
  | .hbm, ⟨10, _⟩ => ⟨S2x12x128x128x128, .f32⟩
  | .hbm, ⟨11, _⟩ => ⟨S2x12x128x128x128, .f32⟩
  | .hbm, ⟨12, _⟩ => ⟨S2x12x128x128x128, .f32⟩
  | .hbm, ⟨13, _⟩ => ⟨S_, .f32⟩
  | .hbm, ⟨14, _⟩ => ⟨S2x128x128x128, .f32⟩
  | .hbm, ⟨15, _⟩ => ⟨S2x1x128x128x128, .f32⟩
  | .hbm, ⟨16, _⟩ => ⟨S2x1x128x128x128, .f32⟩
  | .hbm, ⟨17, _⟩ => ⟨S2x12x128x128x128, .f32⟩
  | .hbm, ⟨18, _⟩ => ⟨S2x12x128x128x128, .f32⟩
  | .hbm, ⟨19, _⟩ => ⟨S_, .i32⟩
  | .hbm, ⟨20, _⟩ => ⟨S2x1x128x128x128, .i32⟩
  | .hbm, ⟨21, _⟩ => ⟨S2x1x128x128x128, .i1⟩
  | .hbm, ⟨22, _⟩ => ⟨S_, .i32⟩
  | .hbm, ⟨23, _⟩ => ⟨S2x1x128x128x128, .i32⟩
  | .hbm, ⟨24, _⟩ => ⟨S2x1x128x128x128, .i32⟩
  | .hbm, ⟨25, _⟩ => ⟨S2x1x128x128x128, .i32⟩
  | .hbm, ⟨26, _⟩ => ⟨S2x1x128x128x128x1, .i32⟩
  | .hbm, ⟨27, _⟩ => ⟨S1, .i32⟩
  | .hbm, ⟨28, _⟩ => ⟨S_, .i32⟩
  | .hbm, ⟨29, _⟩ => ⟨S2x1x128x128x128x1, .i32⟩
  | .hbm, ⟨30, _⟩ => ⟨S2x1x128x128x128x1, .i1⟩
  | .hbm, ⟨31, _⟩ => ⟨S1x1x1x1x1x1, .i32⟩
  | .hbm, ⟨32, _⟩ => ⟨S2x1x128x128x128x1, .i32⟩
  | .hbm, ⟨33, _⟩ => ⟨S2x1x128x128x128x1, .i1⟩
  | .hbm, ⟨34, _⟩ => ⟨S2x1x128x128x128x1, .i1⟩
  | .hbm, ⟨35, _⟩ => ⟨S_, .i1⟩
  | .hbm, ⟨36, _⟩ => ⟨S2x1x128x128x128, .i1⟩
  | .hbm, ⟨37, _⟩ => ⟨S2x1x128x128x128, .f32⟩
  | .hbm, ⟨38, _⟩ => ⟨S_, .f32⟩
  | .hbm, ⟨39, _⟩ => ⟨S2x1x128x128x128, .f32⟩
  | .hbm, ⟨40, _⟩ => ⟨S2x1x128x128x128, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2x12x128x128x128, .f32⟩
  | .hbm, ⟨47, _⟩ => ⟨S2x1x128x128x128, .i32⟩
  | .hbm, ⟨48, _⟩ => ⟨S1x12x1x1x1, .i32⟩
  | .hbm, ⟨49, _⟩ => ⟨S2x12x128x128x128, .i32⟩
  | .hbm, ⟨50, _⟩ => ⟨S2x12x128x128x128, .i32⟩
  | .hbm, ⟨51, _⟩ => ⟨S2x12x128x128x128, .i1⟩
  | .hbm, ⟨52, _⟩ => ⟨S2x12x128x128x128, .f32⟩
  | .hbm, ⟨53, _⟩ => ⟨S2x12x128x128x128, .f32⟩
  | .hbm, ⟨54, _⟩ => ⟨S_, .f32⟩
  | .hbm, ⟨55, _⟩ => ⟨S2x12, .f32⟩
  | .hbm, ⟨56, _⟩ => ⟨S_, .f32⟩
  | .hbm, ⟨57, _⟩ => ⟨S2x12, .f32⟩
  | .hbm, ⟨58, _⟩ => ⟨S_, .f32⟩
  | .hbm, ⟨59, _⟩ => ⟨S2x12, .f32⟩
  | .hbm, ⟨60, _⟩ => ⟨S_, .f32⟩
  | .hbm, ⟨61, _⟩ => ⟨S2x12, .f32⟩
  | .hbm, ⟨62, _⟩ => ⟨S2x12, .f32⟩
  | .hbm, ⟨63, _⟩ => ⟨S_, .f32⟩
  | .hbm, ⟨64, _⟩ => ⟨S2x12, .f32⟩
  | .hbm, ⟨65, _⟩ => ⟨S2x12, .f32⟩
  | .hbm, ⟨66, _⟩ => ⟨S2x12, .f32⟩
  | .hbm, ⟨67, _⟩ => ⟨S_, .f32⟩
  | .hbm, ⟨68, _⟩ => ⟨S2x12, .f32⟩
  | .hbm, ⟨69, _⟩ => ⟨S2x12, .f32⟩
  | .hbm, ⟨70, _⟩ => ⟨S2x12, .f32⟩
  | .hbm, ⟨71, _⟩ => ⟨S_, .f32⟩
  | .hbm, ⟨72, _⟩ => ⟨S2x12, .f32⟩
  | .hbm, ⟨73, _⟩ => ⟨S2x12, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .i32⟩
  | .hbm, ⟨79, _⟩ => ⟨S2x128x128x128, .i32⟩
  | .hbm, ⟨80, _⟩ => ⟨S2x128x128x128, .i1⟩
  | .hbm, ⟨81, _⟩ => ⟨S_, .i32⟩
  | .hbm, ⟨82, _⟩ => ⟨S2x128x128x128, .i32⟩
  | .hbm, ⟨83, _⟩ => ⟨S2x128x128x128, .i32⟩
  | .hbm, ⟨84, _⟩ => ⟨S2x128x128x128, .i32⟩
  | .hbm, ⟨85, _⟩ => ⟨S2x128x128x128x1, .i32⟩
  | .hbm, ⟨86, _⟩ => ⟨S2x128x128x128x12, .f32⟩
  | .hbm, ⟨87, _⟩ => ⟨S2x128x128x128x12, .f32⟩
  | .hbm, ⟨88, _⟩ => ⟨S2x128x128x128x12, .f32⟩
  | .hbm, ⟨89, _⟩ => ⟨S_, .f32⟩
  | .hbm, ⟨90, _⟩ => ⟨S2x128x128x128, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S2x12x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_cst : Ref sig .tc := ⟨.hbm, 41, rfl⟩
abbrev main_v3 : Ref sig .tc := ⟨.hbm, 42, rfl⟩
abbrev main_cst_0 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v7 : Ref sig .tc := ⟨.hbm, 52, rfl⟩
abbrev main_v8 : Ref sig .tc := ⟨.hbm, 53, rfl⟩
abbrev main_cst_1 : Ref sig .tc := ⟨.hbm, 54, rfl⟩
abbrev main_v9 : Ref sig .tc := ⟨.hbm, 55, rfl⟩
abbrev main_cst_2 : Ref sig .tc := ⟨.hbm, 56, rfl⟩
abbrev main_v10 : Ref sig .tc := ⟨.hbm, 57, rfl⟩
abbrev main_cst_3 : Ref sig .tc := ⟨.hbm, 58, rfl⟩
abbrev main_v11 : Ref sig .tc := ⟨.hbm, 59, rfl⟩
abbrev main_cst_4 : Ref sig .tc := ⟨.hbm, 60, rfl⟩
abbrev main_v12 : Ref sig .tc := ⟨.hbm, 61, rfl⟩
abbrev main_v13 : Ref sig .tc := ⟨.hbm, 62, rfl⟩
abbrev main_cst_5 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_cst_6 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_cst_7 : Ref sig .tc := ⟨.hbm, 71, rfl⟩
abbrev main_v20 : Ref sig .tc := ⟨.hbm, 72, rfl⟩
abbrev main_v21 : Ref sig .tc := ⟨.hbm, 73, rfl⟩
abbrev main_cst_8 : Ref sig .tc := ⟨.hbm, 74, rfl⟩
abbrev main_v22 : Ref sig .tc := ⟨.hbm, 75, rfl⟩
abbrev main_cst_9 : Ref sig .tc := ⟨.hbm, 76, rfl⟩
abbrev main_v23 : Ref sig .tc := ⟨.hbm, 77, rfl⟩
abbrev main_c : Ref sig .tc := ⟨.hbm, 78, rfl⟩
abbrev main_v24 : Ref sig .tc := ⟨.hbm, 79, rfl⟩
abbrev main_v25 : Ref sig .tc := ⟨.hbm, 80, rfl⟩
abbrev main_c_10 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_cst_11 : Ref sig .tc := ⟨.hbm, 89, rfl⟩
abbrev main_v33 : Ref sig .tc := ⟨.hbm, 90, rfl⟩
abbrev main_cst_12 : Ref sig .tc := ⟨.hbm, 91, rfl⟩
abbrev main_v34 : Ref sig .tc := ⟨.hbm, 92, rfl⟩
abbrev main_cst_13 : Ref sig .tc := ⟨.hbm, 93, rfl⟩
abbrev main_v35 : Ref sig .tc := ⟨.hbm, 94, rfl⟩
abbrev main_cst_14 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩

abbrev nD : Nat := 1
abbrev τ : Topo := Topo.v7x

variable {F : FTy → Type} [FloatOps F]

class Facts₀ : Prop where
  shapeCasts_S2x1x128x128x128_S2x128x128x128 : S2x1x128x128x128.ShapeCasts S2x128x128x128
  reducesTo_S2x12x128x128x128_S2x128x128x128_d1 : S2x12x128x128x128.ReducesTo [1] S2x128x128x128
  h_S_ : 0 < S_.numel
  bcast_S_S2x128x128x128 : S_.BroadcastsInDim S2x128x128x128 (![] : Fin 0 → Fin S2x128x128x128.rank)
  bcast_S2x128x128x128_S2x1x128x128x128_0_2_3_4 : S2x128x128x128.BroadcastsInDim S2x1x128x128x128 (![0, 2, 3, 4] : Fin 4 → Fin S2x1x128x128x128.rank)
  bcast_S2x1x128x128x128_S2x12x128x128x128_0_1_2_3_4 : S2x1x128x128x128.BroadcastsInDim S2x12x128x128x128 (![0, 1, 2, 3, 4] : Fin 5 → Fin S2x12x128x128x128.rank)
  bcast_S_S2x1x128x128x128 : S_.BroadcastsInDim S2x1x128x128x128 (![] : Fin 0 → Fin S2x1x128x128x128.rank)
  shapeCasts_S2x1x128x128x128_S2x1x128x128x128x1 : S2x1x128x128x128.ShapeCasts S2x1x128x128x128x1
  bcast_S_S2x1x128x128x128x1 : S_.BroadcastsInDim S2x1x128x128x128x1 (![] : Fin 0 → Fin S2x1x128x128x128x1.rank)
  bcast_S1_S1x1x1x1x1x1_5 : S1.BroadcastsInDim S1x1x1x1x1x1 (![5] : Fin 1 → Fin S1x1x1x1x1x1.rank)
  bcast_S1x1x1x1x1x1_S2x1x128x128x128x1_0_1_2_3_4_5 : S1x1x1x1x1x1.BroadcastsInDim S2x1x128x128x128x1 (![0, 1, 2, 3, 4, 5] : Fin 6 → Fin S2x1x128x128x128x1.rank)
  reducesTo_S2x1x128x128x128x1_S2x1x128x128x128_d5 : S2x1x128x128x128x1.ReducesTo [5] S2x1x128x128x128
  reducesTo_S2x1x128x128x128_S_d0_1_2_3_4 : S2x1x128x128x128.ReducesTo [0, 1, 2, 3, 4] S_
  bcast_S1x12x1x1x1_S2x12x128x128x128_0_1_2_3_4 : S1x12x1x1x1.BroadcastsInDim S2x12x128x128x128 (![0, 1, 2, 3, 4] : Fin 5 → Fin S2x12x128x128x128.rank)
  reducesTo_S2x12x128x128x128_S2x12_d2_3_4 : S2x12x128x128x128.ReducesTo [2, 3, 4] S2x12
  bcast_S_S2x12 : S_.BroadcastsInDim S2x12 (![] : Fin 0 → Fin S2x12.rank)
  reducesTo_S2x12_S_d0_1 : S2x12.ReducesTo [0, 1] S_
  bcast_S2x128x128x128_S2x128x128x128x1_0_1_2_3 : S2x128x128x128.BroadcastsInDim S2x128x128x128x1 (![0, 1, 2, 3] : Fin 4 → Fin S2x128x128x128x1.rank)
  transposes_S2x12x128x128x128_S2x128x128x128x12_0_2_3_4_1 : S2x12x128x128x128.Transposes [0, 2, 3, 4, 1] S2x128x128x128x12
  reducesTo_S2x128x128x128x12_S2x128x128x128_d4 : S2x128x128x128x12.ReducesTo [4] S2x128x128x128
  reducesTo_S2x128x128x128_S_d0_1_2_3 : S2x128x128x128.ReducesTo [0, 1, 2, 3] S_
  gather_S2x12x128x128x128_S2x1x128x128x128x1_S2x1x128x128x128_n_1_0234_0234_1_5_11111_wf : GatherDims.WF S2x12x128x128x128 S2x1x128x128x128x1 S2x1x128x128x128 [] [1] [0, 2, 3, 4] [1] [0, 2, 3, 4] 5 ![1, 1, 1, 1, 1]
  gather_S12x12_S2x128x128x128x1_S2x128x128x128x12_4_0_n_n_0_4_112_wf : GatherDims.WF S12x12 S2x128x128x128x1 S2x128x128x128x12 [4] [0] [] [0] [] 4 ![1, 12]

variable [Facts₀]

def gather_S2x12x128x128x128_S2x1x128x128x128x1_S2x1x128x128x128_n_1_0234_0234_1_5_11111 : GatherDims S2x12x128x128x128 S2x1x128x128x128x1 S2x1x128x128x128 where
  offsetDims := []
  collapsedSliceDims := [1]
  operandBatchingDims := [0, 2, 3, 4]
  startIndicesBatchingDims := [0, 2, 3, 4]
  startIndexMap := [1]
  indexVectorDim := 5
  sliceSizes := ![1, 1, 1, 1, 1]
  wf := gather_S2x12x128x128x128_S2x1x128x128x128x1_S2x1x128x128x128_n_1_0234_0234_1_5_11111_wf
def gather_S12x12_S2x128x128x128x1_S2x128x128x128x12_4_0_n_n_0_4_112 : GatherDims S12x12 S2x128x128x128x1 S2x128x128x128x12 where
  offsetDims := [4]
  collapsedSliceDims := [0]
  operandBatchingDims := []
  startIndicesBatchingDims := []
  startIndexMap := [0]
  indexVectorDim := 4
  sliceSizes := ![1, 12]
  wf := gather_S12x12_S2x128x128x128x1_S2x128x128x128x12_4_0_n_n_0_4_112_wf

class Facts : Prop extends Facts₀ where

variable [Facts]
-- ==== Proof.Spec.lean ====
/-
  The loss both programs compute, as mathematics over the extended reals.

  A voxel carries twelve class scores x : Fin 12 → EReal and a label t.  With mx = max_c x_c,
  sm = Σ_c e^{x_c - mx}, the log-softmax is lp_c = (x_c - mx) - log sm, the softmax p_c = e^{lp_c}, and the
  one-hot of the label is oh_c = [t = c].  Per sample n and class c the Dice statistics are sums over the voxels:

      inter n c = Σ oh_c · p_c        ground n c = Σ oh_c        pred n c = Σ p_c

  and per sample the cross-entropy and the penalty are

      ceAcc n = Σ_voxels Σ_c oh_c · lp_c            penAcc n = Σ_voxels Σ_t oh_t · (Σ_c M t c · p_c).

  For a label in range the one-hot picks one term: Σ_c oh_c · f c = f t (`oh_pick`).
-/
import Idealize.ShloMosaic.PureOps.Ideal
import Mathlib.Algebra.BigOperators.Fin
import Mathlib.Data.EReal.Operations

noncomputable section

namespace Domino

open Idealize.ShloMosaic

/-- The largest of the twelve scores. -/
def mx (x : Fin 12 → EReal) : EReal := Finset.univ.sup x
/-- The softmax denominator after the shift by the maximum. -/
def sm (x : Fin 12 → EReal) : EReal := ∑ c, Ideal.exp (x c - mx x)
/-- The log-softmax. -/
def lp (x : Fin 12 → EReal) (c : Fin 12) : EReal := x c - mx x - Ideal.log (sm x)
/-- The softmax. -/
def pr (x : Fin 12 → EReal) (c : Fin 12) : EReal := Ideal.exp (lp x c)
/-- The one-hot of a label word at class `c`. -/
def oh (t : BitVec 32) (c : Fin 12) : EReal := if t = BitVec.ofNat 32 c.val then 1 else 0

/-- The logits, the labels and the penalty matrix as functions of their coordinates. -/
abbrev Arr := Fin 2 → Fin 12 → Fin 128 → Fin 128 → Fin 128 → EReal
abbrev Lab := Fin 2 → Fin 128 → Fin 128 → Fin 128 → BitVec 32
abbrev Mat := Fin 12 → Fin 12 → EReal

/-- The twelve scores of one voxel. -/
def vox (x : Arr) (n : Fin 2) (H W Z : Fin 128) : Fin 12 → EReal := fun c => x n c H W Z

def inter (x : Arr) (t : Lab) (n : Fin 2) (c : Fin 12) : EReal :=
  ∑ H, ∑ W, ∑ Z, oh (t n H W Z) c * pr (vox x n H W Z) c
def ground (t : Lab) (n : Fin 2) (c : Fin 12) : EReal := ∑ H, ∑ W, ∑ Z, oh (t n H W Z) c
def pred (x : Arr) (n : Fin 2) (c : Fin 12) : EReal := ∑ H, ∑ W, ∑ Z, pr (vox x n H W Z) c
def ceAcc (x : Arr) (t : Lab) (n : Fin 2) : EReal :=
  ∑ H, ∑ W, ∑ Z, ∑ c, oh (t n H W Z) c * lp (vox x n H W Z) c
def penAcc (x : Arr) (t : Lab) (M : Mat) (n : Fin 2) : EReal :=
  ∑ H, ∑ W, ∑ Z, ∑ tt, oh (t n H W Z) tt * ∑ cp, M tt cp * pr (vox x n H W Z) cp

/-- A label word in range, as a class. -/
def cls (t : BitVec 32) (h : t.toNat < 12) : Fin 12 := ⟨t.toNat, h⟩

/-- The one-hot of a label in range picks that label's term. -/
theorem oh_pick (t : BitVec 32) (h : t.toNat < 12) (f : Fin 12 → EReal) : ∑ c, oh t c * f c = f (cls t h) := by
  rw [Finset.sum_eq_single (cls t h)]
  · have ht : t = BitVec.ofNat 32 (cls t h).val := by
      apply BitVec.eq_of_toNat_eq
      simp only [cls, BitVec.toNat_ofNat]
      omega
    rw [oh, if_pos ht, one_mul]
  · intro c _ hc
    have ht : t ≠ BitVec.ofNat 32 c.val := by
      intro ht
      apply hc
      apply Fin.ext
      have h2 := congrArg BitVec.toNat ht
      simp only [BitVec.toNat_ofNat] at h2
      have := c.isLt
      simp only [cls]
      omega
    rw [oh, if_neg ht, zero_mul]
  · intro hn
    exact absurd (Finset.mem_univ _) hn

/-- A chain of eleven binary maxima is the largest score. -/
theorem max_chain (x : Fin 12 → EReal) :
    max (max (max (max (max (max (max (max (max (max (max (x 0) (x 1)) (x 2)) (x 3)) (x 4)) (x 5)) (x 6)) (x 7)) (x 8)) (x 9)) (x 10)) (x 11)
      = mx x := by
  have hle : ∀ c, x c ≤ mx x := fun c => Finset.le_sup (f := x) (Finset.mem_univ c)
  apply le_antisymm
  · -- every entry of the chain is below the supremum
    repeat' apply max_le
    all_goals exact hle _
  · -- every score is below the chain
    apply Finset.sup_le
    intro c _
    fin_cases c <;> simp [le_max_iff]

/-- Twelve terms added one after another to zero are their sum. -/
theorem add_chain (f : Fin 12 → EReal) :
    0 + f 0 + f 1 + f 2 + f 3 + f 4 + f 5 + f 6 + f 7 + f 8 + f 9 + f 10 + f 11 = ∑ c, f c := by
  simp only [Fin.sum_univ_succ, Fin.sum_univ_zero]
  simp [add_assoc]

/-- A sum over 128 rows is a sum over sixteen blocks of eight rows. -/
theorem sum_rows (g : Fin 128 → EReal) :
    ∑ H : Fin 128, g H = ∑ h : Fin 16, ∑ r : Fin 8, g ⟨8 * h.val + r.val, by have := h.isLt; have := r.isLt; omega⟩ := by
  rw [← Fintype.sum_prod_type']
  symm
  apply Fintype.sum_equiv (finProdFinEquiv (m := 16) (n := 8))
  rintro ⟨h, r⟩
  congr 1
  apply Fin.ext
  simp [finProdFinEquiv]
  omega

/-- Negation passes through a division by a nonzero real. -/
theorem div_neg_real (a : EReal) (y : ℝ) (hy : y ≠ 0) : Ideal.div (-a) (y : EReal) = -(Ideal.div a (y : EReal)) := by
  rw [Ideal.div_coe hy, Ideal.div_coe hy, EReal.neg_mul]

/-- A real factor passes through a division by a nonzero real. -/
theorem div_mul_real (k a : EReal) (y : ℝ) (hy : y ≠ 0) : Ideal.div (k * a) (y : EReal) = k * Ideal.div a (y : EReal) := by
  rw [Ideal.div_coe hy, Ideal.div_coe hy, mul_assoc]

/-- The voxel count 2·128³ as the f32 word both programs divide by. -/
theorem ofBits_count : Ideal.ofBits .f32 0x4A800000#32 = ((4194304 : ℝ) : EReal) := by
  show Ideal.ieee 8 23 (0x4A800000#32) = _
  unfold Ideal.ieee
  -- the three fields of the word: sign 0, exponent 149, fraction 0
  have e1 : (BitVec.extractLsb' (8 + 23) 1 (0x4A800000#32) == 1#1) = false := by decide
  have e2 : (BitVec.extractLsb' 23 8 (0x4A800000#32)).toNat = 149 := by decide
  have e3 : (BitVec.extractLsb' 0 23 (0x4A800000#32)).toNat = 0 := by decide
  simp only [e1, e2, e3]
  -- a normal number: 2^23 · 2^(149 - 127 - 23) = 2^23 · 2^(-1) = 2^22
  have hv : ((if false = true then (-1 : ℝ) else 1) * ((2 ^ 23 + 0 : ℕ) : ℝ)
      * (2 : ℝ) ^ (((149 : ℕ) : ℤ) - (2 ^ (8 - 1) - 1) - ((23 : ℕ) : ℤ))) = 4194304 := by
    norm_num
  -- the exponent is neither all ones nor zero
  rw [if_neg (by norm_num), if_neg (by norm_num), hv]

end Domino

end
-- ==== Proof.Loss.lean ====
/-
  The loss as a closed form of the argument arrays, in the two arrangements the programs use.

  With S the voxel count 2·128³ as an f32 word, ε the smoothing word and the per-sample statistics of Spec.lean,

      dice  = (0 + Σ_{n,c} (1 − (2·inter n c + ε) / (ground n c + pred n c + ε))) / 24
      lossK = ( (−(0 + Σ_n ceAcc n)) / S + dice ) + (3 · (0 + Σ_n penAcc n)) / S
      lossR = ( −((0 + Σ_n ceAcc n) / S) + dice ) + 3 · ((0 + Σ_n penAcc n) / S)

  The two differ only in where the sign and the factor 3 stand relative to the division by the real S ≠ 0.
-/
import proofs.«428624_j85598698209587_3_alg».proof.Proof.Spec
import Idealize.ShloMosaic.Lib.ValueIdx

noncomputable section

namespace Domino

open Idealize.ShloMosaic Idealize.ShloMosaic.ValueIdx

/-- The argument arrays by coordinates. -/
def arr (x0 : (⟨5, ![2, 12, 128, 128, 128]⟩ : Shape).Idx → EReal) : Arr := fun n c H W Z => x0 (ix5 n c H W Z)
def lab (x1 : (⟨5, ![2, 1, 128, 128, 128]⟩ : Shape).Idx → BitVec 32) : Lab := fun n H W Z => x1 (ix5 n (0 : Fin 1) H W Z)
def mat (x2 : (⟨2, ![12, 12]⟩ : Shape).Idx → EReal) : Mat := fun a b => x2 (ix2 a b)

/-- Every label is a class: as an unsigned word it is below twelve. -/
def InRange (x1 : (⟨5, ![2, 1, 128, 128, 128]⟩ : Shape).Idx → BitVec 32) : Prop := ∀ i, (x1 i).toNat < 12

/-- The mean Dice term over the 24 (sample, class) pairs. -/
def dice (I G P : (⟨2, ![2, 12]⟩ : Shape).Idx → EReal) : EReal :=
  Ideal.div
    (Ideal.ofBits .f32 0x00000000#32
      + ∑ j, (Ideal.ofBits .f32 0x3F800000#32
          - Ideal.div (Ideal.ofBits .f32 0x40000000#32 * I j + Ideal.ofBits .f32 0x3727C5AC#32)
              (G j + P j + Ideal.ofBits .f32 0x3727C5AC#32)))
    (Ideal.ofBits .f32 0x41C00000#32)

/-- The Dice term of the per-sample statistics. -/
def diceOf (x : Arr) (t : Lab) : EReal :=
  dice (fun j => inter x t (j 0) (j 1)) (fun j => ground t (j 0) (j 1)) (fun j => pred x (j 0) (j 1))

/-- The kernel's arrangement. -/
def lossK (x : Arr) (t : Lab) (M : Mat) : EReal :=
  (Ideal.div (-(Ideal.ofBits .f32 0x00000000#32 + ∑ n, ceAcc x t n)) (Ideal.ofBits .f32 0x4A800000#32) + diceOf x t)
    + Ideal.div (Ideal.ofBits .f32 0x40400000#32 * (Ideal.ofBits .f32 0x00000000#32 + ∑ n, penAcc x t M n))
        (Ideal.ofBits .f32 0x4A800000#32)

/-- The reference's arrangement. -/
def lossR (x : Arr) (t : Lab) (M : Mat) : EReal :=
  (-(Ideal.div (Ideal.ofBits .f32 0x00000000#32 + ∑ n, ceAcc x t n) (Ideal.ofBits .f32 0x4A800000#32)) + diceOf x t)
    + Ideal.ofBits .f32 0x40400000#32
        * Ideal.div (Ideal.ofBits .f32 0x00000000#32 + ∑ n, penAcc x t M n) (Ideal.ofBits .f32 0x4A800000#32)

theorem lossK_eq_lossR (x : Arr) (t : Lab) (M : Mat) : lossK x t M = lossR x t M := by
  unfold lossK lossR
  -- the divisor word is the real 4194304, which is not zero
  rw [ofBits_count]
  have hS : (4194304 : ℝ) ≠ 0 := by norm_num
  -- move the sign and the factor across the division
  rw [div_neg_real _ _ hS, div_mul_real _ _ _ hS]

end Domino

end
-- ==== Proof.KArgs.lean ====
/-
  The argument arrays of device `c` at launch, by coordinates.
-/
import proofs.«428624_j85598698209587_3_alg».proof.Proof.Gen.KernelIdeal
import proofs.«428624_j85598698209587_3_alg».proof.Proof.Loss

noncomputable section

namespace Cert.KernelIdeal.Mirror

open Idealize.ShloMosaic Idealize.ShloMosaic.TcCoe Idealize.SL.Sem Cert.KernelIdeal

variable (m : (ℓ : Loc nD τ sig) → Buf (Elt Ideal) ℓ)

/-- The logits, labels and penalty matrix of device `c` at launch, by coordinates. -/
abbrev xA (c : Dev nD) : Domino.Arr := Domino.arr (m ((c.tc : Thread nD τ).loc main_arg0))
abbrev tA (c : Dev nD) : Domino.Lab := Domino.lab (m ((c.tc : Thread nD τ).loc main_arg1))
abbrev mA (c : Dev nD) : Domino.Mat := Domino.mat (m ((c.tc : Thread nD τ).loc main_arg2))

end Cert.KernelIdeal.Mirror

end
-- ==== Proof.KDefs.lean ====
/-
  The body of the kernel, written once for a class index.

  One grid point (n, h) holds a block of the logits x : [1, 12, 8, 128, 128], the labels t : [1, 8, 128, 128] and the
  penalty matrix M : [12, 12].  Over the 8·128·128 voxels of the block, with c ranging over the twelve classes:

      mx   = max_c x_c                          (a chain of eleven binary maxima, class 0 first)
      sm   = ((0 + e^{x_0 - mx}) + e^{x_1 - mx}) + … + e^{x_11 - mx}
      lse  = log sm
      lp_c = (x_c - mx) - lse                   (the log-softmax)
      p_c  = e^{lp_c}                           (the softmax)
      oh_c = [t = c] as a float                 (the one-hot of the label)

  and `tot a` is the sum of a over the block's voxels, taken axis by axis (lanes, then sublanes, then rows).
  What the body adds to its five accumulators:

      intersection_c  += tot (oh_c · p_c)          ground_c += tot oh_c          prediction_c += tot p_c
      cross-entropy   += ((0 + tot (oh_0 · lp_0)) + …) + tot (oh_11 · lp_11)
      penalty         += ((0 + tot (oh_0 · v_0)) + …) + tot (oh_11 · v_11),   v_t = ((0 + M[t,0] · p_0) + …) + M[t,11] · p_11

  These definitions spell those vectors with the operations the printed body uses, in its order, at any float family.
-/
import proofs.«428624_j85598698209587_3_alg».proof.Proof.Gen.KernelIdeal
import Idealize.ShloMosaic.Lib.Pipeline.Value

noncomputable section

namespace Cert.KernelIdeal.Mirror

open Idealize.ShloMosaic Idealize.SL.Sem Cert.KernelIdeal Cert.KernelIdeal.Gen

variable {F : FTy → Type} [FloatOps F]

theorem inb_chan (c : Fin 12) :
    ∀ a, (![0, c.val, 0, 0, 0] : Fin 5 → Nat) a + S1x1x8x128x128.size a ≤ S1x12x8x128x128.size a := by
  have := c.isLt
  intro a
  match a with
  | ⟨0, _⟩ => show 0 + 1 ≤ 1; omega
  | ⟨1, _⟩ => show c.val + 1 ≤ 12; omega
  | ⟨2, _⟩ => show 0 + 8 ≤ 8; omega
  | ⟨3, _⟩ => show 0 + 128 ≤ 128; omega
  | ⟨4, _⟩ => show 0 + 128 ≤ 128; omega

theorem slices_M (t cp : Fin 12) : S12x12.Slices ![t.val, cp.val] S1x1 := by
  revert t cp; decide

/-- Class `c`'s logits over the block's voxels. -/
def chan (x0 : Vec F S1x12x8x128x128 .f32) (c : Fin 12) : FVec F S8x128x128 .f32 :=
  shapeCast S8x128x128 (View.ld x0 (Rect.unit ![0, c.val, 0, 0, 0] ![1, 1, 8, 128, 128] (inb_chan c)))
    shapeCasts_S1x1x8x128x128_S8x128x128

/-- The labels over the block's voxels. -/
def labs (x1 : Vec F S1x8x128x128 .i32) : IVec S8x128x128 32 :=
  shapeCast S8x128x128 x1 shapeCasts_S1x8x128x128_S8x128x128

/-- The voxelwise maximum over the classes: eleven binary maxima, class 0 first. -/
def mxv (x0 : Vec F S1x12x8x128x128 .f32) : FVec F S8x128x128 .f32 :=
  maximumf (maximumf (maximumf (maximumf (maximumf (maximumf (maximumf (maximumf (maximumf (maximumf (maximumf
    (chan x0 0) (chan x0 1)) (chan x0 2)) (chan x0 3)) (chan x0 4)) (chan x0 5)) (chan x0 6)) (chan x0 7)) (chan x0 8))
    (chan x0 9)) (chan x0 10)) (chan x0 11)

/-- One term of the softmax denominator. -/
def ev (x0 : Vec F S1x12x8x128x128 .f32) (c : Fin 12) : FVec F S8x128x128 .f32 :=
  exp (subf (chan x0 c) (mxv x0))

/-- The softmax denominator: the twelve terms added to a zero splat, class 0 first. -/
def smv (x0 : Vec F S1x12x8x128x128 .f32) : FVec F S8x128x128 .f32 :=
  addf (addf (addf (addf (addf (addf (addf (addf (addf (addf (addf (addf
    (broadcast S8x128x128 (Scalar.ofBits .f32 0x00000000#32)) (ev x0 0)) (ev x0 1)) (ev x0 2)) (ev x0 3)) (ev x0 4))
    (ev x0 5)) (ev x0 6)) (ev x0 7)) (ev x0 8)) (ev x0 9)) (ev x0 10)) (ev x0 11)

def lsev (x0 : Vec F S1x12x8x128x128 .f32) : FVec F S8x128x128 .f32 := log (smv x0)

/-- The log-softmax of class `c`. -/
def lpv (x0 : Vec F S1x12x8x128x128 .f32) (c : Fin 12) : FVec F S8x128x128 .f32 :=
  subf (subf (chan x0 c) (mxv x0)) (lsev x0)

/-- The softmax of class `c`. -/
def pv (x0 : Vec F S1x12x8x128x128 .f32) (c : Fin 12) : FVec F S8x128x128 .f32 := exp (lpv x0 c)

/-- The one-hot of the labels at class `c`, as floats. -/
def ohv (x1 : Vec F S1x8x128x128 .i32) (c : Fin 12) : FVec F S8x128x128 .f32 :=
  sitofp .f32 (extui 32 (cmpi .eq (labs x1) (broadcast S8x128x128 (BitVec.ofNat 32 c.val))) natLt_1_32)

/-- The sum over the block's voxels, axis by axis: lanes, sublanes, rows. -/
def tot (a : FVec F S8x128x128 .f32) : FVec F S1x1 .f32 :=
  shapeCast S1x1
    (multiReduction .add [0] S1
      (shapeCast S8x1
        (multiReduction .add [1] S8
          (multiReduction .add [2] S8x128 a 0x00000000#32 reduces_S8x128x128_S8x128 (.inl rfl) rfl)
          0x00000000#32 reduces_S8x128_S8 (.inl rfl) rfl)
        shapeCasts_S8_S8x1)
      0x00000000#32 reduces_S8x1_S1 (.inl rfl) rfl)
    shapeCasts_S1_S1x1

/-- Entry (t, cp) of the penalty matrix, splat over the block. -/
def mspl (x2 : Vec F S12x12 .f32) (t cp : Fin 12) : FVec F S8x128x128 .f32 :=
  broadcast S8x128x128 (extractAt ![0, 0] (extractStridedSlice S1x1 ![t.val, cp.val] x2 (slices_M t cp)) inpos_S1x1_p0_0)

/-- Row `t` of the penalty matrix against the softmax, voxelwise: twelve products added to a zero splat, class 0 first. -/
def vt (x0 : Vec F S1x12x8x128x128 .f32) (x2 : Vec F S12x12 .f32) (t : Fin 12) : FVec F S8x128x128 .f32 :=
  addf (addf (addf (addf (addf (addf (addf (addf (addf (addf (addf (addf
    (broadcast S8x128x128 (Scalar.ofBits .f32 0x00000000#32))
    (mulf (mspl x2 t 0) (pv x0 0))) (mulf (mspl x2 t 1) (pv x0 1))) (mulf (mspl x2 t 2) (pv x0 2)))
    (mulf (mspl x2 t 3) (pv x0 3))) (mulf (mspl x2 t 4) (pv x0 4))) (mulf (mspl x2 t 5) (pv x0 5)))
    (mulf (mspl x2 t 6) (pv x0 6))) (mulf (mspl x2 t 7) (pv x0 7))) (mulf (mspl x2 t 8) (pv x0 8)))
    (mulf (mspl x2 t 9) (pv x0 9))) (mulf (mspl x2 t 10) (pv x0 10))) (mulf (mspl x2 t 11) (pv x0 11))

/-- Twelve [1,1] pieces laid side by side into [1,12]. -/
def cat12 (f : Fin 12 → FVec F S1x1 .f32) : FVec F S1x12 .f32 :=
  concatenate S1x12 1 [⟨S1x1, f 0⟩, ⟨S1x1, f 1⟩, ⟨S1x1, f 2⟩, ⟨S1x1, f 3⟩, ⟨S1x1, f 4⟩, ⟨S1x1, f 5⟩, ⟨S1x1, f 6⟩,
    ⟨S1x1, f 7⟩, ⟨S1x1, f 8⟩, ⟨S1x1, f 9⟩, ⟨S1x1, f 10⟩, ⟨S1x1, f 11⟩]
    concatenates_S1x1_S1x1_S1x1_S1x1_S1x1_S1x1_S1x1_S1x1_S1x1_S1x1_S1x1_S1x1_S1x12_d1

/-- A [1,12] accumulator `xo` plus twelve per-class totals. -/
def acc12 (xo : Vec F S1x1x12 .f32) (f : Fin 12 → FVec F S1x1 .f32) : FVec F S1x1x12 .f32 :=
  shapeCast S1x1x12 (addf (shapeCast S1x12 xo shapeCasts_S1x1x12_S1x12) (cat12 f)) shapeCasts_S1x12_S1x1x12

/-- A [1,1] accumulator `xo` plus one total. -/
def acc1 (xo : Vec F S1x1x1 .f32) (a : FVec F S1x1 .f32) : FVec F S1x1x1 .f32 :=
  shapeCast S1x1x1 (addf (shapeCast S1x1 xo shapeCasts_S1x1x1_S1x1) a) shapeCasts_S1x1_S1x1x1

/-- Twelve [1,1] values added to a zero splat, index 0 first. -/
def chain12 (f : Fin 12 → FVec F S1x1 .f32) : FVec F S1x1 .f32 :=
  addf (addf (addf (addf (addf (addf (addf (addf (addf (addf (addf (addf
    (broadcast S1x1 (Scalar.ofBits .f32 0x00000000#32)) (f 0)) (f 1)) (f 2)) (f 3)) (f 4)) (f 5)) (f 6)) (f 7)) (f 8))
    (f 9)) (f 10)) (f 11)

/-- What the body leaves in the intersection accumulator that held `xo`. -/
def newInter (x0 : Vec F S1x12x8x128x128 .f32) (x1 : Vec F S1x8x128x128 .i32) (xo : Vec F S1x1x12 .f32) : FVec F S1x1x12 .f32 :=
  acc12 xo fun c => tot (mulf (ohv x1 c) (pv x0 c))
/-- The ground-truth count accumulator. -/
def newGround (x1 : Vec F S1x8x128x128 .i32) (xo : Vec F S1x1x12 .f32) : FVec F S1x1x12 .f32 :=
  acc12 xo fun c => tot (ohv (F := F) x1 c)
/-- The prediction mass accumulator. -/
def newPred (x0 : Vec F S1x12x8x128x128 .f32) (xo : Vec F S1x1x12 .f32) : FVec F S1x1x12 .f32 :=
  acc12 xo fun c => tot (pv x0 c)
/-- The cross-entropy accumulator. -/
def newCe (x0 : Vec F S1x12x8x128x128 .f32) (x1 : Vec F S1x8x128x128 .i32) (xo : Vec F S1x1x1 .f32) : FVec F S1x1x1 .f32 :=
  acc1 xo (chain12 fun c => tot (mulf (ohv x1 c) (lpv x0 c)))
/-- The penalty accumulator. -/
def newPen (x0 : Vec F S1x12x8x128x128 .f32) (x1 : Vec F S1x8x128x128 .i32) (x2 : Vec F S12x12 .f32) (xo : Vec F S1x1x1 .f32) :
    FVec F S1x1x1 .f32 :=
  acc1 xo (chain12 fun t => tot (mulf (ohv x1 t) (vt x0 x2 t)))

/-- The zero blocks the first point of a row of the grid stores before accumulating. -/
def zero12 : FVec F S1x1x12 .f32 :=
  shapeCast S1x1x12 (broadcast S1x12 (Scalar.ofBits .f32 0x00000000#32)) shapeCasts_S1x12_S1x1x12
def zero1 : FVec F S1x1x1 .f32 :=
  shapeCast S1x1x1 (broadcast S1x1 (Scalar.ofBits .f32 0x00000000#32)) shapeCasts_S1x1_S1x1x1

end Cert.KernelIdeal.Mirror

end
-- ==== Proof.KPieces.lean ====
/-
  What one run of the body leaves in each accumulator, for the two kinds of grid point.

  At a point that continues a row of the grid (h > 0) each accumulator that held `xo` ends at `xo` plus the block's
  contribution; at a point that starts a row (h = 0) the body first stores a zero block, reads it back, and ends at
  zero plus the contribution.  The contributions are the vectors of KDefs.lean: the run's stored payloads, with the
  values the run named along the way opened, are those terms.
-/
import proofs.«428624_j85598698209587_3_alg».proof.Proof.Gen.KernelIdeal.Frame
import proofs.«428624_j85598698209587_3_alg».proof.Proof.KDefs
import Idealize.ShloMosaic.Lib.Pipeline.Value
import Idealize.ShloMosaic.Lib.Tactic

set_option maxRecDepth 16384

noncomputable section

namespace Cert.KernelIdeal.Mirror

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point that continues a row: the intersection accumulator. -/
theorem out_B_3 (c : Dev nD) (i : grid0.Coords) (arg2 : Memref sig .tc .vmem S1x12x8x128x128 .f32) (harg2 : arg2.IsWhole) (arg3 : Memref sig .tc .vmem S1x8x128x128 .i32) (harg3 : arg3.IsWhole) (arg4 : Memref sig .tc .vmem S12x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i)
    (x0 : Vec F S1x12x8x128x128 .f32) (x1 : Vec F S1x8x128x128 .i32) (x2 : Vec F S12x12 .f32) (xo3 : Vec F S1x1x12 .f32) (xo4 : Vec F S1x1x12 .f32) (xo5 : Vec F S1x1x12 .f32) (xo6 : Vec F S1x1x1 .f32) (xo7 : Vec F S1x1x1 .f32) :
    out0_B_3 c i arg2 harg2 arg3 harg3 arg4 harg4 arg5 harg5 arg6 harg6 arg7 harg7 arg8 harg8 arg9 harg9 hc0 x0 x1 x2 xo3 xo4 xo5 xo6 xo7 = newInter x0 x1 xo3 := by
  unfold out0_B_3
  rw [View.read_writes_eq_canon _ _ _ (cover0_B_3 c i arg2 harg2 arg3 harg3 arg4 harg4 arg5 harg5 arg6 harg6 arg7 harg7 arg8 harg8 arg9 harg9 hc0 x0 x1 x2 xo3 xo4 xo5 xo6 xo7)]
  unfold kernelRun0_B
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x1x12) hz3, View.ld_unit_zero (S := S1x1x1) hz3, View.ld_unit_zero (S := S1x8x128x128) hz4, View.ld_unit_zero (S := S12x12) hz2]
  rfl

/-- A point that continues a row: the ground-truth count accumulator. -/
theorem out_B_4 (c : Dev nD) (i : grid0.Coords) (arg2 : Memref sig .tc .vmem S1x12x8x128x128 .f32) (harg2 : arg2.IsWhole) (arg3 : Memref sig .tc .vmem S1x8x128x128 .i32) (harg3 : arg3.IsWhole) (arg4 : Memref sig .tc .vmem S12x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i)
    (x0 : Vec F S1x12x8x128x128 .f32) (x1 : Vec F S1x8x128x128 .i32) (x2 : Vec F S12x12 .f32) (xo3 : Vec F S1x1x12 .f32) (xo4 : Vec F S1x1x12 .f32) (xo5 : Vec F S1x1x12 .f32) (xo6 : Vec F S1x1x1 .f32) (xo7 : Vec F S1x1x1 .f32) :
    out0_B_4 c i arg2 harg2 arg3 harg3 arg4 harg4 arg5 harg5 arg6 harg6 arg7 harg7 arg8 harg8 arg9 harg9 hc0 x0 x1 x2 xo3 xo4 xo5 xo6 xo7 = newGround x1 xo4 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 xo3 xo4 xo5 xo6 xo7)]
  unfold kernelRun0_B
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x1x12) hz3, View.ld_unit_zero (S := S1x1x1) hz3, View.ld_unit_zero (S := S1x8x128x128) hz4, View.ld_unit_zero (S := S12x12) hz2]
  rfl

/-- A point that continues a row: the prediction mass accumulator. -/
theorem out_B_5 (c : Dev nD) (i : grid0.Coords) (arg2 : Memref sig .tc .vmem S1x12x8x128x128 .f32) (harg2 : arg2.IsWhole) (arg3 : Memref sig .tc .vmem S1x8x128x128 .i32) (harg3 : arg3.IsWhole) (arg4 : Memref sig .tc .vmem S12x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i)
    (x0 : Vec F S1x12x8x128x128 .f32) (x1 : Vec F S1x8x128x128 .i32) (x2 : Vec F S12x12 .f32) (xo3 : Vec F S1x1x12 .f32) (xo4 : Vec F S1x1x12 .f32) (xo5 : Vec F S1x1x12 .f32) (xo6 : Vec F S1x1x1 .f32) (xo7 : Vec F S1x1x1 .f32) :
    out0_B_5 c i arg2 harg2 arg3 harg3 arg4 harg4 arg5 harg5 arg6 harg6 arg7 harg7 arg8 harg8 arg9 harg9 hc0 x0 x1 x2 xo3 xo4 xo5 xo6 xo7 = newPred x0 xo5 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 xo3 xo4 xo5 xo6 xo7)]
  unfold kernelRun0_B
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x1x12) hz3, View.ld_unit_zero (S := S1x1x1) hz3, View.ld_unit_zero (S := S1x8x128x128) hz4, View.ld_unit_zero (S := S12x12) hz2]
  rfl

/-- A point that continues a row: the cross-entropy accumulator. -/
theorem out_B_6 (c : Dev nD) (i : grid0.Coords) (arg2 : Memref sig .tc .vmem S1x12x8x128x128 .f32) (harg2 : arg2.IsWhole) (arg3 : Memref sig .tc .vmem S1x8x128x128 .i32) (harg3 : arg3.IsWhole) (arg4 : Memref sig .tc .vmem S12x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i)
    (x0 : Vec F S1x12x8x128x128 .f32) (x1 : Vec F S1x8x128x128 .i32) (x2 : Vec F S12x12 .f32) (xo3 : Vec F S1x1x12 .f32) (xo4 : Vec F S1x1x12 .f32) (xo5 : Vec F S1x1x12 .f32) (xo6 : Vec F S1x1x1 .f32) (xo7 : Vec F S1x1x1 .f32) :
    out0_B_6 c i arg2 harg2 arg3 harg3 arg4 harg4 arg5 harg5 arg6 harg6 arg7 harg7 arg8 harg8 arg9 harg9 hc0 x0 x1 x2 xo3 xo4 xo5 xo6 xo7 = newCe x0 x1 xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 xo3 xo4 xo5 xo6 xo7)]
  unfold kernelRun0_B
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x1x12) hz3, View.ld_unit_zero (S := S1x1x1) hz3, View.ld_unit_zero (S := S1x8x128x128) hz4, View.ld_unit_zero (S := S12x12) hz2]
  rfl

/-- A point that continues a row: the penalty accumulator. -/
theorem out_B_7 (c : Dev nD) (i : grid0.Coords) (arg2 : Memref sig .tc .vmem S1x12x8x128x128 .f32) (harg2 : arg2.IsWhole) (arg3 : Memref sig .tc .vmem S1x8x128x128 .i32) (harg3 : arg3.IsWhole) (arg4 : Memref sig .tc .vmem S12x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i)
    (x0 : Vec F S1x12x8x128x128 .f32) (x1 : Vec F S1x8x128x128 .i32) (x2 : Vec F S12x12 .f32) (xo3 : Vec F S1x1x12 .f32) (xo4 : Vec F S1x1x12 .f32) (xo5 : Vec F S1x1x12 .f32) (xo6 : Vec F S1x1x1 .f32) (xo7 : Vec F S1x1x1 .f32) :
    out0_B_7 c i arg2 harg2 arg3 harg3 arg4 harg4 arg5 harg5 arg6 harg6 arg7 harg7 arg8 harg8 arg9 harg9 hc0 x0 x1 x2 xo3 xo4 xo5 xo6 xo7 = newPen x0 x1 x2 xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 xo3 xo4 xo5 xo6 xo7)]
  unfold kernelRun0_B
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x1x12) hz3, View.ld_unit_zero (S := S1x1x1) hz3, View.ld_unit_zero (S := S1x8x128x128) hz4, View.ld_unit_zero (S := S12x12) hz2]
  rfl

/-- A point that starts a row: the intersection accumulator, from the zero block. -/
theorem out_A_3 (c : Dev nD) (i : grid0.Coords) (arg2 : Memref sig .tc .vmem S1x12x8x128x128 .f32) (harg2 : arg2.IsWhole) (arg3 : Memref sig .tc .vmem S1x8x128x128 .i32) (harg3 : arg3.IsWhole) (arg4 : Memref sig .tc .vmem S12x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (arg8 : Memref sig .tc .vmem S1x1x1 .f32) (harg8 : arg8.IsWhole) (arg9 : Memref sig .tc .vmem S1x1x1 .f32) (harg9 : arg9.IsWhole) (hc0 : cond0_0 i)
    (x0 : Vec F S1x12x8x128x128 .f32) (x1 : Vec F S1x8x128x128 .i32) (x2 : Vec F S12x12 .f32) :
    out0_A_3 c i arg2 harg2 arg3 harg3 arg4 harg4 arg5 harg5 arg6 harg6 arg7 harg7 arg8 harg8 arg9 harg9 hc0 x0 x1 x2 = newInter x0 x1 zero12 := by
  unfold out0_A_3
  rw [View.read_writes_eq_canon _ _ _ (cover0_A_3 c i arg2 harg2 arg3 harg3 arg4 harg4 arg5 harg5 arg6 harg6 arg7 harg7 arg8 harg8 arg9 harg9 hc0 x0 x1 x2)]
  unfold kernelRun0_A
  dsimp only
  sl_unfold_run_names
  rw [View.canon_cons_unit_zero (S := S1x1x12) hz3, View.readCov_unit_zero (S := S1x1x12) _ hz3]
  simp only [View.readAt_eq_ld, harg2.read_unread, harg3.read_unread, harg4.read_unread, harg5.read_unread, harg6.read_unread, harg7.read_unread, harg8.read_unread, harg9.read_unread, View.ld_unit_zero (S := S1x1x12) hz3, View.ld_unit_zero (S := S1x1x1) hz3, View.ld_unit_zero (S := S1x8x128x128) hz4, View.ld_unit_zero (S := S12x12) hz2]
  rfl

/-- A point that starts a row: the ground-truth count accumulator, from the zero block. -/
theorem out_A_4 (c : Dev nD) (i : grid0.Coords) (arg2 : Memref sig .tc .vmem S1x12x8x128x128 .f32) (harg2 : arg2.IsWhole) (arg3 : Memref sig .tc .vmem S1x8x128x128 .i32) (harg3 : arg3.IsWhole) (arg4 : Memref sig .tc .vmem S12x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (arg8 : Memref sig .tc .vmem S1x1x1 .f32) (harg8 : arg8.IsWhole) (arg9 : Memref sig .tc .vmem S1x1x1 .f32) (harg9 : arg9.IsWhole) (hc0 : cond0_0 i)
    (x0 : Vec F S1x12x8x128x128 .f32) (x1 : Vec F S1x8x128x128 .i32) (x2 : Vec F S12x12 .f32) :
    out0_A_4 c i arg2 harg2 arg3 harg3 arg4 harg4 arg5 harg5 arg6 harg6 arg7 harg7 arg8 harg8 arg9 harg9 hc0 x0 x1 x2 = newGround x1 zero12 := by
  unfold out0_A_4
  rw [View.read_writes_eq_canon _ _ _ (cover0_A_4 c i arg2 harg2 arg3 harg3 arg4 harg4 arg5 harg5 arg6 harg6 arg7 harg7 arg8 harg8 arg9 harg9 hc0 x0 x1 x2)]
  unfold kernelRun0_A
  dsimp only
  sl_unfold_run_names
  rw [View.canon_cons_unit_zero (S := S1x1x12) hz3, View.readCov_unit_zero (S := S1x1x12) _ hz3]
  simp only [View.readAt_eq_ld, harg2.read_unread, harg3.read_unread, harg4.read_unread, harg5.read_unread, harg6.read_unread, harg7.read_unread, harg8.read_unread, harg9.read_unread, View.ld_unit_zero (S := S1x1x12) hz3, View.ld_unit_zero (S := S1x1x1) hz3, View.ld_unit_zero (S := S1x8x128x128) hz4, View.ld_unit_zero (S := S12x12) hz2]
  rfl

/-- A point that starts a row: the prediction mass accumulator, from the zero block. -/
theorem out_A_5 (c : Dev nD) (i : grid0.Coords) (arg2 : Memref sig .tc .vmem S1x12x8x128x128 .f32) (harg2 : arg2.IsWhole) (arg3 : Memref sig .tc .vmem S1x8x128x128 .i32) (harg3 : arg3.IsWhole) (arg4 : Memref sig .tc .vmem S12x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (arg8 : Memref sig .tc .vmem S1x1x1 .f32) (harg8 : arg8.IsWhole) (arg9 : Memref sig .tc .vmem S1x1x1 .f32) (harg9 : arg9.IsWhole) (hc0 : cond0_0 i)
    (x0 : Vec F S1x12x8x128x128 .f32) (x1 : Vec F S1x8x128x128 .i32) (x2 : Vec F S12x12 .f32) :
    out0_A_5 c i arg2 harg2 arg3 harg3 arg4 harg4 arg5 harg5 arg6 harg6 arg7 harg7 arg8 harg8 arg9 harg9 hc0 x0 x1 x2 = newPred x0 zero12 := by
  unfold out0_A_5
  rw [View.read_writes_eq_canon _ _ _ (cover0_A_5 c i arg2 harg2 arg3 harg3 arg4 harg4 arg5 harg5 arg6 harg6 arg7 harg7 arg8 harg8 arg9 harg9 hc0 x0 x1 x2)]
  unfold kernelRun0_A
  dsimp only
  sl_unfold_run_names
  rw [View.canon_cons_unit_zero (S := S1x1x12) hz3, View.readCov_unit_zero (S := S1x1x12) _ hz3]
  simp only [View.readAt_eq_ld, harg2.read_unread, harg3.read_unread, harg4.read_unread, harg5.read_unread, harg6.read_unread, harg7.read_unread, harg8.read_unread, harg9.read_unread, View.ld_unit_zero (S := S1x1x12) hz3, View.ld_unit_zero (S := S1x1x1) hz3, View.ld_unit_zero (S := S1x8x128x128) hz4, View.ld_unit_zero (S := S12x12) hz2]
  rfl

/-- A point that starts a row: the cross-entropy accumulator, from the zero block. -/
theorem out_A_6 (c : Dev nD) (i : grid0.Coords) (arg2 : Memref sig .tc .vmem S1x12x8x128x128 .f32) (harg2 : arg2.IsWhole) (arg3 : Memref sig .tc .vmem S1x8x128x128 .i32) (harg3 : arg3.IsWhole) (arg4 : Memref sig .tc .vmem S12x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (arg8 : Memref sig .tc .vmem S1x1x1 .f32) (harg8 : arg8.IsWhole) (arg9 : Memref sig .tc .vmem S1x1x1 .f32) (harg9 : arg9.IsWhole) (hc0 : cond0_0 i)
    (x0 : Vec F S1x12x8x128x128 .f32) (x1 : Vec F S1x8x128x128 .i32) (x2 : Vec F S12x12 .f32) :
    out0_A_6 c i arg2 harg2 arg3 harg3 arg4 harg4 arg5 harg5 arg6 harg6 arg7 harg7 arg8 harg8 arg9 harg9 hc0 x0 x1 x2 = newCe x0 x1 zero1 := by
  unfold out0_A_6
  rw [View.read_writes_eq_canon _ _ _ (cover0_A_6 c i arg2 harg2 arg3 harg3 arg4 harg4 arg5 harg5 arg6 harg6 arg7 harg7 arg8 harg8 arg9 harg9 hc0 x0 x1 x2)]
  unfold kernelRun0_A
  dsimp only
  sl_unfold_run_names
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, View.ld_unit_zero (S := S1x1x12) hz3, View.ld_unit_zero (S := S1x1x1) hz3, View.ld_unit_zero (S := S1x8x128x128) hz4, View.ld_unit_zero (S := S12x12) hz2]
  rfl

/-- A point that starts a row: the penalty accumulator, from the zero block. -/
theorem out_A_7 (c : Dev nD) (i : grid0.Coords) (arg2 : Memref sig .tc .vmem S1x12x8x128x128 .f32) (harg2 : arg2.IsWhole) (arg3 : Memref sig .tc .vmem S1x8x128x128 .i32) (harg3 : arg3.IsWhole) (arg4 : Memref sig .tc .vmem S12x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (arg8 : Memref sig .tc .vmem S1x1x1 .f32) (harg8 : arg8.IsWhole) (arg9 : Memref sig .tc .vmem S1x1x1 .f32) (harg9 : arg9.IsWhole) (hc0 : cond0_0 i)
    (x0 : Vec F S1x12x8x128x128 .f32) (x1 : Vec F S1x8x128x128 .i32) (x2 : Vec F S12x12 .f32) :
    out0_A_7 c i arg2 harg2 arg3 harg3 arg4 harg4 arg5 harg5 arg6 harg6 arg7 harg7 arg8 harg8 arg9 harg9 hc0 x0 x1 x2 = newPen x0 x1 x2 zero1 := by
  unfold out0_A_7
  rw [View.read_writes_eq_canon _ _ _ (cover0_A_7 c i arg2 harg2 arg3 harg3 arg4 harg4 arg5 harg5 arg6 harg6 arg7 harg7 arg8 harg8 arg9 harg9 hc0 x0 x1 x2)]
  unfold kernelRun0_A
  dsimp only
  sl_unfold_run_names
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, View.ld_unit_zero (S := S1x1x12) hz3, View.ld_unit_zero (S := S1x1x1) hz3, View.ld_unit_zero (S := S1x8x128x128) hz4, View.ld_unit_zero (S := S12x12) hz2]
  rfl

end Cert.KernelIdeal.Mirror

end
-- ==== Proof.KIblk.lean ====
/-
  The input blocks of a grid point, read at an index.

  Point t = 16·n + h of the 2 × 16 grid is handed rows 8h … 8h+7 of sample n: the logits' block at (0, k, r, w, z) is
  the logits array at (n, k, 8h + r, w, z), the labels' block at (0, r, w, z) is the label array at (n, 8h + r, w, z)
  (the labels reach the region through a reshape that drops their unit axis), and the penalty matrix is handed whole.
-/
import proofs.«428624_j85598698209587_3_alg».proof.Proof.Gen.KernelIdeal.Frame
import proofs.«428624_j85598698209587_3_alg».proof.Proof.Loss
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.Mirror

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The sample a grid point works on. -/
def sampleOf (t : Fin cfg0.N) : Fin 2 :=
  ⟨t.val / 16, by have h : t.val < 32 := lt_of_lt_of_eq t.isLt (show cfg0.N = 32 from N_0); omega⟩
/-- Row r of the point's block, as a row of the array. -/
def rowOf (t : Fin cfg0.N) (r : Fin 8) : Fin 128 :=
  ⟨8 * (t.val % 16) + r.val, by have := r.isLt; omega⟩

theorem iblk0_apply (c : Dev nD) (t : Fin cfg0.N) (k : Fin 12) (r : Fin 8) (w z : Fin 128) :
    (iblk (F := Ideal) m c 0 t : Vec Ideal S1x12x8x128x128 .f32) (ix5 (0 : Fin 1) k r w z)
      = Domino.arr (m ((c.tc : Thread nD τ).loc main_arg0)) (sampleOf t) k (rowOf t r) w z := by
  -- the block index of the point on each axis, decided over the 32 points
  have hi : ∀ t : Fin grid0.N, win0_0.index t 0 = t.val / 16 ∧ win0_0.index t 1 = 0 ∧ win0_0.index t 2 = t.val % 16
      ∧ win0_0.index t 3 = 0 ∧ win0_0.index t 4 = 0 := by decide +kernel
  obtain ⟨h0, h1, h2, h3, h4⟩ := hi t
  unfold iblk Domino.arr
  rw [View.read_apply]
  show V m c main_arg0 _ = m (c.tc.loc main_arg0) _
  rw [V_main_arg0]
  congr 1
  funext a
  apply Fin.ext
  -- per axis: block index times block size plus the coordinate in the block
  match a with
  | ⟨0, _⟩ => show win0_0.index t 0 * 1 + 1 * 0 = t.val / 16; omega
  | ⟨1, _⟩ => show win0_0.index t 1 * 12 + 1 * k.val = k.val; omega
  | ⟨2, _⟩ => show win0_0.index t 2 * 8 + 1 * r.val = 8 * (t.val % 16) + r.val; omega
  | ⟨3, _⟩ => show win0_0.index t 3 * 128 + 1 * w.val = w.val; omega
  | ⟨4, _⟩ => show win0_0.index t 4 * 128 + 1 * z.val = z.val; omega

theorem iblk1_apply (c : Dev nD) (t : Fin cfg0.N) (r : Fin 8) (w z : Fin 128) :
    (iblk (F := Ideal) m c 1 t : Vec Ideal S1x8x128x128 .i32) (ix4 (0 : Fin 1) r w z)
      = Domino.lab (m ((c.tc : Thread nD τ).loc main_arg1)) (sampleOf t) (rowOf t r) w z := by
  -- the block index of the point on each axis, decided over the 32 points
  have hi : ∀ t : Fin grid0.N, win0_1.index t 0 = t.val / 16 ∧ win0_1.index t 1 = t.val % 16 ∧ win0_1.index t 2 = 0
      ∧ win0_1.index t 3 = 0 := by decide +kernel
  obtain ⟨h0, h1, h2, h3⟩ := hi t
  -- the array the window reads is the label array with its unit axis dropped
  have e : (V m c main_v0 : S2x128x128x128.Idx → BitVec 32)
      = shapeCast _ (m ((c.tc : Thread nD τ).loc main_arg1)) shapeCasts_S2x1x128x128x128_S2x128x128x128 := by
    show StableHlo.after hostOps0 (fun b => m (c, b)) (Proc.devRef .tc main_v0) = _
    after_results
    rfl
  unfold iblk Domino.lab
  rw [View.read_apply]
  show V m c main_v0 _ = m (c.tc.loc main_arg1) _
  rw [e]
  -- (n, H, W, Z) of the reshaped array and (n, 0, H, W, Z) of the labels have the same row-major position
  refine shapeCast_apply _ _ _ (ix5 (sampleOf t) (0 : Fin 1) (rowOf t r) w z) ?_
  rw [Shape.rowMajor_val_five, Shape.rowMajor_val_four]
  show ((((t.val / 16) * 1 + 0) * 128 + (8 * (t.val % 16) + r.val)) * 128 + w.val) * 128 + z.val
    = (((win0_1.index t 0 * 1 + 1 * 0) * 128 + (win0_1.index t 1 * 8 + 1 * r.val)) * 128
        + (win0_1.index t 2 * 128 + 1 * w.val)) * 128 + (win0_1.index t 3 * 128 + 1 * z.val)
  omega

theorem iblk2_apply (c : Dev nD) (t : Fin cfg0.N) (a b : Fin 12) :
    (iblk (F := Ideal) m c 2 t : Vec Ideal S12x12 .f32) (ix2 a b) = Domino.mat (m ((c.tc : Thread nD τ).loc main_arg2)) a b := by
  -- the matrix is handed whole: block index 0 on both axes at every point
  have hi : ∀ t : Fin grid0.N, win0_2.index t 0 = 0 ∧ win0_2.index t 1 = 0 := by decide +kernel
  obtain ⟨h0, h1⟩ := hi t
  unfold iblk Domino.mat
  rw [View.read_apply]
  show V m c main_arg2 _ = m (c.tc.loc main_arg2) _
  rw [V_main_arg2]
  congr 1
  funext i
  apply Fin.ext
  match i with
  | ⟨0, _⟩ => show win0_2.index t 0 * 12 + 1 * a.val = a.val; omega
  | ⟨1, _⟩ => show win0_2.index t 1 * 12 + 1 * b.val = b.val; omega

end Cert.KernelIdeal.Mirror

end
-- ==== Proof.KBlock.lean ====
/-
  The block's contribution to each accumulator, read at an index over the extended reals.

  With x the block of logits, t the block of labels and M the penalty matrix, each accumulator that held `xo` ends, at
  its class index c (or at its one index), at `xo` there plus a triple sum over the block's rows r, sublanes w and
  lanes z of the voxel's term: oh_c · p_c, oh_c, p_c, Σ_c oh_c · lp_c, Σ_t oh_t · Σ_c M t c · p_c.
-/
import proofs.«428624_j85598698209587_3_alg».proof.Proof.KDefs
import proofs.«428624_j85598698209587_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Mirror

open Idealize.ShloMosaic Idealize.ShloMosaic.ValueIdx Idealize.SL.Sem Cert.KernelIdeal Cert.KernelIdeal.Gen

/-- The twelve scores of the block's voxel (r, w, z). -/
def bx (x0 : Vec Ideal S1x12x8x128x128 .f32) (r : Fin 8) (w z : Fin 128) : Fin 12 → EReal :=
  fun c => x0 (ix5 (0 : Fin 1) c r w z)
/-- The label of the block's voxel (r, w, z). -/
def bt (x1 : Vec Ideal S1x8x128x128 .i32) (r : Fin 8) (w z : Fin 128) : BitVec 32 := x1 (ix4 (0 : Fin 1) r w z)

theorem zero12_apply (j : S1x1x12.Idx) : zero12 (F := Ideal) j = 0 := by
  unfold zero12 shapeCast broadcast
  exact Ideal.ofBits_zero_f32
theorem zero1_apply (j : S1x1x1.Idx) : zero1 (F := Ideal) j = 0 := by
  unfold zero1 shapeCast broadcast
  exact Ideal.ofBits_zero_f32

/-- Class c's slice of the block read at a voxel. -/
theorem chan_apply (x0 : Vec Ideal S1x12x8x128x128 .f32) (c : Fin 12) (r : Fin 8) (w z : Fin 128) :
    chan x0 c (ix3 r w z) = x0 (ix5 (0 : Fin 1) c r w z) := by
  unfold chan
  refine (shapeCast_apply _ _ _ (ix5 (0 : Fin 1) (0 : Fin 1) r w z) ?_).trans ?_
  · rw [Shape.rowMajor_val_five, Shape.rowMajor_val_three]
    show ((((0 * 1 + 0) * 8 + r.val) * 128 + w.val) * 128 + z.val) = (r.val * 128 + w.val) * 128 + z.val
    simp only [Nat.zero_mul, Nat.zero_add]
  · show x0 _ = x0 _
    congr 1
    funext a
    apply Fin.ext
    match a with
    | ⟨0, _⟩ => rfl
    | ⟨1, _⟩ => show c.val + 1 * 0 = c.val; omega
    | ⟨2, _⟩ => show 0 + 1 * r.val = r.val; omega
    | ⟨3, _⟩ => show 0 + 1 * w.val = w.val; omega
    | ⟨4, _⟩ => show 0 + 1 * z.val = z.val; omega

theorem mxv_apply (x0 : Vec Ideal S1x12x8x128x128 .f32) (r : Fin 8) (w z : Fin 128) :
    mxv x0 (ix3 r w z) = Domino.mx (bx x0 r w z) := by
  unfold mxv
  simp only [maximumf_apply, chan_apply]
  exact Domino.max_chain (bx x0 r w z)

theorem ev_apply (x0 : Vec Ideal S1x12x8x128x128 .f32) (c : Fin 12) (r : Fin 8) (w z : Fin 128) :
    ev x0 c (ix3 r w z) = Ideal.exp (bx x0 r w z c - Domino.mx (bx x0 r w z)) := by
  unfold ev
  show Ideal.exp (subf (chan x0 c) (mxv x0) (ix3 r w z)) = _
  rw [subf_apply, chan_apply, mxv_apply]
  rfl

theorem smv_apply (x0 : Vec Ideal S1x12x8x128x128 .f32) (r : Fin 8) (w z : Fin 128) :
    smv x0 (ix3 r w z) = Domino.sm (bx x0 r w z) := by
  unfold smv
  simp only [addf_apply, broadcast_apply, ev_apply]
  show Ideal.ofBits .f32 0x00000000#32 + _ + _ + _ + _ + _ + _ + _ + _ + _ + _ + _ + _ = _
  rw [Ideal.ofBits_zero_f32]
  exact Domino.add_chain fun c => Ideal.exp (bx x0 r w z c - Domino.mx (bx x0 r w z))

theorem lpv_apply (x0 : Vec Ideal S1x12x8x128x128 .f32) (c : Fin 12) (r : Fin 8) (w z : Fin 128) :
    lpv x0 c (ix3 r w z) = Domino.lp (bx x0 r w z) c := by
  unfold lpv lsev
  rw [subf_apply, subf_apply, chan_apply, mxv_apply]
  show _ - _ - Ideal.log (smv x0 (ix3 r w z)) = _
  rw [smv_apply]
  rfl

theorem pv_apply (x0 : Vec Ideal S1x12x8x128x128 .f32) (c : Fin 12) (r : Fin 8) (w z : Fin 128) :
    pv x0 c (ix3 r w z) = Domino.pr (bx x0 r w z) c := by
  unfold pv
  show Ideal.exp (lpv x0 c (ix3 r w z)) = _
  rw [lpv_apply]
  rfl

/-- The labels read at a voxel. -/
theorem labs_apply (x1 : Vec Ideal S1x8x128x128 .i32) (r : Fin 8) (w z : Fin 128) :
    labs (F := Ideal) x1 (ix3 r w z) = bt x1 r w z := by
  unfold labs bt
  exact shapeCast_1abc_abc_apply x1 _ r w z

/-- A one-bit compare word widened and read as a signed integer is 1 where the words agree and 0 elsewhere. -/
theorem oh_word (t u : BitVec 32) :
    (((((IntOp.cmpi .eq t u).setWidth 32).toInt : ℝ)) : EReal) = if t = u then 1 else 0 := by
  by_cases h : t = u
  · rw [if_pos h]
    have hb : (t == u) = true := beq_iff_eq.mpr h
    have : (IntOp.cmpi .eq t u).setWidth 32 = 1#32 := by
      show (BitVec.ofBool (t == u)).setWidth 32 = 1#32
      rw [hb]; rfl
    rw [this]
    norm_num
  · rw [if_neg h]
    have hb : (t == u) = false := beq_eq_false_iff_ne.mpr h
    have : (IntOp.cmpi .eq t u).setWidth 32 = 0#32 := by
      show (BitVec.ofBool (t == u)).setWidth 32 = 0#32
      rw [hb]; rfl
    rw [this]
    norm_num

theorem ohv_apply (x1 : Vec Ideal S1x8x128x128 .i32) (c : Fin 12) (r : Fin 8) (w z : Fin 128) :
    ohv (F := Ideal) x1 c (ix3 r w z) = Domino.oh (bt x1 r w z) c := by
  unfold ohv
  rw [sitofp_apply, extui_apply, ← labs_apply]
  exact oh_word _ _

/-- The index over (r, w) with lane z inserted. -/
theorem lift_lanes (r : Fin 8) (w z : Fin 128) :
    reduces_S8x128x128_S8x128.lift (ix2 r w) z = ix3 r w z := by
  funext a
  apply Fin.ext
  match a with
  | ⟨0, _⟩ => rfl
  | ⟨1, _⟩ => rfl
  | ⟨2, _⟩ => rfl

/-- The index over r with sublane w inserted. -/
theorem lift_sublanes (r : Fin 8) (w : Fin 128) :
    reduces_S8x128_S8.lift (ix1 r) w = ix2 r w := by
  funext a
  apply Fin.ext
  match a with
  | ⟨0, _⟩ => rfl
  | ⟨1, _⟩ => rfl

/-- The index over the one remaining column with row r inserted. -/
theorem lift_rows (r : Fin 8) :
    reduces_S8x1_S1.lift (ix1 (0 : Fin 1)) r = ix2 r (0 : Fin 1) := by
  funext a
  apply Fin.ext
  match a with
  | ⟨0, _⟩ => rfl
  | ⟨1, _⟩ => rfl

/-- The sum over the lanes at (r, w). -/
theorem sum_lanes (a : FVec Ideal S8x128x128 .f32) (r : Fin 8) (w : Fin 128) :
    multiReduction (F := Ideal) .add [2] S8x128 a 0x00000000#32 reduces_S8x128x128_S8x128 (.inl rfl) rfl (ix2 r w)
      = ∑ z : Fin 128, a (ix3 r w z) := by
  refine (Ideal.multiReduction_add_single a _ reduces_S8x128x128_S8x128 (.inl rfl) rfl (ix2 r w)).trans ?_
  show ∑ z : Fin 128, _ = _
  exact Finset.sum_congr rfl fun z _ => congrArg a (lift_lanes r w z)

/-- The sum over the sublanes at r. -/
theorem sum_sublanes (b : FVec Ideal S8x128 .f32) (r : Fin 8) :
    multiReduction (F := Ideal) .add [1] S8 b 0x00000000#32 reduces_S8x128_S8 (.inl rfl) rfl (ix1 r)
      = ∑ w : Fin 128, b (ix2 r w) := by
  refine (Ideal.multiReduction_add_single b _ reduces_S8x128_S8 (.inl rfl) rfl (ix1 r)).trans ?_
  show ∑ w : Fin 128, _ = _
  exact Finset.sum_congr rfl fun w _ => congrArg b (lift_sublanes r w)

/-- The sum over the rows of a one-column array. -/
theorem sum_rows8 (c : FVec Ideal S8x1 .f32) :
    multiReduction (F := Ideal) .add [0] S1 c 0x00000000#32 reduces_S8x1_S1 (.inl rfl) rfl (ix1 (0 : Fin 1))
      = ∑ r : Fin 8, c (ix2 r (0 : Fin 1)) := by
  refine (Ideal.multiReduction_add_single c _ reduces_S8x1_S1 (.inl rfl) rfl (ix1 (0 : Fin 1))).trans ?_
  show ∑ r : Fin 8, _ = _
  exact Finset.sum_congr rfl fun r _ => congrArg c (lift_rows r)

/-- A length-8 vector viewed as one column reads its entry r at (r, 0). -/
theorem cast_col (d : FVec Ideal S8 .f32) (r : Fin 8) :
    shapeCast S8x1 d shapeCasts_S8_S8x1 (ix2 r (0 : Fin 1)) = d (ix1 r) := by
  refine shapeCast_apply d _ _ (ix1 r) ?_
  rw [Shape.rowMajor_val_two, Shape.rowMajor_val_one]
  show r.val = r.val * 1 + 0
  omega

/-- A length-1 vector viewed as [1,1] reads its one entry. -/
theorem cast_one (e : FVec Ideal S1 .f32) (j : S1x1.Idx) :
    shapeCast S1x1 e shapeCasts_S1_S1x1 j = e (ix1 (0 : Fin 1)) := by
  obtain ⟨u, v, rfl⟩ : ∃ (u v : Fin 1), j = ix2 u v := ⟨j 0, j 1, eq_ix2 j⟩
  refine shapeCast_apply e _ _ (ix1 (0 : Fin 1)) ?_
  rw [Shape.rowMajor_val_two, Shape.rowMajor_val_one]
  show 0 = u.val * 1 + v.val
  omega

/-- The sum over the block's voxels, taken lanes first, then sublanes, then rows, is the triple sum. -/
theorem tot_apply (a : FVec Ideal S8x128x128 .f32) (j : S1x1.Idx) :
    tot a j = ∑ r : Fin 8, ∑ w : Fin 128, ∑ z : Fin 128, a (ix3 r w z) := by
  unfold tot
  refine (cast_one _ j).trans ?_
  refine (sum_rows8 _).trans ?_
  refine Finset.sum_congr rfl fun r _ => ?_
  refine (cast_col _ r).trans ?_
  refine (sum_sublanes _ r).trans ?_
  refine Finset.sum_congr rfl fun w _ => ?_
  exact sum_lanes a r w

/-- The splat of the penalty matrix's entry (t, cp) reads that entry everywhere. -/
theorem mspl_apply (x2 : Vec Ideal S12x12 .f32) (t cp : Fin 12) (i : S8x128x128.Idx) :
    mspl x2 t cp i = x2 (ix2 t cp) := by
  unfold mspl extractAt
  rw [broadcast_apply]
  refine extractStridedSlice_apply _ x2 _ _ (ix2 t cp) fun a => ?_
  match a with
  | ⟨0, _⟩ => rfl
  | ⟨1, _⟩ => rfl

theorem vt_apply (x0 : Vec Ideal S1x12x8x128x128 .f32) (x2 : Vec Ideal S12x12 .f32) (t : Fin 12) (r : Fin 8) (w z : Fin 128) :
    vt x0 x2 t (ix3 r w z) = ∑ cp : Fin 12, x2 (ix2 t cp) * Domino.pr (bx x0 r w z) cp := by
  unfold vt
  simp only [addf_apply, mulf_apply, broadcast_apply, mspl_apply, pv_apply]
  show Ideal.ofBits .f32 0x00000000#32 + _ + _ + _ + _ + _ + _ + _ + _ + _ + _ + _ + _ = _
  rw [Ideal.ofBits_zero_f32]
  exact Domino.add_chain fun cp => x2 (ix2 t cp) * Domino.pr (bx x0 r w z) cp

/-- Twelve [1,1] pieces side by side: column c is piece c's one entry. -/
theorem cat12_apply (f : Fin 12 → FVec Ideal S1x1 .f32) (c : Fin 12) :
    cat12 f (ix2 (0 : Fin 1) c) = f c (ix2 (0 : Fin 1) (0 : Fin 1)) := by
  unfold cat12
  refine concatenate_ofFn_unit_apply (t := S1x12) (s₁ := S1x1) 1 f _ rfl rfl (ix2 (0 : Fin 1) c) c rfl
    (ix2 (0 : Fin 1) (0 : Fin 1)) fun b hb => ?_
  match b with
  | ⟨0, _⟩ => rfl
  | ⟨1, _⟩ => exact absurd rfl hb

theorem acc12_apply (xo : Vec Ideal S1x1x12 .f32) (f : Fin 12 → FVec Ideal S1x1 .f32) (c : Fin 12) :
    acc12 xo f (ix3 (0 : Fin 1) (0 : Fin 1) c) = xo (ix3 (0 : Fin 1) (0 : Fin 1) c) + f c (ix2 (0 : Fin 1) (0 : Fin 1)) := by
  unfold acc12
  rw [shapeCast_ab_1ab_apply, addf_apply, shapeCast_1ab_ab_apply, cat12_apply]

theorem acc1_apply (xo : Vec Ideal S1x1x1 .f32) (a : FVec Ideal S1x1 .f32) :
    acc1 xo a (ix3 (0 : Fin 1) (0 : Fin 1) (0 : Fin 1))
      = xo (ix3 (0 : Fin 1) (0 : Fin 1) (0 : Fin 1)) + a (ix2 (0 : Fin 1) (0 : Fin 1)) := by
  unfold acc1
  rw [shapeCast_ab_1ab_apply, addf_apply, shapeCast_1ab_ab_apply]

theorem chain12_apply (f : Fin 12 → FVec Ideal S1x1 .f32) (j : S1x1.Idx) :
    chain12 f j = ∑ c : Fin 12, f c j := by
  unfold chain12
  simp only [addf_apply, broadcast_apply]
  show Ideal.ofBits .f32 0x00000000#32 + _ + _ + _ + _ + _ + _ + _ + _ + _ + _ + _ + _ = _
  rw [Ideal.ofBits_zero_f32]
  exact Domino.add_chain fun c => f c j

/-- A sum over the classes of triple sums over the voxels is the triple sum of the sums over the classes. -/
theorem sum_classes_voxels (g : Fin 12 → Fin 8 → Fin 128 → Fin 128 → EReal) :
    ∑ c : Fin 12, ∑ r : Fin 8, ∑ w : Fin 128, ∑ z : Fin 128, g c r w z
      = ∑ r : Fin 8, ∑ w : Fin 128, ∑ z : Fin 128, ∑ c : Fin 12, g c r w z := by
  rw [Finset.sum_comm]
  refine Finset.sum_congr rfl fun r _ => ?_
  rw [Finset.sum_comm]
  refine Finset.sum_congr rfl fun w _ => ?_
  rw [Finset.sum_comm]

theorem newInter_apply (x0 : Vec Ideal S1x12x8x128x128 .f32) (x1 : Vec Ideal S1x8x128x128 .i32) (xo : Vec Ideal S1x1x12 .f32)
    (c : Fin 12) :
    newInter (F := Ideal) x0 x1 xo (ix3 (0 : Fin 1) (0 : Fin 1) c)
      = xo (ix3 (0 : Fin 1) (0 : Fin 1) c)
        + ∑ r : Fin 8, ∑ w : Fin 128, ∑ z : Fin 128, Domino.oh (bt x1 r w z) c * Domino.pr (bx x0 r w z) c := by
  unfold newInter
  rw [acc12_apply, tot_apply]
  simp only [mulf_apply, ohv_apply, pv_apply]

theorem newGround_apply (x1 : Vec Ideal S1x8x128x128 .i32) (xo : Vec Ideal S1x1x12 .f32) (c : Fin 12) :
    newGround (F := Ideal) x1 xo (ix3 (0 : Fin 1) (0 : Fin 1) c)
      = xo (ix3 (0 : Fin 1) (0 : Fin 1) c) + ∑ r : Fin 8, ∑ w : Fin 128, ∑ z : Fin 128, Domino.oh (bt x1 r w z) c := by
  unfold newGround
  rw [acc12_apply, tot_apply]
  simp only [ohv_apply]

theorem newPred_apply (x0 : Vec Ideal S1x12x8x128x128 .f32) (xo : Vec Ideal S1x1x12 .f32) (c : Fin 12) :
    newPred (F := Ideal) x0 xo (ix3 (0 : Fin 1) (0 : Fin 1) c)
      = xo (ix3 (0 : Fin 1) (0 : Fin 1) c) + ∑ r : Fin 8, ∑ w : Fin 128, ∑ z : Fin 128, Domino.pr (bx x0 r w z) c := by
  unfold newPred
  rw [acc12_apply, tot_apply]
  simp only [pv_apply]

theorem newCe_apply (x0 : Vec Ideal S1x12x8x128x128 .f32) (x1 : Vec Ideal S1x8x128x128 .i32) (xo : Vec Ideal S1x1x1 .f32) :
    newCe (F := Ideal) x0 x1 xo (ix3 (0 : Fin 1) (0 : Fin 1) (0 : Fin 1))
      = xo (ix3 (0 : Fin 1) (0 : Fin 1) (0 : Fin 1))
        + ∑ r : Fin 8, ∑ w : Fin 128, ∑ z : Fin 128, ∑ c : Fin 12, Domino.oh (bt x1 r w z) c * Domino.lp (bx x0 r w z) c := by
  unfold newCe
  rw [acc1_apply, chain12_apply]
  simp only [tot_apply, mulf_apply, ohv_apply, lpv_apply]
  rw [sum_classes_voxels fun c r w z => Domino.oh (bt x1 r w z) c * Domino.lp (bx x0 r w z) c]

theorem newPen_apply (x0 : Vec Ideal S1x12x8x128x128 .f32) (x1 : Vec Ideal S1x8x128x128 .i32) (x2 : Vec Ideal S12x12 .f32)
    (xo : Vec Ideal S1x1x1 .f32) :
    newPen (F := Ideal) x0 x1 x2 xo (ix3 (0 : Fin 1) (0 : Fin 1) (0 : Fin 1))
      = xo (ix3 (0 : Fin 1) (0 : Fin 1) (0 : Fin 1))
        + ∑ r : Fin 8, ∑ w : Fin 128, ∑ z : Fin 128, ∑ t : Fin 12,
            Domino.oh (bt x1 r w z) t * ∑ cp : Fin 12, x2 (ix2 t cp) * Domino.pr (bx x0 r w z) cp := by
  unfold newPen
  rw [acc1_apply, chain12_apply]
  simp only [tot_apply, mulf_apply, ohv_apply, vt_apply]
  rw [sum_classes_voxels fun t r w z =>
    Domino.oh (bt x1 r w z) t * ∑ cp : Fin 12, x2 (ix2 t cp) * Domino.pr (bx x0 r w z) cp]

end Cert.KernelIdeal.Mirror

end
-- ==== Proof.KAccum.lean ====
/-
  What the three per-class result arrays (intersection, ground-truth count, prediction mass) hold after the last grid point.

  The grid is 2 × 16: point t = 16·n + h works on rows 8h … 8h+7 of sample n.  The first point of a row starts each
  accumulator from zero, every later one adds its block's contribution to what the point before left, so after point
  (n, h) an accumulator holds the contributions of blocks 0 … h of sample n; the block of sample n is written back
  after its sixteenth point.  A sum over sixteen blocks of eight rows is the sum over the 128 rows, so the arrays
  end at the per-sample statistics of Spec.lean.
-/
import proofs.«428624_j85598698209587_3_alg».proof.Proof.KArgs
import proofs.«428624_j85598698209587_3_alg».proof.Proof.KPieces
import proofs.«428624_j85598698209587_3_alg».proof.Proof.KIblk
import proofs.«428624_j85598698209587_3_alg».proof.Proof.KBlock
import proofs.«428624_j85598698209587_3_alg».proof.Proof.Loss
import Idealize.ShloMosaic.Lib.Pipeline.Value
import Idealize.ShloMosaic.Lib.StableHlo.Run
import Idealize.ShloMosaic.Lib.Tactic

set_option maxRecDepth 16384

noncomputable section

namespace Cert.KernelIdeal.Mirror

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-! ## Sums over the points of one row of the grid -/

/-- A quantity over the points that restarts at the multiples of sixteen and adds the point's term elsewhere is, at
    point 16·q + j, the sum of the terms of points 16·q … 16·q + j. -/
theorem fold_closed {ι : Type} {N : ℕ} (f : (n : ℕ) → n < N → ι → EReal) (C : ℕ → ι → EReal)
    (h0 : ∀ (n : ℕ) (h : n < N) (i : ι), n % 16 = 0 → f n h i = 0 + C n i)
    (hs : ∀ (n : ℕ) (h : n + 1 < N) (i : ι), ¬(n + 1) % 16 = 0 →
      f (n + 1) h i = f n (Nat.lt_of_succ_lt h) i + C (n + 1) i)
    (q : ℕ) : ∀ (j : ℕ) (_ : j < 16) (h : 16 * q + j < N) (i : ι),
      f (16 * q + j) h i = ∑ s ∈ Finset.range (j + 1), C (16 * q + s) i
  | 0, _, h, i => by
    rw [h0 _ h i (by omega), zero_add, Finset.sum_range_one]
  | j + 1, hj, h, i => by
    have hne : ¬(16 * q + j + 1) % 16 = 0 := by omega
    have step := hs (16 * q + j) h i hne
    rw [Finset.sum_range_succ, ← fold_closed f C h0 hs q j (by omega) (Nat.lt_of_succ_lt h) i]
    exact step

/-- The sixteen blocks of eight rows of one sample, summed, are the sum over its 128 rows. -/
theorem sum_blocks (g : Fin 128 → EReal) :
    ∑ s ∈ Finset.range 16, ∑ r : Fin 8, (if h : 8 * s + r.val < 128 then g ⟨8 * s + r.val, h⟩ else 0) = ∑ H : Fin 128, g H := by
  rw [Domino.sum_rows g, Finset.sum_range]
  refine Finset.sum_congr rfl fun s _ => Finset.sum_congr rfl fun r _ => ?_
  have := s.isLt; have := r.isLt
  rw [dif_pos (by omega)]

/-! ## The input blocks of a point, by their literal types -/

abbrev xb (c : Dev nD) (t : Fin cfg0.N) : Vec Ideal S1x12x8x128x128 .f32 := iblk m c 0 t
abbrev tb (c : Dev nD) (t : Fin cfg0.N) : Vec Ideal S1x8x128x128 .i32 := iblk m c 1 t
abbrev mb (c : Dev nD) (t : Fin cfg0.N) : Vec Ideal S12x12 .f32 := iblk m c 2 t

/-- The scores of voxel (r, w, z) of the point's block are those of the array's voxel in the point's sample and rows. -/
theorem bx_xb (c : Dev nD) (t : Fin cfg0.N) (r : Fin 8) (w z : Fin 128) :
    bx (xb m c t) r w z = Domino.vox (xA m c) (sampleOf t) (rowOf t r) w z :=
  funext fun k => iblk0_apply m c t k r w z
/-- Likewise its label. -/
theorem bt_tb (c : Dev nD) (t : Fin cfg0.N) (r : Fin 8) (w z : Fin 128) :
    bt (tb m c t) r w z = tA m c (sampleOf t) (rowOf t r) w z :=
  iblk1_apply m c t r w z

/-- A natural number as a grid point (only the numbers below 32 are used). -/
def pt (n : ℕ) : Fin cfg0.N := ⟨n % 32, lt_of_lt_of_eq (Nat.mod_lt _ (by decide)) (show 32 = cfg0.N from N_0.symm)⟩
theorem pt_eq (n : ℕ) (h : n < cfg0.N) : pt n = ⟨n, h⟩ :=
  Fin.ext (Nat.mod_eq_of_lt (lt_of_lt_of_eq h (show cfg0.N = 32 from N_0)))

/-- Block s of the row of the grid that point t closes is in t's sample, at rows 8s … 8s + 7. -/
theorem sampleOf_pt (t : Fin cfg0.N) (s : ℕ) (hs : s < 16) : sampleOf (pt (16 * (t.val / 16) + s)) = sampleOf t := by
  have hN : t.val < 32 := lt_of_lt_of_eq t.isLt (show cfg0.N = 32 from N_0)
  apply Fin.ext
  show (16 * (t.val / 16) + s) % 32 / 16 = t.val / 16
  omega
theorem rowOf_pt (t : Fin cfg0.N) (s : ℕ) (hs : s < 16) (r : Fin 8) (h : 8 * s + r.val < 128) :
    rowOf (pt (16 * (t.val / 16) + s)) r = ⟨8 * s + r.val, h⟩ := by
  have hN : t.val < 32 := lt_of_lt_of_eq t.isLt (show cfg0.N = 32 from N_0)
  apply Fin.ext
  show 8 * ((16 * (t.val / 16) + s) % 32 % 16) + r.val = 8 * s + r.val
  omega

/-- The points that write a result block back close a row of the grid; the block sits at the row's sample. -/
theorem hidx_out : ∀ t : Fin grid0.N,
    (win0_3.index t 0 = t.val / 16 ∧ win0_3.index t 1 = 0 ∧ win0_3.index t 2 = 0)
    ∧ (win0_4.index t 0 = t.val / 16 ∧ win0_4.index t 1 = 0 ∧ win0_4.index t 2 = 0)
    ∧ (win0_5.index t 0 = t.val / 16 ∧ win0_5.index t 1 = 0 ∧ win0_5.index t 2 = 0) := by
  decide +kernel

/-! ## The intersection accumulator -/

/-- What the block of point n adds to class k's intersection. -/
def cI (c : Dev nD) (n : ℕ) (k : Fin 12) : EReal :=
  ∑ r : Fin 8, ∑ w : Fin 128, ∑ z : Fin 128,
    Domino.oh (tA m c (sampleOf (pt n)) (rowOf (pt n) r) w z) k
      * Domino.pr (Domino.vox (xA m c) (sampleOf (pt n)) (rowOf (pt n) r) w z) k

/-- The first point of a row of the grid starts from zero and adds its block's term. -/
theorem acc3_A (c : Dev nD) (n : ℕ) (h : n < cfg0.N) (k : Fin 12) (h0 : n % 16 = 0) :
    (outsAt0 (F := Ideal) m c n h).1 (ix3 (0 : Fin 1) (0 : Fin 1) k) = 0 + cI m c n k := by
  rw [outsAt0_A m c ⟨n, h⟩ h0]
  dsimp only
  refine (congrFun (out_A_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) ((hcond0_0 ⟨n, h⟩).mpr h0) (xb m c ⟨n, h⟩) (tb m c ⟨n, h⟩) (mb m c ⟨n, h⟩)) (ix3 (0 : Fin 1) (0 : Fin 1) k)).trans ?_
  refine (newInter_apply (xb m c ⟨n, h⟩) (tb m c ⟨n, h⟩) (zero12 (F := Ideal)) k).trans ?_
  rw [zero12_apply]
  unfold cI
  rw [pt_eq n h]
  simp only [bx_xb, bt_tb]

/-- Every later point of the row adds its block's term to what the point before left. -/
theorem acc3_B (c : Dev nD) (n : ℕ) (h : n + 1 < cfg0.N) (k : Fin 12) (h0 : ¬(n + 1) % 16 = 0) :
    (outsAt0 (F := Ideal) m c (n + 1) h).1 (ix3 (0 : Fin 1) (0 : Fin 1) k)
      = (outsAt0 (F := Ideal) m c n (Nat.lt_of_succ_lt h)).1 (ix3 (0 : Fin 1) (0 : Fin 1) k) + cI m c (n + 1) k := by
  rw [outsAt0_B m c ⟨n + 1, h⟩ h0]
  dsimp only
  refine (congrFun (out_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hc => h0 ((hcond0_0 ⟨n + 1, h⟩).mp hc)) (xb m c ⟨n + 1, h⟩) (tb m c ⟨n + 1, h⟩) (mb m c ⟨n + 1, h⟩) (outsAt0 (F := Ideal) m c n (Nat.lt_of_succ_lt h)).1 (outsAt0 (F := Ideal) m c n (Nat.lt_of_succ_lt h)).2.1 (outsAt0 (F := Ideal) m c n (Nat.lt_of_succ_lt h)).2.2.1 (outsAt0 (F := Ideal) m c n (Nat.lt_of_succ_lt h)).2.2.2.1 (outsAt0 (F := Ideal) m c n (Nat.lt_of_succ_lt h)).2.2.2.2) (ix3 (0 : Fin 1) (0 : Fin 1) k)).trans ?_
  refine (newInter_apply (xb m c ⟨n + 1, h⟩) (tb m c ⟨n + 1, h⟩) (outsAt0 (F := Ideal) m c n (Nat.lt_of_succ_lt h)).1 k).trans ?_
  unfold cI
  rw [pt_eq (n + 1) h]
  simp only [bx_xb, bt_tb]

/-- After the last point of a row of the grid the accumulator holds the sample's intersection. -/
theorem closed3 (c : Dev nD) (t : Fin cfg0.N) (h15 : t.val % 16 = 15) (k : Fin 12) :
    (outsAt0 (F := Ideal) m c t.val t.isLt).1 (ix3 (0 : Fin 1) (0 : Fin 1) k)
      = Domino.inter (xA m c) (tA m c) (sampleOf t) k := by
  have hN : t.val < 32 := lt_of_lt_of_eq t.isLt (show cfg0.N = 32 from N_0)
  have hq : 16 * (t.val / 16) + 15 = t.val := by omega
  have hlt : 16 * (t.val / 16) + 15 < cfg0.N := by rw [hq]; exact t.isLt
  have key := fold_closed (N := cfg0.N)
    (fun n h k => (outsAt0 (F := Ideal) m c n h).1 (ix3 (0 : Fin 1) (0 : Fin 1) k)) (fun n k => cI m c n k)
    (fun n h k h0 => acc3_A m c n h k h0) (fun n h k h0 => acc3_B m c n h k h0) (t.val / 16) 15 (by omega) hlt k
  have same : ∀ (u : ℕ) (hu : u < cfg0.N), u = t.val →
      (outsAt0 (F := Ideal) m c u hu).1 (ix3 (0 : Fin 1) (0 : Fin 1) k)
        = (outsAt0 (F := Ideal) m c t.val t.isLt).1 (ix3 (0 : Fin 1) (0 : Fin 1) k) := fun u hu e => by subst e; rfl
  rw [← same _ hlt hq]
  refine key.trans ?_
  unfold Domino.inter
  rw [← sum_blocks]
  refine Finset.sum_congr rfl fun s hs => ?_
  have hs' : s < 16 := Finset.mem_range.mp hs
  unfold cI
  refine Finset.sum_congr rfl fun r _ => ?_
  have hr : 8 * s + r.val < 128 := by have := r.isLt; omega
  rw [dif_pos hr, sampleOf_pt t s hs', rowOf_pt t s hs' r hr]

/-- The array the run leaves. -/
abbrev G3 (c : Dev nD) : S2x1x12.Idx → EReal := fun j => Domino.inter (xA m c) (tA m c) (j 0) (j 2)

/-- The point that closes a row of the grid writes back that sample's row of the array. -/
theorem flushed3 (c : Dev nD) (t : Fin cfg0.N) (hf : (cfg0.win 3).flush t = true) :
    (dats (F := Ideal) m 0 c).flushed 3 t = ((cfg0.win 3).blk t).view.read (Elt Ideal) (G3 m c) := by
  have h15 : t.val % 16 = 15 := (flush0_3 t).mp hf
  obtain ⟨i0, i1, i2⟩ := (hidx_out t).1
  show (cfg0.win 3).cut (grid0.coords t) ((dats m 0 c).after 3 t) = _
  rw [after0_3]
  refine funext fun (y : S1x1x12.Idx) => ?_
  have hk : (y 2).val < 12 := (y 2).isLt
  have hy : y = ix3 (0 : Fin 1) (0 : Fin 1) (⟨(y 2).val, hk⟩ : Fin 12) := by
    funext a
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => rfl
  obtain ⟨k, rfl⟩ : ∃ k : Fin 12, y = ix3 (0 : Fin 1) (0 : Fin 1) k := ⟨_, hy⟩
  rw [View.read_apply]
  show (outsAt0 (F := Ideal) m c t.val t.isLt).1 (ix3 (0 : Fin 1) (0 : Fin 1) k)
    = G3 m c (((cfg0.win 3).blk t).view.emb (ix3 (0 : Fin 1) (0 : Fin 1) k))
  refine (closed3 m c t h15 k).trans ?_
  have e0 : (((cfg0.win 3).blk t).view.emb (ix3 (0 : Fin 1) (0 : Fin 1) k)) 0 = sampleOf t := by
    apply Fin.ext
    show win0_3.index t 0 * 1 + 1 * ((0 : Fin 1) : ℕ) = t.val / 16
    rw [i0]; show t.val / 16 * 1 + 1 * 0 = t.val / 16; omega
  have e2 : (((cfg0.win 3).blk t).view.emb (ix3 (0 : Fin 1) (0 : Fin 1) k)) 2 = k := by
    apply Fin.ext
    show win0_3.index t 2 * 12 + 1 * (k : ℕ) = (k : ℕ)
    rw [i2]; omega
  show _ = G3 m c _
  unfold G3
  rw [e0, e2]

theorem final3 (c : Dev nD) : (dats (F := Ideal) m 0 c).arrAt 3 cfg0.N
    = fun j : S2x1x12.Idx => Domino.inter (xA m c) (tA m c) (j 0) (j 2) :=
  (dats (F := Ideal) m 0 c).arrAt_eq_of_cover 3 (G3 m c) (flushed3 m c) fun i => by
    have h0 : (i 0 : Nat) < 2 := (i 0).isLt
    have h1 : (i 1 : Nat) < 1 := (i 1).isLt
    have h2 : (i 2 : Nat) < 12 := (i 2).isLt
    have hN : 16 * (i 0 : Nat) + 15 < cfg0.N := by rw [show cfg0.N = 32 from N_0]; omega
    refine ⟨⟨16 * (i 0 : Nat) + 15, hN⟩, (flush0_3 _).mpr (by show (16 * (i 0 : Nat) + 15) % 16 = 15; omega), ?_⟩
    obtain ⟨i0, i1, i2⟩ := (hidx_out ⟨16 * (i 0 : Nat) + 15, hN⟩).1
    show i ∈ ((View.whole main_v1_0).slice (win0_3.rect ⟨16 * (i 0 : Nat) + 15, hN⟩)).set
    rw [View.set_slice_whole, Rect.mem_set_unit]
    intro a
    match a with
    | ⟨0, _⟩ =>
      show win0_3.index ⟨16 * (i 0 : Nat) + 15, hN⟩ 0 * 1 ≤ (i 0 : Nat) ∧ (i 0 : Nat) < win0_3.index ⟨16 * (i 0 : Nat) + 15, hN⟩ 0 * 1 + 1
      rw [i0]; show (16 * (i 0 : Nat) + 15) / 16 * 1 ≤ (i 0 : Nat) ∧ (i 0 : Nat) < (16 * (i 0 : Nat) + 15) / 16 * 1 + 1; omega
    | ⟨1, _⟩ =>
      show win0_3.index ⟨16 * (i 0 : Nat) + 15, hN⟩ 1 * 1 ≤ (i 1 : Nat) ∧ (i 1 : Nat) < win0_3.index ⟨16 * (i 0 : Nat) + 15, hN⟩ 1 * 1 + 1
      rw [i1]; omega
    | ⟨2, _⟩ =>
      show win0_3.index ⟨16 * (i 0 : Nat) + 15, hN⟩ 2 * 12 ≤ (i 2 : Nat) ∧ (i 2 : Nat) < win0_3.index ⟨16 * (i 0 : Nat) + 15, hN⟩ 2 * 12 + 12
      rw [i2]; omega

/-! ## The ground-truth count accumulator -/

/-- What the block of point n adds to class k's ground-truth count. -/
def cG (c : Dev nD) (n : ℕ) (k : Fin 12) : EReal :=
  ∑ r : Fin 8, ∑ w : Fin 128, ∑ z : Fin 128, Domino.oh (tA m c (sampleOf (pt n)) (rowOf (pt n) r) w z) k

/-- The first point of a row of the grid starts from zero and adds its block's term. -/
theorem acc4_A (c : Dev nD) (n : ℕ) (h : n < cfg0.N) (k : Fin 12) (h0 : n % 16 = 0) :
    (outsAt0 (F := Ideal) m c n h).2.1 (ix3 (0 : Fin 1) (0 : Fin 1) k) = 0 + cG m c n k := by
  rw [outsAt0_A m c ⟨n, h⟩ h0]
  dsimp only
  refine (congrFun (out_A_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) ((hcond0_0 ⟨n, h⟩).mpr h0) (xb m c ⟨n, h⟩) (tb m c ⟨n, h⟩) (mb m c ⟨n, h⟩)) (ix3 (0 : Fin 1) (0 : Fin 1) k)).trans ?_
  refine (newGround_apply (tb m c ⟨n, h⟩) (zero12 (F := Ideal)) k).trans ?_
  rw [zero12_apply]
  unfold cG
  rw [pt_eq n h]
  simp only [bt_tb]

/-- Every later point of the row adds its block's term to what the point before left. -/
theorem acc4_B (c : Dev nD) (n : ℕ) (h : n + 1 < cfg0.N) (k : Fin 12) (h0 : ¬(n + 1) % 16 = 0) :
    (outsAt0 (F := Ideal) m c (n + 1) h).2.1 (ix3 (0 : Fin 1) (0 : Fin 1) k)
      = (outsAt0 (F := Ideal) m c n (Nat.lt_of_succ_lt h)).2.1 (ix3 (0 : Fin 1) (0 : Fin 1) k) + cG m c (n + 1) k := by
  rw [outsAt0_B m c ⟨n + 1, h⟩ h0]
  dsimp only
  refine (congrFun (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hc => h0 ((hcond0_0 ⟨n + 1, h⟩).mp hc)) (xb m c ⟨n + 1, h⟩) (tb m c ⟨n + 1, h⟩) (mb m c ⟨n + 1, h⟩) (outsAt0 (F := Ideal) m c n (Nat.lt_of_succ_lt h)).1 (outsAt0 (F := Ideal) m c n (Nat.lt_of_succ_lt h)).2.1 (outsAt0 (F := Ideal) m c n (Nat.lt_of_succ_lt h)).2.2.1 (outsAt0 (F := Ideal) m c n (Nat.lt_of_succ_lt h)).2.2.2.1 (outsAt0 (F := Ideal) m c n (Nat.lt_of_succ_lt h)).2.2.2.2) (ix3 (0 : Fin 1) (0 : Fin 1) k)).trans ?_
  refine (newGround_apply (tb m c ⟨n + 1, h⟩) (outsAt0 (F := Ideal) m c n (Nat.lt_of_succ_lt h)).2.1 k).trans ?_
  unfold cG
  rw [pt_eq (n + 1) h]
  simp only [bt_tb]

/-- After the last point of a row of the grid the accumulator holds the sample's ground-truth count. -/
theorem closed4 (c : Dev nD) (t : Fin cfg0.N) (h15 : t.val % 16 = 15) (k : Fin 12) :
    (outsAt0 (F := Ideal) m c t.val t.isLt).2.1 (ix3 (0 : Fin 1) (0 : Fin 1) k)
      = Domino.ground (tA m c) (sampleOf t) k := by
  have hN : t.val < 32 := lt_of_lt_of_eq t.isLt (show cfg0.N = 32 from N_0)
  have hq : 16 * (t.val / 16) + 15 = t.val := by omega
  have hlt : 16 * (t.val / 16) + 15 < cfg0.N := by rw [hq]; exact t.isLt
  have key := fold_closed (N := cfg0.N)
    (fun n h k => (outsAt0 (F := Ideal) m c n h).2.1 (ix3 (0 : Fin 1) (0 : Fin 1) k)) (fun n k => cG m c n k)
    (fun n h k h0 => acc4_A m c n h k h0) (fun n h k h0 => acc4_B m c n h k h0) (t.val / 16) 15 (by omega) hlt k
  have same : ∀ (u : ℕ) (hu : u < cfg0.N), u = t.val →
      (outsAt0 (F := Ideal) m c u hu).2.1 (ix3 (0 : Fin 1) (0 : Fin 1) k)
        = (outsAt0 (F := Ideal) m c t.val t.isLt).2.1 (ix3 (0 : Fin 1) (0 : Fin 1) k) := fun u hu e => by subst e; rfl
  rw [← same _ hlt hq]
  refine key.trans ?_
  unfold Domino.ground
  rw [← sum_blocks]
  refine Finset.sum_congr rfl fun s hs => ?_
  have hs' : s < 16 := Finset.mem_range.mp hs
  unfold cG
  refine Finset.sum_congr rfl fun r _ => ?_
  have hr : 8 * s + r.val < 128 := by have := r.isLt; omega
  rw [dif_pos hr, sampleOf_pt t s hs', rowOf_pt t s hs' r hr]

/-- The array the run leaves. -/
abbrev G4 (c : Dev nD) : S2x1x12.Idx → EReal := fun j => Domino.ground (tA m c) (j 0) (j 2)

/-- The point that closes a row of the grid writes back that sample's row of the array. -/
theorem flushed4 (c : Dev nD) (t : Fin cfg0.N) (hf : (cfg0.win 4).flush t = true) :
    (dats (F := Ideal) m 0 c).flushed 4 t = ((cfg0.win 4).blk t).view.read (Elt Ideal) (G4 m c) := by
  have h15 : t.val % 16 = 15 := (flush0_4 t).mp hf
  obtain ⟨i0, i1, i2⟩ := (hidx_out t).2.1
  show (cfg0.win 4).cut (grid0.coords t) ((dats m 0 c).after 4 t) = _
  rw [after0_4]
  refine funext fun (y : S1x1x12.Idx) => ?_
  have hk : (y 2).val < 12 := (y 2).isLt
  have hy : y = ix3 (0 : Fin 1) (0 : Fin 1) (⟨(y 2).val, hk⟩ : Fin 12) := by
    funext a
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => rfl
  obtain ⟨k, rfl⟩ : ∃ k : Fin 12, y = ix3 (0 : Fin 1) (0 : Fin 1) k := ⟨_, hy⟩
  rw [View.read_apply]
  show (outsAt0 (F := Ideal) m c t.val t.isLt).2.1 (ix3 (0 : Fin 1) (0 : Fin 1) k)
    = G4 m c (((cfg0.win 4).blk t).view.emb (ix3 (0 : Fin 1) (0 : Fin 1) k))
  refine (closed4 m c t h15 k).trans ?_
  have e0 : (((cfg0.win 4).blk t).view.emb (ix3 (0 : Fin 1) (0 : Fin 1) k)) 0 = sampleOf t := by
    apply Fin.ext
    show win0_4.index t 0 * 1 + 1 * ((0 : Fin 1) : ℕ) = t.val / 16
    rw [i0]; show t.val / 16 * 1 + 1 * 0 = t.val / 16; omega
  have e2 : (((cfg0.win 4).blk t).view.emb (ix3 (0 : Fin 1) (0 : Fin 1) k)) 2 = k := by
    apply Fin.ext
    show win0_4.index t 2 * 12 + 1 * (k : ℕ) = (k : ℕ)
    rw [i2]; omega
  show _ = G4 m c _
  unfold G4
  rw [e0, e2]

theorem final4 (c : Dev nD) : (dats (F := Ideal) m 0 c).arrAt 4 cfg0.N
    = fun j : S2x1x12.Idx => Domino.ground (tA m c) (j 0) (j 2) :=
  (dats (F := Ideal) m 0 c).arrAt_eq_of_cover 4 (G4 m c) (flushed4 m c) fun i => by
    have h0 : (i 0 : Nat) < 2 := (i 0).isLt
    have h1 : (i 1 : Nat) < 1 := (i 1).isLt
    have h2 : (i 2 : Nat) < 12 := (i 2).isLt
    have hN : 16 * (i 0 : Nat) + 15 < cfg0.N := by rw [show cfg0.N = 32 from N_0]; omega
    refine ⟨⟨16 * (i 0 : Nat) + 15, hN⟩, (flush0_4 _).mpr (by show (16 * (i 0 : Nat) + 15) % 16 = 15; omega), ?_⟩
    obtain ⟨i0, i1, i2⟩ := (hidx_out ⟨16 * (i 0 : Nat) + 15, hN⟩).2.1
    show i ∈ ((View.whole main_v1_1).slice (win0_4.rect ⟨16 * (i 0 : Nat) + 15, hN⟩)).set
    rw [View.set_slice_whole, Rect.mem_set_unit]
    intro a
    match a with
    | ⟨0, _⟩ =>
      show win0_4.index ⟨16 * (i 0 : Nat) + 15, hN⟩ 0 * 1 ≤ (i 0 : Nat) ∧ (i 0 : Nat) < win0_4.index ⟨16 * (i 0 : Nat) + 15, hN⟩ 0 * 1 + 1
      rw [i0]; show (16 * (i 0 : Nat) + 15) / 16 * 1 ≤ (i 0 : Nat) ∧ (i 0 : Nat) < (16 * (i 0 : Nat) + 15) / 16 * 1 + 1; omega
    | ⟨1, _⟩ =>
      show win0_4.index ⟨16 * (i 0 : Nat) + 15, hN⟩ 1 * 1 ≤ (i 1 : Nat) ∧ (i 1 : Nat) < win0_4.index ⟨16 * (i 0 : Nat) + 15, hN⟩ 1 * 1 + 1
      rw [i1]; omega
    | ⟨2, _⟩ =>
      show win0_4.index ⟨16 * (i 0 : Nat) + 15, hN⟩ 2 * 12 ≤ (i 2 : Nat) ∧ (i 2 : Nat) < win0_4.index ⟨16 * (i 0 : Nat) + 15, hN⟩ 2 * 12 + 12
      rw [i2]; omega

/-! ## The prediction mass accumulator -/

/-- What the block of point n adds to class k's prediction mass. -/
def cP (c : Dev nD) (n : ℕ) (k : Fin 12) : EReal :=
  ∑ r : Fin 8, ∑ w : Fin 128, ∑ z : Fin 128, Domino.pr (Domino.vox (xA m c) (sampleOf (pt n)) (rowOf (pt n) r) w z) k

/-- The first point of a row of the grid starts from zero and adds its block's term. -/
theorem acc5_A (c : Dev nD) (n : ℕ) (h : n < cfg0.N) (k : Fin 12) (h0 : n % 16 = 0) :
    (outsAt0 (F := Ideal) m c n h).2.2.1 (ix3 (0 : Fin 1) (0 : Fin 1) k) = 0 + cP m c n k := by
  rw [outsAt0_A m c ⟨n, h⟩ h0]
  dsimp only
  refine (congrFun (out_A_5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) ((hcond0_0 ⟨n, h⟩).mpr h0) (xb m c ⟨n, h⟩) (tb m c ⟨n, h⟩) (mb m c ⟨n, h⟩)) (ix3 (0 : Fin 1) (0 : Fin 1) k)).trans ?_
  refine (newPred_apply (xb m c ⟨n, h⟩) (zero12 (F := Ideal)) k).trans ?_
  rw [zero12_apply]
  unfold cP
  rw [pt_eq n h]
  simp only [bx_xb]

/-- Every later point of the row adds its block's term to what the point before left. -/
theorem acc5_B (c : Dev nD) (n : ℕ) (h : n + 1 < cfg0.N) (k : Fin 12) (h0 : ¬(n + 1) % 16 = 0) :
    (outsAt0 (F := Ideal) m c (n + 1) h).2.2.1 (ix3 (0 : Fin 1) (0 : Fin 1) k)
      = (outsAt0 (F := Ideal) m c n (Nat.lt_of_succ_lt h)).2.2.1 (ix3 (0 : Fin 1) (0 : Fin 1) k) + cP m c (n + 1) k := by
  rw [outsAt0_B m c ⟨n + 1, h⟩ h0]
  dsimp only
  refine (congrFun (out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hc => h0 ((hcond0_0 ⟨n + 1, h⟩).mp hc)) (xb m c ⟨n + 1, h⟩) (tb m c ⟨n + 1, h⟩) (mb m c ⟨n + 1, h⟩) (outsAt0 (F := Ideal) m c n (Nat.lt_of_succ_lt h)).1 (outsAt0 (F := Ideal) m c n (Nat.lt_of_succ_lt h)).2.1 (outsAt0 (F := Ideal) m c n (Nat.lt_of_succ_lt h)).2.2.1 (outsAt0 (F := Ideal) m c n (Nat.lt_of_succ_lt h)).2.2.2.1 (outsAt0 (F := Ideal) m c n (Nat.lt_of_succ_lt h)).2.2.2.2) (ix3 (0 : Fin 1) (0 : Fin 1) k)).trans ?_
  refine (newPred_apply (xb m c ⟨n + 1, h⟩) (outsAt0 (F := Ideal) m c n (Nat.lt_of_succ_lt h)).2.2.1 k).trans ?_
  unfold cP
  rw [pt_eq (n + 1) h]
  simp only [bx_xb]

/-- After the last point of a row of the grid the accumulator holds the sample's prediction mass. -/
theorem closed5 (c : Dev nD) (t : Fin cfg0.N) (h15 : t.val % 16 = 15) (k : Fin 12) :
    (outsAt0 (F := Ideal) m c t.val t.isLt).2.2.1 (ix3 (0 : Fin 1) (0 : Fin 1) k)
      = Domino.pred (xA m c) (sampleOf t) k := by
  have hN : t.val < 32 := lt_of_lt_of_eq t.isLt (show cfg0.N = 32 from N_0)
  have hq : 16 * (t.val / 16) + 15 = t.val := by omega
  have hlt : 16 * (t.val / 16) + 15 < cfg0.N := by rw [hq]; exact t.isLt
  have key := fold_closed (N := cfg0.N)
    (fun n h k => (outsAt0 (F := Ideal) m c n h).2.2.1 (ix3 (0 : Fin 1) (0 : Fin 1) k)) (fun n k => cP m c n k)
    (fun n h k h0 => acc5_A m c n h k h0) (fun n h k h0 => acc5_B m c n h k h0) (t.val / 16) 15 (by omega) hlt k
  have same : ∀ (u : ℕ) (hu : u < cfg0.N), u = t.val →
      (outsAt0 (F := Ideal) m c u hu).2.2.1 (ix3 (0 : Fin 1) (0 : Fin 1) k)
        = (outsAt0 (F := Ideal) m c t.val t.isLt).2.2.1 (ix3 (0 : Fin 1) (0 : Fin 1) k) := fun u hu e => by subst e; rfl
  rw [← same _ hlt hq]
  refine key.trans ?_
  unfold Domino.pred
  rw [← sum_blocks]
  refine Finset.sum_congr rfl fun s hs => ?_
  have hs' : s < 16 := Finset.mem_range.mp hs
  unfold cP
  refine Finset.sum_congr rfl fun r _ => ?_
  have hr : 8 * s + r.val < 128 := by have := r.isLt; omega
  rw [dif_pos hr, sampleOf_pt t s hs', rowOf_pt t s hs' r hr]

/-- The array the run leaves. -/
abbrev G5 (c : Dev nD) : S2x1x12.Idx → EReal := fun j => Domino.pred (xA m c) (j 0) (j 2)

/-- The point that closes a row of the grid writes back that sample's row of the array. -/
theorem flushed5 (c : Dev nD) (t : Fin cfg0.N) (hf : (cfg0.win 5).flush t = true) :
    (dats (F := Ideal) m 0 c).flushed 5 t = ((cfg0.win 5).blk t).view.read (Elt Ideal) (G5 m c) := by
  have h15 : t.val % 16 = 15 := (flush0_5 t).mp hf
  obtain ⟨i0, i1, i2⟩ := (hidx_out t).2.2
  show (cfg0.win 5).cut (grid0.coords t) ((dats m 0 c).after 5 t) = _
  rw [after0_5]
  refine funext fun (y : S1x1x12.Idx) => ?_
  have hk : (y 2).val < 12 := (y 2).isLt
  have hy : y = ix3 (0 : Fin 1) (0 : Fin 1) (⟨(y 2).val, hk⟩ : Fin 12) := by
    funext a
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => rfl
  obtain ⟨k, rfl⟩ : ∃ k : Fin 12, y = ix3 (0 : Fin 1) (0 : Fin 1) k := ⟨_, hy⟩
  rw [View.read_apply]
  show (outsAt0 (F := Ideal) m c t.val t.isLt).2.2.1 (ix3 (0 : Fin 1) (0 : Fin 1) k)
    = G5 m c (((cfg0.win 5).blk t).view.emb (ix3 (0 : Fin 1) (0 : Fin 1) k))
  refine (closed5 m c t h15 k).trans ?_
  have e0 : (((cfg0.win 5).blk t).view.emb (ix3 (0 : Fin 1) (0 : Fin 1) k)) 0 = sampleOf t := by
    apply Fin.ext
    show win0_5.index t 0 * 1 + 1 * ((0 : Fin 1) : ℕ) = t.val / 16
    rw [i0]; show t.val / 16 * 1 + 1 * 0 = t.val / 16; omega
  have e2 : (((cfg0.win 5).blk t).view.emb (ix3 (0 : Fin 1) (0 : Fin 1) k)) 2 = k := by
    apply Fin.ext
    show win0_5.index t 2 * 12 + 1 * (k : ℕ) = (k : ℕ)
    rw [i2]; omega
  show _ = G5 m c _
  unfold G5
  rw [e0, e2]

theorem final5 (c : Dev nD) : (dats (F := Ideal) m 0 c).arrAt 5 cfg0.N
    = fun j : S2x1x12.Idx => Domino.pred (xA m c) (j 0) (j 2) :=
  (dats (F := Ideal) m 0 c).arrAt_eq_of_cover 5 (G5 m c) (flushed5 m c) fun i => by
    have h0 : (i 0 : Nat) < 2 := (i 0).isLt
    have h1 : (i 1 : Nat) < 1 := (i 1).isLt
    have h2 : (i 2 : Nat) < 12 := (i 2).isLt
    have hN : 16 * (i 0 : Nat) + 15 < cfg0.N := by rw [show cfg0.N = 32 from N_0]; omega
    refine ⟨⟨16 * (i 0 : Nat) + 15, hN⟩, (flush0_5 _).mpr (by show (16 * (i 0 : Nat) + 15) % 16 = 15; omega), ?_⟩
    obtain ⟨i0, i1, i2⟩ := (hidx_out ⟨16 * (i 0 : Nat) + 15, hN⟩).2.2
    show i ∈ ((View.whole main_v1_2).slice (win0_5.rect ⟨16 * (i 0 : Nat) + 15, hN⟩)).set
    rw [View.set_slice_whole, Rect.mem_set_unit]
    intro a
    match a with
    | ⟨0, _⟩ =>
      show win0_5.index ⟨16 * (i 0 : Nat) + 15, hN⟩ 0 * 1 ≤ (i 0 : Nat) ∧ (i 0 : Nat) < win0_5.index ⟨16 * (i 0 : Nat) + 15, hN⟩ 0 * 1 + 1
      rw [i0]; show (16 * (i 0 : Nat) + 15) / 16 * 1 ≤ (i 0 : Nat) ∧ (i 0 : Nat) < (16 * (i 0 : Nat) + 15) / 16 * 1 + 1; omega
    | ⟨1, _⟩ =>
      show win0_5.index ⟨16 * (i 0 : Nat) + 15, hN⟩ 1 * 1 ≤ (i 1 : Nat) ∧ (i 1 : Nat) < win0_5.index ⟨16 * (i 0 : Nat) + 15, hN⟩ 1 * 1 + 1
      rw [i1]; omega
    | ⟨2, _⟩ =>
      show win0_5.index ⟨16 * (i 0 : Nat) + 15, hN⟩ 2 * 12 ≤ (i 2 : Nat) ∧ (i 2 : Nat) < win0_5.index ⟨16 * (i 0 : Nat) + 15, hN⟩ 2 * 12 + 12
      rw [i2]; omega

end Cert.KernelIdeal.Mirror

end
-- ==== Proof.KAccumS.lean ====
/-
  What the two scalar-per-sample result arrays (cross-entropy, penalty) hold after the last grid point.

  The grid is 2 × 16: point t = 16·n + h works on rows 8h … 8h+7 of sample n.  The first point of a row starts each
  accumulator from zero, every later one adds its block's contribution to what the point before left, so after point
  (n, h) an accumulator holds the contributions of blocks 0 … h of sample n; the block of sample n is written back
  after its sixteenth point.  A sum over sixteen blocks of eight rows is the sum over the 128 rows, so the arrays
  end at the per-sample statistics of Spec.lean.
-/
import proofs.«428624_j85598698209587_3_alg».proof.Proof.KArgs
import proofs.«428624_j85598698209587_3_alg».proof.Proof.KPieces
import proofs.«428624_j85598698209587_3_alg».proof.Proof.KIblk
import proofs.«428624_j85598698209587_3_alg».proof.Proof.KBlock
import proofs.«428624_j85598698209587_3_alg».proof.Proof.Loss
import Idealize.ShloMosaic.Lib.Pipeline.Value
import Idealize.ShloMosaic.Lib.StableHlo.Run
import Idealize.ShloMosaic.Lib.Tactic

set_option maxRecDepth 16384

noncomputable section

namespace Cert.KernelIdeal.Mirror

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

namespace AccS

/-- The blocks a grid point is handed, at their literal types. -/
abbrev xblk (c : Dev nD) (t : Fin cfg0.N) : Vec Ideal S1x12x8x128x128 .f32 := iblk (F := Ideal) m c 0 t
abbrev tblk (c : Dev nD) (t : Fin cfg0.N) : Vec Ideal S1x8x128x128 .i32 := iblk (F := Ideal) m c 1 t
abbrev mblk (c : Dev nD) (t : Fin cfg0.N) : Vec Ideal S12x12 .f32 := iblk (F := Ideal) m c 2 t

/-- Sample s and row 8h + r, as total functions of natural numbers (reduced into range). -/
def smp (s : ℕ) : Fin 2 := ⟨s % 2, Nat.mod_lt _ (by decide)⟩
def row (h : ℕ) (r : Fin 8) : Fin 128 := ⟨(8 * h + r.val) % 128, Nat.mod_lt _ (by decide)⟩

theorem sampleOf_eq (t : Fin cfg0.N) : sampleOf t = smp (t.val / 16) := by
  have h : t.val < 32 := lt_of_lt_of_eq t.isLt (show cfg0.N = 32 from N_0)
  apply Fin.ext
  show t.val / 16 = t.val / 16 % 2
  omega

theorem rowOf_eq (t : Fin cfg0.N) (r : Fin 8) : rowOf t r = row (t.val % 16) r := by
  apply Fin.ext
  show 8 * (t.val % 16) + r.val = (8 * (t.val % 16) + r.val) % 128
  have := r.isLt
  omega

/-- The contribution of block h of sample s to a sum over the voxels of a per-voxel term g. -/
def blk (g : Fin 2 → Fin 128 → Fin 128 → Fin 128 → EReal) (s h : ℕ) : EReal :=
  ∑ r : Fin 8, ∑ w : Fin 128, ∑ z : Fin 128, g (smp s) (row h r) w z

/-- Sixteen blocks of eight rows are the 128 rows. -/
theorem sum_blocks (g : Fin 2 → Fin 128 → Fin 128 → Fin 128 → EReal) (s : ℕ) :
    ∑ h ∈ Finset.range 16, blk g s h = ∑ H : Fin 128, ∑ W : Fin 128, ∑ Z : Fin 128, g (smp s) H W Z := by
  rw [Domino.sum_rows (fun H => ∑ W : Fin 128, ∑ Z : Fin 128, g (smp s) H W Z), Finset.sum_range]
  refine Finset.sum_congr rfl fun h _ => ?_
  unfold blk
  refine Finset.sum_congr rfl fun r _ => ?_
  have e : row h.val r = ⟨8 * h.val + r.val, by have := h.isLt; have := r.isLt; omega⟩ := by
    apply Fin.ext
    show (8 * h.val + r.val) % 128 = 8 * h.val + r.val
    have := h.isLt
    have := r.isLt
    omega
  rw [e]

/-- A quantity that restarts at each multiple of sixteen with that point's term and otherwise adds its point's term
    to what the point before left is, after point n, the sum of the terms of points 16·(n/16) … n. -/
theorem fold_rows (a : (n : ℕ) → n < cfg0.N → EReal) (f : ℕ → ℕ → EReal)
    (hA : ∀ (n : ℕ) (h : n < cfg0.N), n % 16 = 0 → a n h = f (n / 16) (n % 16))
    (hB : ∀ (n : ℕ) (h : n + 1 < cfg0.N), ¬(n + 1) % 16 = 0 →
      a (n + 1) h = a n (Nat.lt_of_succ_lt h) + f ((n + 1) / 16) ((n + 1) % 16)) :
    ∀ (n : ℕ) (h : n < cfg0.N), a n h = ∑ h' ∈ Finset.range (n % 16 + 1), f (n / 16) h'
  | 0, h => by
    rw [hA 0 h rfl]
    simp
  | n + 1, h => by
    by_cases hz : (n + 1) % 16 = 0
    · rw [hA (n + 1) h hz, hz]
      simp
    · rw [hB n h hz, fold_rows a f hA hB n (Nat.lt_of_succ_lt h)]
      have e1 : (n + 1) / 16 = n / 16 := by omega
      have e2 : (n + 1) % 16 = n % 16 + 1 := by omega
      rw [e1, e2, Finset.sum_range_succ _ (n % 16 + 1)]

/-- The cross-entropy and the penalty term of voxel (H, W, Z) of sample n. -/
def ceVox (c : Dev nD) (n : Fin 2) (H W Z : Fin 128) : EReal :=
  ∑ k : Fin 12, Domino.oh (tA m c n H W Z) k * Domino.lp (Domino.vox (xA m c) n H W Z) k
def penVox (c : Dev nD) (n : Fin 2) (H W Z : Fin 128) : EReal :=
  ∑ tt : Fin 12, Domino.oh (tA m c n H W Z) tt * ∑ cp : Fin 12, mA m c tt cp * Domino.pr (Domino.vox (xA m c) n H W Z) cp

/-- What a point that starts a row leaves in the cross-entropy accumulator. -/
theorem ce_A (c : Dev nD) (t : Fin cfg0.N) (h0 : t.val % 16 = 0) :
    (outsAt0 (F := Ideal) m c t.val t.isLt).2.2.2.1 = newCe (F := Ideal) (xblk m c t) (tblk m c t) (zero1 (F := Ideal)) := by
  rw [outsAt0_A m c t h0]
  dsimp only
  exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t)

/-- What a point that continues a row leaves there, over what the point before left. -/
theorem ce_B (c : Dev nD) (t : Fin cfg0.N) (h0 : ¬t.val % 16 = 0) :
    (outsAt0 (F := Ideal) m c t.val t.isLt).2.2.2.1
      = newCe (F := Ideal) (xblk m c t) (tblk m c t) (outsAt0 (F := Ideal) m c (t.val - 1) (Nat.lt_of_le_of_lt (Nat.sub_le _ _) t.isLt)).2.2.2.1 := by
  rw [outsAt0_B m c t h0]
  dsimp only
  exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (outsAt0 (F := Ideal) m c (t.val - 1) (Nat.lt_of_le_of_lt (Nat.sub_le _ _) t.isLt)).1 (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

theorem pen_A (c : Dev nD) (t : Fin cfg0.N) (h0 : t.val % 16 = 0) :
    (outsAt0 (F := Ideal) m c t.val t.isLt).2.2.2.2 = newPen (F := Ideal) (xblk m c t) (tblk m c t) (mblk m c t) (zero1 (F := Ideal)) := by
  rw [outsAt0_A m c t h0]
  dsimp only
  exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t)

theorem pen_B (c : Dev nD) (t : Fin cfg0.N) (h0 : ¬t.val % 16 = 0) :
    (outsAt0 (F := Ideal) m c t.val t.isLt).2.2.2.2
      = newPen (F := Ideal) (xblk m c t) (tblk m c t) (mblk m c t) (outsAt0 (F := Ideal) m c (t.val - 1) (Nat.lt_of_le_of_lt (Nat.sub_le _ _) t.isLt)).2.2.2.2 := by
  rw [outsAt0_B m c t h0]
  dsimp only
  exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (outsAt0 (F := Ideal) m c (t.val - 1) (Nat.lt_of_le_of_lt (Nat.sub_le _ _) t.isLt)).1 (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

/-- The block's cross-entropy contribution, as the block term of the per-voxel cross-entropy of the argument arrays. -/
theorem ceTerm_eq (c : Dev nD) (t : Fin cfg0.N) :
    (∑ r : Fin 8, ∑ w : Fin 128, ∑ z : Fin 128, ∑ k : Fin 12,
        Domino.oh (bt (tblk m c t) r w z) k * Domino.lp (bx (xblk m c t) r w z) k)
      = blk (ceVox m c) (t.val / 16) (t.val % 16) := by
  unfold blk ceVox
  refine Finset.sum_congr rfl fun r _ => Finset.sum_congr rfl fun w _ => Finset.sum_congr rfl fun z _ => ?_
  have e1 : bt (tblk m c t) r w z = tA m c (smp (t.val / 16)) (row (t.val % 16) r) w z := by
    rw [← sampleOf_eq, ← rowOf_eq]
    exact iblk1_apply m c t r w z
  have e0 : bx (xblk m c t) r w z = Domino.vox (xA m c) (smp (t.val / 16)) (row (t.val % 16) r) w z := by
    rw [← sampleOf_eq, ← rowOf_eq]
    funext k
    exact iblk0_apply m c t k r w z
  rw [e1, e0]

theorem penTerm_eq (c : Dev nD) (t : Fin cfg0.N) :
    (∑ r : Fin 8, ∑ w : Fin 128, ∑ z : Fin 128, ∑ tt : Fin 12,
        Domino.oh (bt (tblk m c t) r w z) tt * ∑ cp : Fin 12, mblk m c t (ix2 tt cp) * Domino.pr (bx (xblk m c t) r w z) cp)
      = blk (penVox m c) (t.val / 16) (t.val % 16) := by
  unfold blk penVox
  refine Finset.sum_congr rfl fun r _ => Finset.sum_congr rfl fun w _ => Finset.sum_congr rfl fun z _ => ?_
  have e1 : bt (tblk m c t) r w z = tA m c (smp (t.val / 16)) (row (t.val % 16) r) w z := by
    rw [← sampleOf_eq, ← rowOf_eq]
    exact iblk1_apply m c t r w z
  have e0 : bx (xblk m c t) r w z = Domino.vox (xA m c) (smp (t.val / 16)) (row (t.val % 16) r) w z := by
    rw [← sampleOf_eq, ← rowOf_eq]
    funext k
    exact iblk0_apply m c t k r w z
  have e2 : ∀ tt cp : Fin 12, mblk m c t (ix2 tt cp) = mA m c tt cp := fun tt cp => iblk2_apply m c t tt cp
  rw [e1, e0]
  simp only [e2]

/-- After point n the cross-entropy accumulator holds the contributions of blocks 0 … n % 16 of sample n / 16. -/
theorem ce_inv (c : Dev nD) (n : ℕ) (h : n < cfg0.N) :
    (outsAt0 (F := Ideal) m c n h).2.2.2.1 (ix3 (0 : Fin 1) (0 : Fin 1) (0 : Fin 1))
      = ∑ h' ∈ Finset.range (n % 16 + 1), blk (ceVox m c) (n / 16) h' := by
  refine fold_rows (fun n h => (outsAt0 (F := Ideal) m c n h).2.2.2.1 (ix3 (0 : Fin 1) (0 : Fin 1) (0 : Fin 1))) (blk (ceVox m c)) ?_ ?_ n h
  · intro n h h0
    show (outsAt0 (F := Ideal) m c (⟨n, h⟩ : Fin cfg0.N).val (⟨n, h⟩ : Fin cfg0.N).isLt).2.2.2.1 (ix3 (0 : Fin 1) (0 : Fin 1) (0 : Fin 1)) = _
    rw [ce_A m c ⟨n, h⟩ h0, newCe_apply, zero1_apply, zero_add]
    exact ceTerm_eq m c ⟨n, h⟩
  · intro n h h0
    show (outsAt0 (F := Ideal) m c (⟨n + 1, h⟩ : Fin cfg0.N).val (⟨n + 1, h⟩ : Fin cfg0.N).isLt).2.2.2.1 (ix3 (0 : Fin 1) (0 : Fin 1) (0 : Fin 1)) = _
    rw [ce_B m c ⟨n + 1, h⟩ h0, newCe_apply]
    exact congrArg _ (ceTerm_eq m c ⟨n + 1, h⟩)

theorem pen_inv (c : Dev nD) (n : ℕ) (h : n < cfg0.N) :
    (outsAt0 (F := Ideal) m c n h).2.2.2.2 (ix3 (0 : Fin 1) (0 : Fin 1) (0 : Fin 1))
      = ∑ h' ∈ Finset.range (n % 16 + 1), blk (penVox m c) (n / 16) h' := by
  refine fold_rows (fun n h => (outsAt0 (F := Ideal) m c n h).2.2.2.2 (ix3 (0 : Fin 1) (0 : Fin 1) (0 : Fin 1))) (blk (penVox m c)) ?_ ?_ n h
  · intro n h h0
    show (outsAt0 (F := Ideal) m c (⟨n, h⟩ : Fin cfg0.N).val (⟨n, h⟩ : Fin cfg0.N).isLt).2.2.2.2 (ix3 (0 : Fin 1) (0 : Fin 1) (0 : Fin 1)) = _
    rw [pen_A m c ⟨n, h⟩ h0, newPen_apply, zero1_apply, zero_add]
    exact penTerm_eq m c ⟨n, h⟩
  · intro n h h0
    show (outsAt0 (F := Ideal) m c (⟨n + 1, h⟩ : Fin cfg0.N).val (⟨n + 1, h⟩ : Fin cfg0.N).isLt).2.2.2.2 (ix3 (0 : Fin 1) (0 : Fin 1) (0 : Fin 1)) = _
    rw [pen_B m c ⟨n + 1, h⟩ h0, newPen_apply]
    exact congrArg _ (penTerm_eq m c ⟨n + 1, h⟩)

/-- A [1,1,1] block has one index. -/
theorem idx_one (j : S1x1x1.Idx) : j = (ix3 (0 : Fin 1) (0 : Fin 1) (0 : Fin 1)) := by
  funext a
  apply Fin.ext
  match a with
  | ⟨0, _⟩ => have h : (j 0 : Nat) < 1 := (j 0).isLt; show (j 0 : Nat) = 0; omega
  | ⟨1, _⟩ => have h : (j 1 : Nat) < 1 := (j 1).isLt; show (j 1 : Nat) = 0; omega
  | ⟨2, _⟩ => have h : (j 2 : Nat) < 1 := (j 2).isLt; show (j 2 : Nat) = 0; omega

/-- The per-sample arrays the two accumulators end at. -/
abbrev G6 (c : Dev nD) : Buf (Elt Ideal) ((c.tc : Thread nD τ).loc main_v1_3) :=
  fun j : S2x1x1.Idx => Domino.ceAcc (xA m c) (tA m c) (j 0)
abbrev G7 (c : Dev nD) : Buf (Elt Ideal) ((c.tc : Thread nD τ).loc main_v1_4) :=
  fun j : S2x1x1.Idx => Domino.penAcc (xA m c) (tA m c) (mA m c) (j 0)

theorem flushed6 (c : Dev nD) (t : Fin cfg0.N) (hf : (cfg0.win 6).flush t = true) :
    (dats (F := Ideal) m 0 c).flushed 6 t = ((cfg0.win 6).blk t).view.read (Elt Ideal) (G6 m c) := by
  have hN : t.val < 32 := lt_of_lt_of_eq t.isLt (show cfg0.N = 32 from N_0)
  have h15 : t.val % 16 = 15 := (flush0_6 t).mp hf
  show (cfg0.win 6).cut (grid0.coords t) ((dats (F := Ideal) m 0 c).after 6 t) = _
  rw [after0_6]
  funext j
  have hj : j = (ix3 (0 : Fin 1) (0 : Fin 1) (0 : Fin 1)) := idx_one j
  subst hj
  show (outsAt0 (F := Ideal) m c t.val t.isLt).2.2.2.1 (ix3 (0 : Fin 1) (0 : Fin 1) (0 : Fin 1)) = _
  rw [ce_inv m c t.val t.isLt, h15, sum_blocks]
  -- the block of point t in the [2,1,1] array is the slot of sample t / 16
  have hidx : ∀ t : Fin cfg0.N, win0_6.index t 0 = t.val / 16 :=
    (by decide +kernel : ∀ t : Fin grid0.N, win0_6.index t 0 = t.val / 16)
  rw [View.read_apply]
  show _ = Domino.ceAcc (xA m c) (tA m c) _
  have hs : ((cfg0.win 6).blk t).view.emb (ix3 (0 : Fin 1) (0 : Fin 1) (0 : Fin 1)) 0 = smp (t.val / 16) := by
    apply Fin.ext
    show win0_6.index t 0 * 1 + 1 * 0 = t.val / 16 % 2
    rw [hidx t]
    omega
  rw [hs]
  simp only [Domino.ceAcc, ceVox]

theorem flushed7 (c : Dev nD) (t : Fin cfg0.N) (hf : (cfg0.win 7).flush t = true) :
    (dats (F := Ideal) m 0 c).flushed 7 t = ((cfg0.win 7).blk t).view.read (Elt Ideal) (G7 m c) := by
  have hN : t.val < 32 := lt_of_lt_of_eq t.isLt (show cfg0.N = 32 from N_0)
  have h15 : t.val % 16 = 15 := (flush0_7 t).mp hf
  show (cfg0.win 7).cut (grid0.coords t) ((dats (F := Ideal) m 0 c).after 7 t) = _
  rw [after0_7]
  funext j
  have hj : j = (ix3 (0 : Fin 1) (0 : Fin 1) (0 : Fin 1)) := idx_one j
  subst hj
  show (outsAt0 (F := Ideal) m c t.val t.isLt).2.2.2.2 (ix3 (0 : Fin 1) (0 : Fin 1) (0 : Fin 1)) = _
  rw [pen_inv m c t.val t.isLt, h15, sum_blocks]
  have hidx : ∀ t : Fin cfg0.N, win0_7.index t 0 = t.val / 16 :=
    (by decide +kernel : ∀ t : Fin grid0.N, win0_7.index t 0 = t.val / 16)
  rw [View.read_apply]
  show _ = Domino.penAcc (xA m c) (tA m c) (mA m c) _
  have hs : ((cfg0.win 7).blk t).view.emb (ix3 (0 : Fin 1) (0 : Fin 1) (0 : Fin 1)) 0 = smp (t.val / 16) := by
    apply Fin.ext
    show win0_7.index t 0 * 1 + 1 * 0 = t.val / 16 % 2
    rw [hidx t]
    omega
  rw [hs]
  simp only [Domino.penAcc, penVox]

/-- The last point of each sample's row of the grid. -/
abbrev tEnd0 : Fin cfg0.N := ⟨15, by rw [show cfg0.N = 32 from N_0]; decide⟩
abbrev tEnd1 : Fin cfg0.N := ⟨31, by rw [show cfg0.N = 32 from N_0]; decide⟩

/-- Every slot of the [2,1,1] array is the block of the last point of its sample. -/
theorem cover6 (i : S2x1x1.Idx) :
    ∃ t : Fin cfg0.N, (cfg0.win 6).flush t = true ∧ i ∈ ((cfg0.win 6).blk t).view.set := by
  have h0 : (i 0 : Nat) < 2 := (i 0).isLt
  have h1 : (i 1 : Nat) < 1 := (i 1).isLt
  have h2 : (i 2 : Nat) < 1 := (i 2).isLt
  rcases (by omega : (i 0 : Nat) = 0 ∨ (i 0 : Nat) = 1) with e | e
  · refine ⟨tEnd0, (flush0_6 tEnd0).mpr rfl, ?_⟩
    show i ∈ ((View.whole main_v1_3).slice (win0_6.rect tEnd0)).set
    rw [View.set_slice_whole, Rect.mem_set_unit]
    intro a
    match a with
    | ⟨0, _⟩ =>
      show win0_6.index tEnd0 0 * win0_6.size 0 ≤ (i 0 : Nat) ∧ (i 0 : Nat) < win0_6.index tEnd0 0 * win0_6.size 0 + win0_6.xsize (grid0.coords tEnd0) 0
      rw [show win0_6.index tEnd0 0 * win0_6.size 0 = 0 from by decide +kernel, show win0_6.xsize (grid0.coords tEnd0) 0 = 1 from by decide +kernel]
      omega
    | ⟨1, _⟩ =>
      show win0_6.index tEnd0 1 * win0_6.size 1 ≤ (i 1 : Nat) ∧ (i 1 : Nat) < win0_6.index tEnd0 1 * win0_6.size 1 + win0_6.xsize (grid0.coords tEnd0) 1
      rw [show win0_6.index tEnd0 1 * win0_6.size 1 = 0 from by decide +kernel, show win0_6.xsize (grid0.coords tEnd0) 1 = 1 from by decide +kernel]
      omega
    | ⟨2, _⟩ =>
      show win0_6.index tEnd0 2 * win0_6.size 2 ≤ (i 2 : Nat) ∧ (i 2 : Nat) < win0_6.index tEnd0 2 * win0_6.size 2 + win0_6.xsize (grid0.coords tEnd0) 2
      rw [show win0_6.index tEnd0 2 * win0_6.size 2 = 0 from by decide +kernel, show win0_6.xsize (grid0.coords tEnd0) 2 = 1 from by decide +kernel]
      omega
  · refine ⟨tEnd1, (flush0_6 tEnd1).mpr rfl, ?_⟩
    show i ∈ ((View.whole main_v1_3).slice (win0_6.rect tEnd1)).set
    rw [View.set_slice_whole, Rect.mem_set_unit]
    intro a
    match a with
    | ⟨0, _⟩ =>
      show win0_6.index tEnd1 0 * win0_6.size 0 ≤ (i 0 : Nat) ∧ (i 0 : Nat) < win0_6.index tEnd1 0 * win0_6.size 0 + win0_6.xsize (grid0.coords tEnd1) 0
      rw [show win0_6.index tEnd1 0 * win0_6.size 0 = 1 from by decide +kernel, show win0_6.xsize (grid0.coords tEnd1) 0 = 1 from by decide +kernel]
      omega
    | ⟨1, _⟩ =>
      show win0_6.index tEnd1 1 * win0_6.size 1 ≤ (i 1 : Nat) ∧ (i 1 : Nat) < win0_6.index tEnd1 1 * win0_6.size 1 + win0_6.xsize (grid0.coords tEnd1) 1
      rw [show win0_6.index tEnd1 1 * win0_6.size 1 = 0 from by decide +kernel, show win0_6.xsize (grid0.coords tEnd1) 1 = 1 from by decide +kernel]
      omega
    | ⟨2, _⟩ =>
      show win0_6.index tEnd1 2 * win0_6.size 2 ≤ (i 2 : Nat) ∧ (i 2 : Nat) < win0_6.index tEnd1 2 * win0_6.size 2 + win0_6.xsize (grid0.coords tEnd1) 2
      rw [show win0_6.index tEnd1 2 * win0_6.size 2 = 0 from by decide +kernel, show win0_6.xsize (grid0.coords tEnd1) 2 = 1 from by decide +kernel]
      omega

/-- Every slot of the [2,1,1] array is the block of the last point of its sample. -/
theorem cover7 (i : S2x1x1.Idx) :
    ∃ t : Fin cfg0.N, (cfg0.win 7).flush t = true ∧ i ∈ ((cfg0.win 7).blk t).view.set := by
  have h0 : (i 0 : Nat) < 2 := (i 0).isLt
  have h1 : (i 1 : Nat) < 1 := (i 1).isLt
  have h2 : (i 2 : Nat) < 1 := (i 2).isLt
  rcases (by omega : (i 0 : Nat) = 0 ∨ (i 0 : Nat) = 1) with e | e
  · refine ⟨tEnd0, (flush0_7 tEnd0).mpr rfl, ?_⟩
    show i ∈ ((View.whole main_v1_4).slice (win0_7.rect tEnd0)).set
    rw [View.set_slice_whole, Rect.mem_set_unit]
    intro a
    match a with
    | ⟨0, _⟩ =>
      show win0_7.index tEnd0 0 * win0_7.size 0 ≤ (i 0 : Nat) ∧ (i 0 : Nat) < win0_7.index tEnd0 0 * win0_7.size 0 + win0_7.xsize (grid0.coords tEnd0) 0
      rw [show win0_7.index tEnd0 0 * win0_7.size 0 = 0 from by decide +kernel, show win0_7.xsize (grid0.coords tEnd0) 0 = 1 from by decide +kernel]
      omega
    | ⟨1, _⟩ =>
      show win0_7.index tEnd0 1 * win0_7.size 1 ≤ (i 1 : Nat) ∧ (i 1 : Nat) < win0_7.index tEnd0 1 * win0_7.size 1 + win0_7.xsize (grid0.coords tEnd0) 1
      rw [show win0_7.index tEnd0 1 * win0_7.size 1 = 0 from by decide +kernel, show win0_7.xsize (grid0.coords tEnd0) 1 = 1 from by decide +kernel]
      omega
    | ⟨2, _⟩ =>
      show win0_7.index tEnd0 2 * win0_7.size 2 ≤ (i 2 : Nat) ∧ (i 2 : Nat) < win0_7.index tEnd0 2 * win0_7.size 2 + win0_7.xsize (grid0.coords tEnd0) 2
      rw [show win0_7.index tEnd0 2 * win0_7.size 2 = 0 from by decide +kernel, show win0_7.xsize (grid0.coords tEnd0) 2 = 1 from by decide +kernel]
      omega
  · refine ⟨tEnd1, (flush0_7 tEnd1).mpr rfl, ?_⟩
    show i ∈ ((View.whole main_v1_4).slice (win0_7.rect tEnd1)).set
    rw [View.set_slice_whole, Rect.mem_set_unit]
    intro a
    match a with
    | ⟨0, _⟩ =>
      show win0_7.index tEnd1 0 * win0_7.size 0 ≤ (i 0 : Nat) ∧ (i 0 : Nat) < win0_7.index tEnd1 0 * win0_7.size 0 + win0_7.xsize (grid0.coords tEnd1) 0
      rw [show win0_7.index tEnd1 0 * win0_7.size 0 = 1 from by decide +kernel, show win0_7.xsize (grid0.coords tEnd1) 0 = 1 from by decide +kernel]
      omega
    | ⟨1, _⟩ =>
      show win0_7.index tEnd1 1 * win0_7.size 1 ≤ (i 1 : Nat) ∧ (i 1 : Nat) < win0_7.index tEnd1 1 * win0_7.size 1 + win0_7.xsize (grid0.coords tEnd1) 1
      rw [show win0_7.index tEnd1 1 * win0_7.size 1 = 0 from by decide +kernel, show win0_7.xsize (grid0.coords tEnd1) 1 = 1 from by decide +kernel]
      omega
    | ⟨2, _⟩ =>
      show win0_7.index tEnd1 2 * win0_7.size 2 ≤ (i 2 : Nat) ∧ (i 2 : Nat) < win0_7.index tEnd1 2 * win0_7.size 2 + win0_7.xsize (grid0.coords tEnd1) 2
      rw [show win0_7.index tEnd1 2 * win0_7.size 2 = 0 from by decide +kernel, show win0_7.xsize (grid0.coords tEnd1) 2 = 1 from by decide +kernel]
      omega

end AccS

theorem final6 (c : Dev nD) : (dats (F := Ideal) m 0 c).arrAt 6 cfg0.N
    = fun j : S2x1x1.Idx => Domino.ceAcc (xA m c) (tA m c) (j 0) := by
  exact (dats (F := Ideal) m 0 c).arrAt_eq_of_cover 6 (AccS.G6 m c) (AccS.flushed6 m c) fun i => AccS.cover6 i

theorem final7 (c : Dev nD) : (dats (F := Ideal) m 0 c).arrAt 7 cfg0.N
    = fun j : S2x1x1.Idx => Domino.penAcc (xA m c) (tA m c) (mA m c) (j 0) := by
  exact (dats (F := Ideal) m 0 c).arrAt_eq_of_cover 7 (AccS.G7 m c) (AccS.flushed7 m c) fun i => AccS.cover7 i

end Cert.KernelIdeal.Mirror

end
-- ==== Proof.KRun.lean ====
/-
  The idealized kernel's run, read: its result is the loss in the kernel's arrangement.

  After the region the host reshapes the five result arrays to [2,12], [2,12], [2,12], [2], [2], sums the
  cross-entropy and penalty accumulators over the two samples, negates and divides the first by the voxel count,
  multiplies the second by 3 and divides it, forms the mean Dice term from the three statistics, and adds the three.
-/
import proofs.«428624_j85598698209587_3_alg».proof.Proof.KAccum
import proofs.«428624_j85598698209587_3_alg».proof.Proof.KAccumS
import Idealize.ShloMosaic.PureOps.Ideal.Laws
import Idealize.ShloMosaic.Lib.IdealHost
import Idealize.ShloMosaic.Lib.ValueIdxRank1
import Idealize.ShloMosaic.Lib.Pipeline.Value
import Idealize.ShloMosaic.Lib.StableHlo.Run

set_option maxRecDepth 16384

noncomputable section

namespace Cert.KernelIdeal.Mirror

open Idealize.ShloMosaic Idealize.ShloMosaic.TcCoe Idealize.ShloMosaic.ValueIdx Idealize.SL.Sem Cert.KernelIdeal Cert.KernelIdeal.Gen
open Idealize.ShloMosaic.Pipeline (Dat)

/-! ## Reshapes that drop unit axes, and the host's negation, read at an index -/

/-- A `[a, 1, b]` array cast to `[a, b]` reads, at `j`, the operand at `(j 0, 0, j 1)`: the two indices have the same
    row-major position. -/
theorem shapeCast_a1b_ab_apply {α : Type} {a b : ℕ} (x : (⟨3, ![a, 1, b]⟩ : Shape).Idx → α)
    (h : (⟨3, ![a, 1, b]⟩ : Shape).ShapeCasts ⟨2, ![a, b]⟩) (j : (⟨2, ![a, b]⟩ : Shape).Idx) :
    shapeCast ⟨2, ![a, b]⟩ x h j = x (ix3 (j 0) (0 : Fin 1) (j 1)) :=
  shapeCast_apply x h _ _ (by
    rw [Shape.rowMajor_val_three, Shape.rowMajor_val_two]
    show ((j 0).val * 1 + 0) * b + (j 1).val = (j 0).val * b + (j 1).val
    rw [Nat.mul_one, Nat.add_zero])

/-- A `[a, 1, 1]` array cast to `[a]` reads, at `j`, the operand at `(j 0, 0, 0)`. -/
theorem shapeCast_a11_a_apply {α : Type} {a : ℕ} (x : (⟨3, ![a, 1, 1]⟩ : Shape).Idx → α)
    (h : (⟨3, ![a, 1, 1]⟩ : Shape).ShapeCasts ⟨1, ![a]⟩) (j : (⟨1, ![a]⟩ : Shape).Idx) :
    shapeCast ⟨1, ![a]⟩ x h j = x (ix3 (j 0) (0 : Fin 1) (0 : Fin 1)) :=
  shapeCast_apply x h _ _ (by
    rw [Shape.rowMajor_val_three, Shape.rowMajor_val_one]
    show ((j 0).val * 1 + 0) * 1 + 0 = (j 0).val
    omega)

/-- The host's negation at an index is the negation of the element. -/
theorem hostNegf_apply {s : Shape} {φ : FTy} (a : FVec Ideal s φ) (i : s.Idx) : Host.negf a i = -(a i) := rfl

/-- The tail's three sums by coordinates: a reshaped accumulator summed over `[2]` is the accumulator at `(n, 0, 0)` summed
    over the two samples, and a reshaped statistic at `j` of `[2, 12]` is the statistic at `(j 0, 0, j 1)`. The seven
    constants are arbitrary. -/
theorem tail_form (I G P : S2x1x12.Idx → EReal) (C Q : S2x1x1.Idx → EReal) (z s one two e d three : EReal) :
    (Ideal.div (-(z + ∑ i : S2.Idx, shapeCast S2 C shapeCasts_S2x1x1_S2 i)) s
        + Ideal.div (z + ∑ i : S2x12.Idx, (one - Ideal.div (two * shapeCast S2x12 I shapeCasts_S2x1x12_S2x12 i + e)
            (shapeCast S2x12 G shapeCasts_S2x1x12_S2x12 i + shapeCast S2x12 P shapeCasts_S2x1x12_S2x12 i + e))) d)
      + Ideal.div (three * (z + ∑ i : S2.Idx, shapeCast S2 Q shapeCasts_S2x1x1_S2 i)) s
    = (Ideal.div (-(z + ∑ n : Fin 2, C (ix3 n (0 : Fin 1) (0 : Fin 1)))) s
        + Ideal.div (z + ∑ j : S2x12.Idx, (one - Ideal.div (two * I (ix3 (j 0) (0 : Fin 1) (j 1)) + e)
            (G (ix3 (j 0) (0 : Fin 1) (j 1)) + P (ix3 (j 0) (0 : Fin 1) (j 1)) + e))) d)
      + Ideal.div (three * (z + ∑ n : Fin 2, Q (ix3 n (0 : Fin 1) (0 : Fin 1)))) s := by
  have hC : ∑ i : S2.Idx, shapeCast S2 C shapeCasts_S2x1x1_S2 i = ∑ n : Fin 2, C (ix3 n (0 : Fin 1) (0 : Fin 1)) :=
    Fintype.sum_equiv idxEquiv1 _ _ (fun i => shapeCast_a11_a_apply C _ i)
  have hQ : ∑ i : S2.Idx, shapeCast S2 Q shapeCasts_S2x1x1_S2 i = ∑ n : Fin 2, Q (ix3 n (0 : Fin 1) (0 : Fin 1)) :=
    Fintype.sum_equiv idxEquiv1 _ _ (fun i => shapeCast_a11_a_apply Q _ i)
  rw [hC, hQ]
  simp only [shapeCast_a1b_ab_apply]

variable (m : (ℓ : Loc nD τ sig) → Buf (Elt Ideal) ℓ)

/-! ## The five result arrays as the region leaves them -/

theorem with3 (c : Dev nD) : Pipeline.withArrays (cfgs 0).spec c (V0 m c) (fun w => (dats (F := Ideal) m 0 c).arrAt w (cfgs 0).N)
    (Proc.devRef .tc main_v1_0) = fun j : S2x1x12.Idx => Domino.inter (xA m c) (tA m c) (j 0) (j 2) :=
  (Pipeline.withArrays_arr spec0 launch0.win.arr_inj c _ _ 3).trans (final3 m c)
theorem with4 (c : Dev nD) : Pipeline.withArrays (cfgs 0).spec c (V0 m c) (fun w => (dats (F := Ideal) m 0 c).arrAt w (cfgs 0).N)
    (Proc.devRef .tc main_v1_1) = fun j : S2x1x12.Idx => Domino.ground (tA m c) (j 0) (j 2) :=
  (Pipeline.withArrays_arr spec0 launch0.win.arr_inj c _ _ 4).trans (final4 m c)
theorem with5 (c : Dev nD) : Pipeline.withArrays (cfgs 0).spec c (V0 m c) (fun w => (dats (F := Ideal) m 0 c).arrAt w (cfgs 0).N)
    (Proc.devRef .tc main_v1_2) = fun j : S2x1x12.Idx => Domino.pred (xA m c) (j 0) (j 2) :=
  (Pipeline.withArrays_arr spec0 launch0.win.arr_inj c _ _ 5).trans (final5 m c)
theorem with6 (c : Dev nD) : Pipeline.withArrays (cfgs 0).spec c (V0 m c) (fun w => (dats (F := Ideal) m 0 c).arrAt w (cfgs 0).N)
    (Proc.devRef .tc main_v1_3) = fun j : S2x1x1.Idx => Domino.ceAcc (xA m c) (tA m c) (j 0) :=
  (Pipeline.withArrays_arr spec0 launch0.win.arr_inj c _ _ 6).trans (final6 m c)
theorem with7 (c : Dev nD) : Pipeline.withArrays (cfgs 0).spec c (V0 m c) (fun w => (dats (F := Ideal) m 0 c).arrAt w (cfgs 0).N)
    (Proc.devRef .tc main_v1_4) = fun j : S2x1x1.Idx => Domino.penAcc (xA m c) (tA m c) (mA m c) (j 0) :=
  (Pipeline.withArrays_arr spec0 launch0.win.arr_inj c _ _ 7).trans (final7 m c)

/-! ## The host operations after the region -/

/-- The host operations after the region leave the loss, in the kernel's arrangement, in the result buffer: each operation
    is read at the one index of the scalar shape, the three reductions into the scalar shape are the initial value plus the
    total sum, and the reshaped arrays are read by coordinates. -/
theorem tail_eq (c : Dev nD) :
    Pipeline.afterTail₀ cfgs (dats (F := Ideal) m) 0 (V0 m) [hostOps1] c main_v26
      = fun _ => Domino.lossK (xA m c) (tA m c) (mA m c) := by
  unfold Pipeline.afterTail₀
  show StableHlo.after hostOps1 _ (Proc.devRef .tc main_v26) = _
  after_results_simp
  rw [with3 m c, with4 m c, with5 m c, with6 m c, with7 m c]
  funext i
  simp only [addf_apply, subf_apply, mulf_apply, hostDivf_apply, hostNegf_apply, hostReduceAdd_apply, constant_apply,
    broadcastInDim_scalar_apply, Ideal.hostReduceAdd_total reducesTo_S2_S_d0 (fun b => b.elim0),
    Ideal.hostReduceAdd_total reducesTo_S2x12_S_d0_1 (fun b => b.elim0)]
  refine (tail_form (fun j : S2x1x12.Idx => Domino.inter (xA m c) (tA m c) (j 0) (j 2))
    (fun j : S2x1x12.Idx => Domino.ground (tA m c) (j 0) (j 2)) (fun j : S2x1x12.Idx => Domino.pred (xA m c) (j 0) (j 2))
    (fun j : S2x1x1.Idx => Domino.ceAcc (xA m c) (tA m c) (j 0))
    (fun j : S2x1x1.Idx => Domino.penAcc (xA m c) (tA m c) (mA m c) (j 0)) _ _ _ _ _ _ _).trans ?_
  rfl

/-! ## The run -/

/-- Every weakly fair execution of the idealized kernel terminates with its result at the loss and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = (fun _ => Domino.lossK (xA m c) (tA m c) (mA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v26 (Pipeline.mem_restRefs_of main_v26 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩) (run_main m ρ)

end Cert.KernelIdeal.Mirror

end
-- ==== Proof.RefRun.lean ====
/-
  The reference's run, read at its last stage.

  The reference's 96 host operations are spelt a second time with the plain builders.  An operation of an inlined callee
  is stated over typed references, whose contents pass through a transport along the reference's type equation; at a
  literal reference that equation is reflexivity, so the operation is the plain builder's with the same function.  The
  two lists are equal element by element.  Over the plain list the contents of the last buffer after the fold of the
  operations' results is the stages' term: the stage val_main_v38 of the three argument arrays.  The run: every weakly
  fair execution of the reference terminates with the result buffer at that stage and the three arguments unchanged.
-/
import proofs.«428624_j85598698209587_3_alg».proof.Proof.RefRunP
import proofs.«428624_j85598698209587_3_alg».proof.Proof.RefReadP

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! The inlined callees' operations are spelt over typed references, whose contents pass through a transport along
    the reference's type equation; at a literal reference that equation is reflexivity and the operation is the plain
    builder's.  Stated for an arbitrary function. -/

theorem nullary_of {Val : EltTy → Type} (y : Ref sig .tc) (v : y.ty.Contents Val)
    (y1 : y.ty = y.ty) (y2 : y.space ≠ .host) (y3 : y.isScoped = false) :
    (TRef.nullary (TRef.of (T := y.ty) y y1 y2 y3) v : HloOp τ sig Val)
      = StableHlo.nullary y v (TRef.of (T := y.ty) y y1 y2 y3).dev := rfl

theorem unary_of {Val : EltTy → Type} (x y : Ref sig .tc) (f : x.ty.Contents Val → y.ty.Contents Val)
    (x1 : x.ty = x.ty) (x2 : x.space ≠ .host) (x3 : x.isScoped = false)
    (y1 : y.ty = y.ty) (y2 : y.space ≠ .host) (y3 : y.isScoped = false) :
    (TRef.unary (TRef.of (T := x.ty) x x1 x2 x3) (TRef.of (T := y.ty) y y1 y2 y3) f : HloOp τ sig Val)
      = StableHlo.unary x y f (TRef.of (T := x.ty) x x1 x2 x3).dev (TRef.of (T := y.ty) y y1 y2 y3).dev := rfl

theorem binary_of {Val : EltTy → Type} (a b y : Ref sig .tc) (f : a.ty.Contents Val → b.ty.Contents Val → y.ty.Contents Val)
    (a1 : a.ty = a.ty) (a2 : a.space ≠ .host) (a3 : a.isScoped = false)
    (b1 : b.ty = b.ty) (b2 : b.space ≠ .host) (b3 : b.isScoped = false)
    (y1 : y.ty = y.ty) (y2 : y.space ≠ .host) (y3 : y.isScoped = false) :
    (TRef.binary (TRef.of (T := a.ty) a a1 a2 a3) (TRef.of (T := b.ty) b b1 b2 b3) (TRef.of (T := y.ty) y y1 y2 y3) f : HloOp τ sig Val)
      = StableHlo.binary a b y f (TRef.of (T := a.ty) a a1 a2 a3).dev (TRef.of (T := b.ty) b b1 b2 b3).dev
          (TRef.of (T := y.ty) y y1 y2 y3).dev := rfl

theorem ternary_of {Val : EltTy → Type} (c a b y : Ref sig .tc)
    (f : c.ty.Contents Val → a.ty.Contents Val → b.ty.Contents Val → y.ty.Contents Val)
    (c1 : c.ty = c.ty) (c2 : c.space ≠ .host) (c3 : c.isScoped = false)
    (a1 : a.ty = a.ty) (a2 : a.space ≠ .host) (a3 : a.isScoped = false)
    (b1 : b.ty = b.ty) (b2 : b.space ≠ .host) (b3 : b.isScoped = false)
    (y1 : y.ty = y.ty) (y2 : y.space ≠ .host) (y3 : y.isScoped = false) :
    (TRef.ternary (TRef.of (T := c.ty) c c1 c2 c3) (TRef.of (T := a.ty) a a1 a2 a3) (TRef.of (T := b.ty) b b1 b2 b3)
        (TRef.of (T := y.ty) y y1 y2 y3) f : HloOp τ sig Val)
      = StableHlo.ternary c a b y f (TRef.of (T := c.ty) c c1 c2 c3).dev (TRef.of (T := a.ty) a a1 a2 a3).dev
          (TRef.of (T := b.ty) b b1 b2 b3).dev (TRef.of (T := y.ty) y y1 y2 y3).dev := rfl

/-- The same 96 operations with the callees' typed references written as the plain builders. -/
abbrev ops2 : List (HloOp τ sig (Elt F)) :=
    [ reshape main_arg1 main_v0 rfl shapeCasts_S2x1x128x128x128_S2x128x128x128,
    nullary main_call0_cst (((constant S_ .f32 0xFF800000#32)) : (⟨S_, .f32⟩ : BufTy).Contents (Elt F)),
    binary main_arg0 main_call0_cst main_call0_v0 (((fun x v => Host.reduce FloatOps.maximumf x v reducesTo_S2x12x128x128x128_S2x128x128x128_d1 h_S_)) : (⟨S2x12x128x128x128, .f32⟩ : BufTy).Contents (Elt F) → (⟨S_, .f32⟩ : BufTy).Contents (Elt F) → (⟨S2x128x128x128, .f32⟩ : BufTy).Contents (Elt F)),
    nullary main_call0_cst_0 (((constant S_ .f32 0xFF800000#32)) : (⟨S_, .f32⟩ : BufTy).Contents (Elt F)),
    unary main_call0_cst_0 main_call0_v1 (((broadcastInDim S2x128x128x128 ![] bcast_S_S2x128x128x128)) : (⟨S_, .f32⟩ : BufTy).Contents (Elt F) → (⟨S2x128x128x128, .f32⟩ : BufTy).Contents (Elt F)),
    binary main_call0_v1 main_call0_v0 main_call0_v2 ((maximumf) : (⟨S2x128x128x128, .f32⟩ : BufTy).Contents (Elt F) → (⟨S2x128x128x128, .f32⟩ : BufTy).Contents (Elt F) → (⟨S2x128x128x128, .f32⟩ : BufTy).Contents (Elt F)),
    unary main_call0_v2 main_call0_v3 (((broadcastInDim S2x1x128x128x128 ![0, 2, 3, 4] bcast_S2x128x128x128_S2x1x128x128x128_0_2_3_4)) : (⟨S2x128x128x128, .f32⟩ : BufTy).Contents (Elt F) → (⟨S2x1x128x128x128, .f32⟩ : BufTy).Contents (Elt F)),
    unary main_call0_v3 main_call0_v4 (((broadcastInDim S2x12x128x128x128 ![0, 1, 2, 3, 4] bcast_S2x1x128x128x128_S2x12x128x128x128_0_1_2_3_4)) : (⟨S2x1x128x128x128, .f32⟩ : BufTy).Contents (Elt F) → (⟨S2x12x128x128x128, .f32⟩ : BufTy).Contents (Elt F)),
    binary main_arg0 main_call0_v4 main_call0_v5 ((subf) : (⟨S2x12x128x128x128, .f32⟩ : BufTy).Contents (Elt F) → (⟨S2x12x128x128x128, .f32⟩ : BufTy).Contents (Elt F) → (⟨S2x12x128x128x128, .f32⟩ : BufTy).Contents (Elt F)),
    unary main_call0_v5 main_call0_v6 ((Host.exp) : (⟨S2x12x128x128x128, .f32⟩ : BufTy).Contents (Elt F) → (⟨S2x12x128x128x128, .f32⟩ : BufTy).Contents (Elt F)),
    nullary main_call0_cst_1 (((constant S_ .f32 0x00000000#32)) : (⟨S_, .f32⟩ : BufTy).Contents (Elt F)),
    binary main_call0_v6 main_call0_cst_1 main_call0_v7 (((fun x v => Host.reduceAdd x v reducesTo_S2x12x128x128x128_S2x128x128x128_d1 h_S_)) : (⟨S2x12x128x128x128, .f32⟩ : BufTy).Contents (Elt F) → (⟨S_, .f32⟩ : BufTy).Contents (Elt F) → (⟨S2x128x128x128, .f32⟩ : BufTy).Contents (Elt F)),
    unary main_call0_v7 main_call0_v8 (((broadcastInDim S2x1x128x128x128 ![0, 2, 3, 4] bcast_S2x128x128x128_S2x1x128x128x128_0_2_3_4)) : (⟨S2x128x128x128, .f32⟩ : BufTy).Contents (Elt F) → (⟨S2x1x128x128x128, .f32⟩ : BufTy).Contents (Elt F)),
    unary main_call0_v8 main_call0_v9 ((Host.log) : (⟨S2x1x128x128x128, .f32⟩ : BufTy).Contents (Elt F) → (⟨S2x1x128x128x128, .f32⟩ : BufTy).Contents (Elt F)),
    unary main_call0_v9 main_call0_v10 (((broadcastInDim S2x12x128x128x128 ![0, 1, 2, 3, 4] bcast_S2x1x128x128x128_S2x12x128x128x128_0_1_2_3_4)) : (⟨S2x1x128x128x128, .f32⟩ : BufTy).Contents (Elt F) → (⟨S2x12x128x128x128, .f32⟩ : BufTy).Contents (Elt F)),
    binary main_call0_v5 main_call0_v10 main_v1 ((subf) : (⟨S2x12x128x128x128, .f32⟩ : BufTy).Contents (Elt F) → (⟨S2x12x128x128x128, .f32⟩ : BufTy).Contents (Elt F) → (⟨S2x12x128x128x128, .f32⟩ : BufTy).Contents (Elt F)),
    nullary main_call1_c (((constantI S_ 32 0#32)) : (⟨S_, .i32⟩ : BufTy).Contents (Elt F)),
    unary main_call1_c main_call1_v0 (((broadcastInDim S2x1x128x128x128 ![] bcast_S_S2x1x128x128x128)) : (⟨S_, .i32⟩ : BufTy).Contents (Elt F) → (⟨S2x1x128x128x128, .i32⟩ : BufTy).Contents (Elt F)),
    binary main_arg1 main_call1_v0 main_call1_v1 (((cmpi .slt)) : (⟨S2x1x128x128x128, .i32⟩ : BufTy).Contents (Elt F) → (⟨S2x1x128x128x128, .i32⟩ : BufTy).Contents (Elt F) → (⟨S2x1x128x128x128, .i1⟩ : BufTy).Contents (Elt F)),
    nullary main_call1_c_0 (((constantI S_ 32 12#32)) : (⟨S_, .i32⟩ : BufTy).Contents (Elt F)),
    unary main_call1_c_0 main_call1_v2 (((broadcastInDim S2x1x128x128x128 ![] bcast_S_S2x1x128x128x128)) : (⟨S_, .i32⟩ : BufTy).Contents (Elt F) → (⟨S2x1x128x128x128, .i32⟩ : BufTy).Contents (Elt F)),
    binary main_arg1 main_call1_v2 main_call1_v3 ((addi) : (⟨S2x1x128x128x128, .i32⟩ : BufTy).Contents (Elt F) → (⟨S2x1x128x128x128, .i32⟩ : BufTy).Contents (Elt F) → (⟨S2x1x128x128x128, .i32⟩ : BufTy).Contents (Elt F)),
    ternary main_call1_v1 main_call1_v3 main_arg1 main_call1_v4 ((select) : (⟨S2x1x128x128x128, .i1⟩ : BufTy).Contents (Elt F) → (⟨S2x1x128x128x128, .i32⟩ : BufTy).Contents (Elt F) → (⟨S2x1x128x128x128, .i32⟩ : BufTy).Contents (Elt F) → (⟨S2x1x128x128x128, .i32⟩ : BufTy).Contents (Elt F)),
    reshape main_call1_v4 main_call1_v5 rfl shapeCasts_S2x1x128x128x128_S2x1x128x128x128x1,
    nullary main_call1_c_1 (((constantI S1 32 11#32)) : (⟨S1, .i32⟩ : BufTy).Contents (Elt F)),
    nullary main_call1_c_2 (((constantI S_ 32 0#32)) : (⟨S_, .i32⟩ : BufTy).Contents (Elt F)),
    unary main_call1_c_2 main_call1_v6 (((broadcastInDim S2x1x128x128x128x1 ![] bcast_S_S2x1x128x128x128x1)) : (⟨S_, .i32⟩ : BufTy).Contents (Elt F) → (⟨S2x1x128x128x128x1, .i32⟩ : BufTy).Contents (Elt F)),
    binary main_call1_v5 main_call1_v6 main_call1_v7 (((cmpi .sge)) : (⟨S2x1x128x128x128x1, .i32⟩ : BufTy).Contents (Elt F) → (⟨S2x1x128x128x128x1, .i32⟩ : BufTy).Contents (Elt F) → (⟨S2x1x128x128x128x1, .i1⟩ : BufTy).Contents (Elt F)),
    unary main_call1_c_1 main_call1_v8 (((broadcastInDim S1x1x1x1x1x1 ![5] bcast_S1_S1x1x1x1x1x1_5)) : (⟨S1, .i32⟩ : BufTy).Contents (Elt F) → (⟨S1x1x1x1x1x1, .i32⟩ : BufTy).Contents (Elt F)),
    unary main_call1_v8 main_call1_v9 (((broadcastInDim S2x1x128x128x128x1 ![0, 1, 2, 3, 4, 5] bcast_S1x1x1x1x1x1_S2x1x128x128x128x1_0_1_2_3_4_5)) : (⟨S1x1x1x1x1x1, .i32⟩ : BufTy).Contents (Elt F) → (⟨S2x1x128x128x128x1, .i32⟩ : BufTy).Contents (Elt F)),
    binary main_call1_v5 main_call1_v9 main_call1_v10 (((cmpi .sle)) : (⟨S2x1x128x128x128x1, .i32⟩ : BufTy).Contents (Elt F) → (⟨S2x1x128x128x128x1, .i32⟩ : BufTy).Contents (Elt F) → (⟨S2x1x128x128x128x1, .i1⟩ : BufTy).Contents (Elt F)),
    binary main_call1_v7 main_call1_v10 main_call1_v11 ((andi) : (⟨S2x1x128x128x128x1, .i1⟩ : BufTy).Contents (Elt F) → (⟨S2x1x128x128x128x1, .i1⟩ : BufTy).Contents (Elt F) → (⟨S2x1x128x128x128x1, .i1⟩ : BufTy).Contents (Elt F)),
    nullary main_call1_c_3 (((constantI S_ 1 1#1)) : (⟨S_, .i1⟩ : BufTy).Contents (Elt F)),
    binary main_call1_v11 main_call1_c_3 main_call1_v12 (((fun x v => Host.reduce IntOp.andi x v reducesTo_S2x1x128x128x128x1_S2x1x128x128x128_d5 h_S_)) : (⟨S2x1x128x128x128x1, .i1⟩ : BufTy).Contents (Elt F) → (⟨S_, .i1⟩ : BufTy).Contents (Elt F) → (⟨S2x1x128x128x128, .i1⟩ : BufTy).Contents (Elt F)),
    binary main_v1 main_call1_v5 main_call1_v13 (((fun x i => Host.gather gather_S2x12x128x128x128_S2x1x128x128x128x1_S2x1x128x128x128_n_1_0234_0234_1_5_11111 x i)) : (⟨S2x12x128x128x128, .f32⟩ : BufTy).Contents (Elt F) → (⟨S2x1x128x128x128x1, .i32⟩ : BufTy).Contents (Elt F) → (⟨S2x1x128x128x128, .f32⟩ : BufTy).Contents (Elt F)),
    nullary main_call1_cst (((constant S_ .f32 0x7FC00000#32)) : (⟨S_, .f32⟩ : BufTy).Contents (Elt F)),
    unary main_call1_cst main_call1_v14 (((broadcastInDim S2x1x128x128x128 ![] bcast_S_S2x1x128x128x128)) : (⟨S_, .f32⟩ : BufTy).Contents (Elt F) → (⟨S2x1x128x128x128, .f32⟩ : BufTy).Contents (Elt F)),
    ternary main_call1_v12 main_call1_v13 main_call1_v14 main_v2 ((select) : (⟨S2x1x128x128x128, .i1⟩ : BufTy).Contents (Elt F) → (⟨S2x1x128x128x128, .f32⟩ : BufTy).Contents (Elt F) → (⟨S2x1x128x128x128, .f32⟩ : BufTy).Contents (Elt F) → (⟨S2x1x128x128x128, .f32⟩ : BufTy).Contents (Elt F)),
    nullary main_cst (constant S_ .f32 0x00000000#32),
    binary main_v2 main_cst main_v3 ((fun x v => Host.reduceAdd x v reducesTo_S2x1x128x128x128_S_d0_1_2_3_4 h_S_) : (⟨S2x1x128x128x128, .f32⟩ : BufTy).Contents (Elt F) → (⟨S_, .f32⟩ : BufTy).Contents (Elt F) → (⟨S_, .f32⟩ : BufTy).Contents (Elt F)),
    nullary main_cst_0 (constant S_ .f32 0x4A800000#32),
    binary main_v3 main_cst_0 main_v4 (Host.divf : (⟨S_, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)),
    unary main_v1 main_v6 (Host.exp : (⟨S2x12x128x128x128, .f32⟩ : BufTy).Contents (Elt F) → (⟨S2x12x128x128x128, .f32⟩ : BufTy).Contents (Elt F)),
    unary main_v0 main_call2_v0 (((broadcastInDim S2x1x128x128x128 ![0, 2, 3, 4] bcast_S2x128x128x128_S2x1x128x128x128_0_2_3_4)) : (⟨S2x128x128x128, .i32⟩ : BufTy).Contents (Elt F) → (⟨S2x1x128x128x128, .i32⟩ : BufTy).Contents (Elt F)),
    nullary main_call2_v1 (((iotaInDim S1x12x1x1x1 32 1)) : (⟨S1x12x1x1x1, .i32⟩ : BufTy).Contents (Elt F)),
    unary main_call2_v0 main_call2_v2 (((broadcastInDim S2x12x128x128x128 ![0, 1, 2, 3, 4] bcast_S2x1x128x128x128_S2x12x128x128x128_0_1_2_3_4)) : (⟨S2x1x128x128x128, .i32⟩ : BufTy).Contents (Elt F) → (⟨S2x12x128x128x128, .i32⟩ : BufTy).Contents (Elt F)),
    unary main_call2_v1 main_call2_v3 (((broadcastInDim S2x12x128x128x128 ![0, 1, 2, 3, 4] bcast_S1x12x1x1x1_S2x12x128x128x128_0_1_2_3_4)) : (⟨S1x12x1x1x1, .i32⟩ : BufTy).Contents (Elt F) → (⟨S2x12x128x128x128, .i32⟩ : BufTy).Contents (Elt F)),
    binary main_call2_v2 main_call2_v3 main_call2_v4 (((cmpi .eq)) : (⟨S2x12x128x128x128, .i32⟩ : BufTy).Contents (Elt F) → (⟨S2x12x128x128x128, .i32⟩ : BufTy).Contents (Elt F) → (⟨S2x12x128x128x128, .i1⟩ : BufTy).Contents (Elt F)),
    unary main_call2_v4 main_v7 (((uitofp .f32)) : (⟨S2x12x128x128x128, .i1⟩ : BufTy).Contents (Elt F) → (⟨S2x12x128x128x128, .f32⟩ : BufTy).Contents (Elt F)),
    binary main_v7 main_v6 main_v8 (mulf : (⟨S2x12x128x128x128, .f32⟩ : BufTy).Contents (Elt F) → (⟨S2x12x128x128x128, .f32⟩ : BufTy).Contents (Elt F) → (⟨S2x12x128x128x128, .f32⟩ : BufTy).Contents (Elt F)),
    nullary main_cst_1 (constant S_ .f32 0x00000000#32),
    binary main_v8 main_cst_1 main_v9 ((fun x v => Host.reduceAdd x v reducesTo_S2x12x128x128x128_S2x12_d2_3_4 h_S_) : (⟨S2x12x128x128x128, .f32⟩ : BufTy).Contents (Elt F) → (⟨S_, .f32⟩ : BufTy).Contents (Elt F) → (⟨S2x12, .f32⟩ : BufTy).Contents (Elt F)),
    nullary main_cst_2 (constant S_ .f32 0x00000000#32),
    binary main_v7 main_cst_2 main_v10 ((fun x v => Host.reduceAdd x v reducesTo_S2x12x128x128x128_S2x12_d2_3_4 h_S_) : (⟨S2x12x128x128x128, .f32⟩ : BufTy).Contents (Elt F) → (⟨S_, .f32⟩ : BufTy).Contents (Elt F) → (⟨S2x12, .f32⟩ : BufTy).Contents (Elt F)),
    nullary main_cst_3 (constant S_ .f32 0x00000000#32),
    binary main_v6 main_cst_3 main_v11 ((fun x v => Host.reduceAdd x v reducesTo_S2x12x128x128x128_S2x12_d2_3_4 h_S_) : (⟨S2x12x128x128x128, .f32⟩ : BufTy).Contents (Elt F) → (⟨S_, .f32⟩ : BufTy).Contents (Elt F) → (⟨S2x12, .f32⟩ : BufTy).Contents (Elt F)),
    nullary main_cst_4 (constant S_ .f32 0x40000000#32),
    unary main_cst_4 main_v12 (broadcastInDim S2x12 ![] bcast_S_S2x12 : (⟨S_, .f32⟩ : BufTy).Contents (Elt F) → (⟨S2x12, .f32⟩ : BufTy).Contents (Elt F)),
    binary main_v12 main_v9 main_v13 (mulf : (⟨S2x12, .f32⟩ : BufTy).Contents (Elt F) → (⟨S2x12, .f32⟩ : BufTy).Contents (Elt F) → (⟨S2x12, .f32⟩ : BufTy).Contents (Elt F)),
    nullary main_cst_5 (constant S_ .f32 0x3727C5AC#32),
    unary main_cst_5 main_v14 (broadcastInDim S2x12 ![] bcast_S_S2x12 : (⟨S_, .f32⟩ : BufTy).Contents (Elt F) → (⟨S2x12, .f32⟩ : BufTy).Contents (Elt F)),
    binary main_v13 main_v14 main_v15 (addf : (⟨S2x12, .f32⟩ : BufTy).Contents (Elt F) → (⟨S2x12, .f32⟩ : BufTy).Contents (Elt F) → (⟨S2x12, .f32⟩ : BufTy).Contents (Elt F)),
    binary main_v10 main_v11 main_v16 (addf : (⟨S2x12, .f32⟩ : BufTy).Contents (Elt F) → (⟨S2x12, .f32⟩ : BufTy).Contents (Elt F) → (⟨S2x12, .f32⟩ : BufTy).Contents (Elt F)),
    nullary main_cst_6 (constant S_ .f32 0x3727C5AC#32),
    unary main_cst_6 main_v17 (broadcastInDim S2x12 ![] bcast_S_S2x12 : (⟨S_, .f32⟩ : BufTy).Contents (Elt F) → (⟨S2x12, .f32⟩ : BufTy).Contents (Elt F)),
    binary main_v16 main_v17 main_v18 (addf : (⟨S2x12, .f32⟩ : BufTy).Contents (Elt F) → (⟨S2x12, .f32⟩ : BufTy).Contents (Elt F) → (⟨S2x12, .f32⟩ : BufTy).Contents (Elt F)),
    binary main_v15 main_v18 main_v19 (Host.divf : (⟨S2x12, .f32⟩ : BufTy).Contents (Elt F) → (⟨S2x12, .f32⟩ : BufTy).Contents (Elt F) → (⟨S2x12, .f32⟩ : BufTy).Contents (Elt F)),
    nullary main_cst_7 (constant S_ .f32 0x3F800000#32),
    unary main_cst_7 main_v20 (broadcastInDim S2x12 ![] bcast_S_S2x12 : (⟨S_, .f32⟩ : BufTy).Contents (Elt F) → (⟨S2x12, .f32⟩ : BufTy).Contents (Elt F)),
    binary main_v20 main_v19 main_v21 (subf : (⟨S2x12, .f32⟩ : BufTy).Contents (Elt F) → (⟨S2x12, .f32⟩ : BufTy).Contents (Elt F) → (⟨S2x12, .f32⟩ : BufTy).Contents (Elt F)),
    nullary main_cst_8 (constant S_ .f32 0x00000000#32),
    binary main_v21 main_cst_8 main_v22 ((fun x v => Host.reduceAdd x v reducesTo_S2x12_S_d0_1 h_S_) : (⟨S2x12, .f32⟩ : BufTy).Contents (Elt F) → (⟨S_, .f32⟩ : BufTy).Contents (Elt F) → (⟨S_, .f32⟩ : BufTy).Contents (Elt F)),
    nullary main_cst_9 (constant S_ .f32 0x41C00000#32),
    binary main_v22 main_cst_9 main_v23 (Host.divf : (⟨S_, .f32⟩ : BufTy).Contents (Elt F) → (⟨S_, .f32⟩ : BufTy).Contents (Elt F) → (⟨S_, .f32⟩ : BufTy).Contents (Elt F)),
    nullary main_c (constantI S_ 32 0#32),
    unary main_c main_v24 (broadcastInDim S2x128x128x128 ![] bcast_S_S2x128x128x128 : (⟨S_, .i32⟩ : BufTy).Contents (Elt F) → (⟨S2x128x128x128, .i32⟩ : BufTy).Contents (Elt F)),
    binary main_v0 main_v24 main_v25 (cmpi .slt : (⟨S2x128x128x128, .i32⟩ : BufTy).Contents (Elt F) → (⟨S2x128x128x128, .i32⟩ : BufTy).Contents (Elt F) → (⟨S2x128x128x128, .i1⟩ : BufTy).Contents (Elt F)),
    nullary main_c_10 (constantI S_ 32 12#32),
    unary main_c_10 main_v26 (broadcastInDim S2x128x128x128 ![] bcast_S_S2x128x128x128 : (⟨S_, .i32⟩ : BufTy).Contents (Elt F) → (⟨S2x128x128x128, .i32⟩ : BufTy).Contents (Elt F)),
    binary main_v0 main_v26 main_v27 (addi : (⟨S2x128x128x128, .i32⟩ : BufTy).Contents (Elt F) → (⟨S2x128x128x128, .i32⟩ : BufTy).Contents (Elt F) → (⟨S2x128x128x128, .i32⟩ : BufTy).Contents (Elt F)),
    ternary main_v25 main_v27 main_v0 main_v28 (select : (⟨S2x128x128x128, .i1⟩ : BufTy).Contents (Elt F) → (⟨S2x128x128x128, .i32⟩ : BufTy).Contents (Elt F) → (⟨S2x128x128x128, .i32⟩ : BufTy).Contents (Elt F) → (⟨S2x128x128x128, .i32⟩ : BufTy).Contents (Elt F)),
    unary main_v28 main_v29 (broadcastInDim S2x128x128x128x1 ![0, 1, 2, 3] bcast_S2x128x128x128_S2x128x128x128x1_0_1_2_3 : (⟨S2x128x128x128, .i32⟩ : BufTy).Contents (Elt F) → (⟨S2x128x128x128x1, .i32⟩ : BufTy).Contents (Elt F)),
    binary main_arg2 main_v29 main_v30 ((fun x i => Host.gather gather_S12x12_S2x128x128x128x1_S2x128x128x128x12_4_0_n_n_0_4_112 x i) : (⟨S12x12, .f32⟩ : BufTy).Contents (Elt F) → (⟨S2x128x128x128x1, .i32⟩ : BufTy).Contents (Elt F) → (⟨S2x128x128x128x12, .f32⟩ : BufTy).Contents (Elt F)),
    unary main_v6 main_v31 ((transpose S2x128x128x128x12 [0, 2, 3, 4, 1] · transposes_S2x12x128x128x128_S2x128x128x128x12_0_2_3_4_1) : (⟨S2x12x128x128x128, .f32⟩ : BufTy).Contents (Elt F) → (⟨S2x128x128x128x12, .f32⟩ : BufTy).Contents (Elt F)),
    binary main_v30 main_v31 main_v32 (mulf : (⟨S2x128x128x128x12, .f32⟩ : BufTy).Contents (Elt F) → (⟨S2x128x128x128x12, .f32⟩ : BufTy).Contents (Elt F) → (⟨S2x128x128x128x12, .f32⟩ : BufTy).Contents (Elt F)),
    nullary main_cst_11 (constant S_ .f32 0x00000000#32),
    binary main_v32 main_cst_11 main_v33 ((fun x v => Host.reduceAdd x v reducesTo_S2x128x128x128x12_S2x128x128x128_d4 h_S_) : (⟨S2x128x128x128x12, .f32⟩ : BufTy).Contents (Elt F) → (⟨S_, .f32⟩ : BufTy).Contents (Elt F) → (⟨S2x128x128x128, .f32⟩ : BufTy).Contents (Elt F)),
    nullary main_cst_12 (constant S_ .f32 0x00000000#32),
    binary main_v33 main_cst_12 main_v34 ((fun x v => Host.reduceAdd x v reducesTo_S2x128x128x128_S_d0_1_2_3 h_S_) : (⟨S2x128x128x128, .f32⟩ : BufTy).Contents (Elt F) → (⟨S_, .f32⟩ : BufTy).Contents (Elt F) → (⟨S_, .f32⟩ : BufTy).Contents (Elt F)),
    nullary main_cst_13 (constant S_ .f32 0x4A800000#32),
    binary main_v34 main_cst_13 main_v35 (Host.divf : (⟨S_, .f32⟩ : BufTy).Contents (Elt F) → (⟨S_, .f32⟩ : BufTy).Contents (Elt F) → (⟨S_, .f32⟩ : BufTy).Contents (Elt F)),
    nullary main_cst_14 (constant S_ .f32 0x40400000#32),
    binary main_cst_14 main_v35 main_v36 (mulf : (⟨S_, .f32⟩ : BufTy).Contents (Elt F) → (⟨S_, .f32⟩ : BufTy).Contents (Elt F) → (⟨S_, .f32⟩ : BufTy).Contents (Elt F)),
    binary main_v5 main_v23 main_v37 (addf : (⟨S_, .f32⟩ : BufTy).Contents (Elt F) → (⟨S_, .f32⟩ : BufTy).Contents (Elt F) → (⟨S_, .f32⟩ : BufTy).Contents (Elt F)),
    binary main_v37 main_v36 main_v38 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The two lists are equal, element by element. -/
theorem ops_eq : (ops : List (HloOp τ sig (Elt F))) = ops2 := by
  unfold ops ops2
  refine congr (congrArg List.cons rfl) ?_
  refine congr (congrArg List.cons (nullary_of main_call0_cst _ _ _ _)) ?_
  refine congr (congrArg List.cons (binary_of main_arg0 main_call0_cst main_call0_v0 _ _ _ _ _ _ _ _ _ _)) ?_
  refine congr (congrArg List.cons (nullary_of main_call0_cst_0 _ _ _ _)) ?_
  refine congr (congrArg List.cons (unary_of main_call0_cst_0 main_call0_v1 _ _ _ _ _ _ _)) ?_
  refine congr (congrArg List.cons (binary_of main_call0_v1 main_call0_v0 main_call0_v2 _ _ _ _ _ _ _ _ _ _)) ?_
  refine congr (congrArg List.cons (unary_of main_call0_v2 main_call0_v3 _ _ _ _ _ _ _)) ?_
  refine congr (congrArg List.cons (unary_of main_call0_v3 main_call0_v4 _ _ _ _ _ _ _)) ?_
  refine congr (congrArg List.cons (binary_of main_arg0 main_call0_v4 main_call0_v5 _ _ _ _ _ _ _ _ _ _)) ?_
  refine congr (congrArg List.cons (unary_of main_call0_v5 main_call0_v6 _ _ _ _ _ _ _)) ?_
  refine congr (congrArg List.cons (nullary_of main_call0_cst_1 _ _ _ _)) ?_
  refine congr (congrArg List.cons (binary_of main_call0_v6 main_call0_cst_1 main_call0_v7 _ _ _ _ _ _ _ _ _ _)) ?_
  refine congr (congrArg List.cons (unary_of main_call0_v7 main_call0_v8 _ _ _ _ _ _ _)) ?_
  refine congr (congrArg List.cons (unary_of main_call0_v8 main_call0_v9 _ _ _ _ _ _ _)) ?_
  refine congr (congrArg List.cons (unary_of main_call0_v9 main_call0_v10 _ _ _ _ _ _ _)) ?_
  refine congr (congrArg List.cons (binary_of main_call0_v5 main_call0_v10 main_v1 _ _ _ _ _ _ _ _ _ _)) ?_
  refine congr (congrArg List.cons (nullary_of main_call1_c _ _ _ _)) ?_
  refine congr (congrArg List.cons (unary_of main_call1_c main_call1_v0 _ _ _ _ _ _ _)) ?_
  refine congr (congrArg List.cons (binary_of main_arg1 main_call1_v0 main_call1_v1 _ _ _ _ _ _ _ _ _ _)) ?_
  refine congr (congrArg List.cons (nullary_of main_call1_c_0 _ _ _ _)) ?_
  refine congr (congrArg List.cons (unary_of main_call1_c_0 main_call1_v2 _ _ _ _ _ _ _)) ?_
  refine congr (congrArg List.cons (binary_of main_arg1 main_call1_v2 main_call1_v3 _ _ _ _ _ _ _ _ _ _)) ?_
  refine congr (congrArg List.cons (ternary_of main_call1_v1 main_call1_v3 main_arg1 main_call1_v4 _ _ _ _ _ _ _ _ _ _ _ _ _)) ?_
  refine congr (congrArg List.cons rfl) ?_
  refine congr (congrArg List.cons (nullary_of main_call1_c_1 _ _ _ _)) ?_
  refine congr (congrArg List.cons (nullary_of main_call1_c_2 _ _ _ _)) ?_
  refine congr (congrArg List.cons (unary_of main_call1_c_2 main_call1_v6 _ _ _ _ _ _ _)) ?_
  refine congr (congrArg List.cons (binary_of main_call1_v5 main_call1_v6 main_call1_v7 _ _ _ _ _ _ _ _ _ _)) ?_
  refine congr (congrArg List.cons (unary_of main_call1_c_1 main_call1_v8 _ _ _ _ _ _ _)) ?_
  refine congr (congrArg List.cons (unary_of main_call1_v8 main_call1_v9 _ _ _ _ _ _ _)) ?_
  refine congr (congrArg List.cons (binary_of main_call1_v5 main_call1_v9 main_call1_v10 _ _ _ _ _ _ _ _ _ _)) ?_
  refine congr (congrArg List.cons (binary_of main_call1_v7 main_call1_v10 main_call1_v11 _ _ _ _ _ _ _ _ _ _)) ?_
  refine congr (congrArg List.cons (nullary_of main_call1_c_3 _ _ _ _)) ?_
  refine congr (congrArg List.cons (binary_of main_call1_v11 main_call1_c_3 main_call1_v12 _ _ _ _ _ _ _ _ _ _)) ?_
  refine congr (congrArg List.cons (binary_of main_v1 main_call1_v5 main_call1_v13 _ _ _ _ _ _ _ _ _ _)) ?_
  refine congr (congrArg List.cons (nullary_of main_call1_cst _ _ _ _)) ?_
  refine congr (congrArg List.cons (unary_of main_call1_cst main_call1_v14 _ _ _ _ _ _ _)) ?_
  refine congr (congrArg List.cons (ternary_of main_call1_v12 main_call1_v13 main_call1_v14 main_v2 _ _ _ _ _ _ _ _ _ _ _ _ _)) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons (unary_of main_v0 main_call2_v0 _ _ _ _ _ _ _)) ?_
  refine congr (congrArg List.cons (nullary_of main_call2_v1 _ _ _ _)) ?_
  refine congr (congrArg List.cons (unary_of main_call2_v0 main_call2_v2 _ _ _ _ _ _ _)) ?_
  refine congr (congrArg List.cons (unary_of main_call2_v1 main_call2_v3 _ _ _ _ _ _ _)) ?_
  refine congr (congrArg List.cons (binary_of main_call2_v2 main_call2_v3 main_call2_v4 _ _ _ _ _ _ _ _ _ _)) ?_
  refine congr (congrArg List.cons (unary_of main_call2_v4 main_v7 _ _ _ _ _ _ _)) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  refine congr (congrArg List.cons rfl) ?_
  rfl

set_option maxRecDepth 65536 in
set_option maxHeartbeats 4000000 in
/-- The last result after the plain operations is the last stage of the read-at-an-index module: the fold's term and the
    stages' unfolded term are the same term. -/
theorem v38_after (m : (ℓ : Loc nD τ sig) → Buf (Elt F) ℓ) (c : Dev nD) :
    after (ops2 (F := F)) (launchContents m c) (Proc.devRef .tc main_v38)
      = Cert.ReferenceIdeal.ReadP.val_main_v38 (F := F) (m ((c.tc : Thread nD τ).loc main_arg0)) (m ((c.tc : Thread nD τ).loc main_arg1)) (m ((c.tc : Thread nD τ).loc main_arg2)) := by
  after_results_simp
  simp only [ReadP.val_main_v38, ReadP.val_main_v37, ReadP.val_main_v36, ReadP.val_main_cst_14, ReadP.val_main_v35, ReadP.val_main_cst_13, ReadP.val_main_v34, ReadP.val_main_cst_12, ReadP.val_main_v33, ReadP.val_main_cst_11, ReadP.val_main_v32, ReadP.val_main_v31, ReadP.val_main_v30, ReadP.val_main_v29, ReadP.val_main_v28, ReadP.val_main_v27, ReadP.val_main_v26, ReadP.val_main_c_10, ReadP.val_main_v25, ReadP.val_main_v24, ReadP.val_main_c, ReadP.val_main_v23, ReadP.val_main_cst_9, ReadP.val_main_v22, ReadP.val_main_cst_8, ReadP.val_main_v21, ReadP.val_main_v20, ReadP.val_main_cst_7, ReadP.val_main_v19, ReadP.val_main_v18, ReadP.val_main_v17, ReadP.val_main_cst_6, ReadP.val_main_v16, ReadP.val_main_v15, ReadP.val_main_v14, ReadP.val_main_cst_5, ReadP.val_main_v13, ReadP.val_main_v12, ReadP.val_main_cst_4, ReadP.val_main_v11, ReadP.val_main_cst_3, ReadP.val_main_v10, ReadP.val_main_cst_2, ReadP.val_main_v9, ReadP.val_main_cst_1, ReadP.val_main_v8, ReadP.val_main_v7, ReadP.val_main_call2_v4, ReadP.val_main_call2_v3, ReadP.val_main_call2_v2, ReadP.val_main_call2_v1, ReadP.val_main_call2_v0, ReadP.val_main_v6, ReadP.val_main_v5, ReadP.val_main_v4, ReadP.val_main_cst_0, ReadP.val_main_v3, ReadP.val_main_cst, ReadP.val_main_v2, ReadP.val_main_call1_v14, ReadP.val_main_call1_cst, ReadP.val_main_call1_v13, ReadP.val_main_call1_v12, ReadP.val_main_call1_c_3, ReadP.val_main_call1_v11, ReadP.val_main_call1_v10, ReadP.val_main_call1_v9, ReadP.val_main_call1_v8, ReadP.val_main_call1_v7, ReadP.val_main_call1_v6, ReadP.val_main_call1_c_2, ReadP.val_main_call1_c_1, ReadP.val_main_call1_v5, ReadP.val_main_call1_v4, ReadP.val_main_call1_v3, ReadP.val_main_call1_v2, ReadP.val_main_call1_c_0, ReadP.val_main_call1_v1, ReadP.val_main_call1_v0, ReadP.val_main_call1_c, ReadP.val_main_v1, ReadP.val_main_call0_v10, ReadP.val_main_call0_v9, ReadP.val_main_call0_v8, ReadP.val_main_call0_v7, ReadP.val_main_call0_cst_1, ReadP.val_main_call0_v6, ReadP.val_main_call0_v5, ReadP.val_main_call0_v4, ReadP.val_main_call0_v3, ReadP.val_main_call0_v2, ReadP.val_main_call0_v1, ReadP.val_main_call0_cst_0, ReadP.val_main_call0_v0, ReadP.val_main_call0_cst, ReadP.val_main_v0]
  rfl

set_option maxRecDepth 65536 in
set_option maxHeartbeats 38400000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = Cert.ReferenceIdeal.ReadP.val_main_v38 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v38).trans ((congrArg (fun l => after l (launchContents m c) (Proc.devRef .tc main_v38)) ops_eq).trans (v38_after m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.ValueP

end
-- ==== Proof.RefStage.lean ====
/-
  The reference's stages at an index, as the mathematics of Spec.lean.

  The reference's log-softmax subtracts the running maximum (a fold of max from −∞ over the class axis, then a maximum with −∞),
  exponentiates, sums over the class axis from zero, takes the logarithm and subtracts: at a voxel that is
  lp_c = (x_c − mx) − log Σ_c e^{x_c − mx}.  Its exponential is the softmax, and the one-hot compares the label with
  an iota along the class axis.  The three Dice statistics are sums over the three spatial axes.
-/
import proofs.«428624_j85598698209587_3_alg».proof.Proof.RefReadP
import proofs.«428624_j85598698209587_3_alg».proof.Proof.Loss
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Idealize.ShloMosaic Idealize.ShloMosaic.ValueIdx Idealize.SL.Sem Idealize.ShloMosaic.StableHlo
open Cert.ReferenceIdeal.ReadP

/-! ## The maximum over the class axis -/

/-- A voxel index with the class coordinate put back on axis 1. -/
theorem lift_d1 (h : S2x12x128x128x128.Reduces [1] S2x128x128x128) (n : Fin 2) (H W Z : Fin 128)
    (k : Fin (S2x12x128x128x128.size 1)) :
    h.lift (ix4 n H W Z) k = ix5 n (⟨k.val, k.isLt⟩ : Fin 12) H W Z := by
  funext a; apply Fin.ext
  fin_cases a <;> rfl

/-- The fold of max from −∞ over the class axis is the largest of the twelve scores of the voxel. -/
theorem hostmax (x0 : S2x12x128x128x128.Idx → EReal) (n : Fin 2) (H W Z : Fin 128) :
    Host.reduce (FloatOps.maximumf (F := Ideal) (φ := .f32)) x0 (constant (F := Ideal) S_ .f32 0xFF800000#32)
        reducesTo_S2x12x128x128x128_S2x128x128x128_d1 h_S_ (ix4 n H W Z)
      = Finset.univ.sup (fun c : Fin 12 => x0 (ix5 n c H W Z)) := by
  have h : S2x12x128x128x128.Reduces [1] S2x128x128x128 := by decide
  rw [Host.reduce_eq_fold_single (FloatOps.maximumf (F := Ideal) (φ := .f32)) x0 _
    reducesTo_S2x12x128x128x128_S2x128x128x128_d1 h h_S_]
  have hf : (x0 ∘ h.lift (ix4 n H W Z)) = fun k : Fin 12 => x0 (ix5 n k H W Z) :=
    funext fun k => congrArg x0 (lift_d1 h n H W Z k)
  have hb : (constant (F := Ideal) S_ .f32 0xFF800000#32) (Shape.Idx.first h_S_) = (⊥ : EReal) := by
    show Ideal.ofBits .f32 0xFF800000#32 = ⊥
    simp [Ideal.ofBits, Ideal.ieee]
  rw [hb]
  show Finset.fold max (⊥ : EReal) (x0 ∘ h.lift (ix4 n H W Z)) (Finset.univ : Finset (Fin 12)) = _
  rw [hf]
  rfl

/-- The word of −∞ is the bottom element. -/
theorem ofBits_neg_inf : Ideal.ofBits .f32 0xFF800000#32 = (⊥ : EReal) := by
  simp [Ideal.ofBits, Ideal.ieee]

/-! ## The index maps of the broadcasts, at explicit coordinates -/

theorem idx_bmax (n : Fin 2) (c : Fin 12) (H W Z : Fin 128) :
    idx_main_call0_v3 (idx_main_call0_v4 (ix5 n c H W Z)) = ix4 n H W Z := by
  funext a
  match a with
  | ⟨0, _⟩ => rfl
  | ⟨1, _⟩ => rfl
  | ⟨2, _⟩ => rfl
  | ⟨3, _⟩ => rfl

theorem idx_bsum (n : Fin 2) (c : Fin 12) (H W Z : Fin 128) :
    idx_main_call0_v8 (idx_main_call0_v10 (ix5 n c H W Z)) = ix4 n H W Z := by
  funext a
  match a with
  | ⟨0, _⟩ => rfl
  | ⟨1, _⟩ => rfl
  | ⟨2, _⟩ => rfl
  | ⟨3, _⟩ => rfl

theorem idx_class (n : Fin 2) (H W Z : Fin 128) (k : Fin 12) :
    idx_main_call0_v7 (ix4 n H W Z) k = ix5 n k H W Z := by
  funext a
  match a with
  | ⟨0, _⟩ => rfl
  | ⟨1, _⟩ => rfl
  | ⟨2, _⟩ => rfl
  | ⟨3, _⟩ => rfl
  | ⟨4, _⟩ => rfl

/-! ## The log-softmax, stage by stage -/

/-- The running maximum, after the maximum with the −∞ splat, is the largest score of the voxel. -/
theorem mx_ref (x0 : (⟨S2x12x128x128x128, .f32⟩ : BufTy).Contents (Elt Ideal)) (n : Fin 2) (H W Z : Fin 128) :
    val_main_call0_v2 (F := Ideal) x0 (ix4 n H W Z) = Domino.mx (Domino.vox (Domino.arr x0) n H W Z) := by
  rw [val_main_call0_v2_apply, val_main_call0_v1_apply, val_main_call0_cst_0_apply]
  have e : val_main_call0_v0 (F := Ideal) x0 (ix4 n H W Z)
      = Finset.univ.sup (fun c : Fin 12 => x0 (ix5 n c H W Z)) := hostmax x0 n H W Z
  rw [e, Ideal.maximumf_def, Ideal.ofBits_def, ofBits_neg_inf, max_eq_right bot_le]
  rfl

/-- The shifted score. -/
theorem shift_ref (x0 : (⟨S2x12x128x128x128, .f32⟩ : BufTy).Contents (Elt Ideal)) (n : Fin 2) (c : Fin 12) (H W Z : Fin 128) :
    val_main_call0_v5 (F := Ideal) x0 (ix5 n c H W Z)
      = x0 (ix5 n c H W Z) - Domino.mx (Domino.vox (Domino.arr x0) n H W Z) := by
  rw [val_main_call0_v5_apply, val_main_call0_v4_apply, val_main_call0_v3_apply, idx_bmax, mx_ref, Ideal.subf_def]

/-- The sum of the exponentials of the shifted scores. -/
theorem sm_ref (x0 : (⟨S2x12x128x128x128, .f32⟩ : BufTy).Contents (Elt Ideal)) (n : Fin 2) (H W Z : Fin 128) :
    val_main_call0_v7 (F := Ideal) x0 (ix4 n H W Z) = Domino.sm (Domino.vox (Domino.arr x0) n H W Z) := by
  rw [val_main_call0_v7_apply, val_main_call0_cst_1_apply, Ideal.ofBits_def, Ideal.ofBits_zero_f32, zero_add]
  unfold Domino.sm
  refine Finset.sum_congr rfl fun k _ => ?_
  rw [idx_class, val_main_call0_v6_apply, shift_ref, Ideal.hostUnary_exp_def]
  rfl

/-- The log-softmax stage at a voxel and a class. -/
theorem lp_stage (x0 : (⟨S2x12x128x128x128, .f32⟩ : BufTy).Contents (Elt Ideal)) (n : Fin 2) (c : Fin 12) (H W Z : Fin 128) :
    val_main_v1 (F := Ideal) x0 (ix5 n c H W Z) = Domino.lp (Domino.vox (Domino.arr x0) n H W Z) c := by
  rw [val_main_v1_apply, shift_ref, val_main_call0_v10_apply, val_main_call0_v9_apply, val_main_call0_v8_apply,
    idx_bsum, sm_ref, Ideal.hostUnary_log_def, Ideal.subf_def]
  rfl

/-- The softmax stage. -/
theorem pr_stage (x0 : (⟨S2x12x128x128x128, .f32⟩ : BufTy).Contents (Elt Ideal)) (n : Fin 2) (c : Fin 12) (H W Z : Fin 128) :
    val_main_v6 (F := Ideal) x0 (ix5 n c H W Z) = Domino.pr (Domino.vox (Domino.arr x0) n H W Z) c := by
  rw [val_main_v6_apply, lp_stage, Ideal.hostUnary_exp_def]
  rfl

/-! ## The one-hot -/

/-- The label's index behind the reshape and the two broadcasts. -/
theorem idx_label (n : Fin 2) (c : Fin 12) (H W Z : Fin 128) :
    idx_main_v0 (idx_main_call2_v0 (idx_main_call2_v2 (ix5 n c H W Z))) = ix5 n (0 : Fin 1) H W Z := by
  have hn := n.isLt
  have hH := H.isLt
  have hW := W.isLt
  have hZ := Z.isLt
  funext a
  apply Fin.ext
  match a with
  | ⟨0, _⟩ =>
    show (((n.val * 128 + H.val) * 128 + W.val) * 128 + Z.val) / 2097152 = n.val
    omega
  | ⟨1, _⟩ => rfl
  | ⟨2, _⟩ =>
    show (((n.val * 128 + H.val) * 128 + W.val) * 128 + Z.val) / 16384 % 128 = H.val
    omega
  | ⟨3, _⟩ =>
    show (((n.val * 128 + H.val) * 128 + W.val) * 128 + Z.val) / 128 % 128 = W.val
    omega
  | ⟨4, _⟩ =>
    show (((n.val * 128 + H.val) * 128 + W.val) * 128 + Z.val) % 128 = Z.val
    omega

/-- The unsigned conversion of an equality bit is one or zero. -/
theorem uitofp_cmpi_eq (t u : BitVec 32) :
    FloatOps.uitofp (F := Ideal) .f32 (IntOp.cmpi .eq t u) = if t = u then (1 : EReal) else 0 := by
  show (((IntOp.cmpi .eq t u).toNat : ℝ) : EReal) = _
  unfold IntOp.cmpi
  by_cases h : t = u
  · simp [h]
  · simp [h]

/-- The one-hot stage. -/
theorem oh_stage (x1 : (⟨S2x1x128x128x128, .i32⟩ : BufTy).Contents (Elt Ideal)) (n : Fin 2) (c : Fin 12) (H W Z : Fin 128) :
    val_main_v7 (F := Ideal) x1 (ix5 n c H W Z) = Domino.oh (Domino.lab x1 n H W Z) c := by
  rw [val_main_v7_apply, val_main_call2_v4_apply, val_main_call2_v2_apply, val_main_call2_v0_apply, val_main_v0_apply,
    idx_label, val_main_call2_v3_apply, val_main_call2_v1_apply, uitofp_cmpi_eq]
  rfl

/-! ## The sums over the three spatial axes -/

/-- An index that drops to (n, c) has n and c as its first two coordinates. -/
theorem drop_coords (i : S2x12x128x128x128.Idx) (n : Fin 2) (c : Fin 12)
    (hj : reducesTo_S2x12x128x128x128_S2x12_d2_3_4.drop i = ix2 n c) : (i 0).val = n.val ∧ (i 1).val = c.val := by
  constructor
  · have h0 : ((reducesTo_S2x12x128x128x128_S2x12_d2_3_4.drop i) 0 : Nat) = i 0 :=
      Shape.ReducesTo.drop_apply_val_of_eq _ i 0 0
    rw [hj] at h0
    exact h0.symm
  · have h1 : ((reducesTo_S2x12x128x128x128_S2x12_d2_3_4.drop i) 1 : Nat) = i 1 :=
      Shape.ReducesTo.drop_apply_val_of_eq _ i 1 1
    rw [hj] at h1
    exact h1.symm

/-- A host sum over the three spatial axes of a [2,12,128,128,128] array, at (n, c): the initial value plus the triple sum. -/
theorem sum234 (y : S2x12x128x128x128.Idx → EReal) (init : EReal) (n : Fin 2) (c : Fin 12) :
    Ideal.hostReduceAdd reducesTo_S2x12x128x128x128_S2x12_d2_3_4 y init (ix2 n c)
      = init + ∑ H : Fin 128, ∑ W : Fin 128, ∑ Z : Fin 128, y (ix5 n c H W Z) := by
  unfold Ideal.hostReduceAdd
  -- the indices dropping to (n, c) are the (n, c, H, W, Z): a bijection with the triples (H, W, Z)
  have key : ∑ i ∈ Finset.univ.filter (fun i => reducesTo_S2x12x128x128x128_S2x12_d2_3_4.drop i = ix2 n c), y i
      = ∑ p : Fin 128 × Fin 128 × Fin 128, y (ix5 n c p.1 p.2.1 p.2.2) := by
    have back : ∀ i : S2x12x128x128x128.Idx, reducesTo_S2x12x128x128x128_S2x12_d2_3_4.drop i = ix2 n c →
        ix5 n c (⟨(i 2).val, (i 2).isLt⟩ : Fin 128) (⟨(i 3).val, (i 3).isLt⟩ : Fin 128) (⟨(i 4).val, (i 4).isLt⟩ : Fin 128) = i := by
      intro i hj
      obtain ⟨h0, h1⟩ := drop_coords i n c hj
      funext a
      apply Fin.ext
      match a with
      | ⟨0, _⟩ => exact h0.symm
      | ⟨1, _⟩ => exact h1.symm
      | ⟨2, _⟩ => rfl
      | ⟨3, _⟩ => rfl
      | ⟨4, _⟩ => rfl
    refine Finset.sum_nbij' (fun i => ((⟨(i 2).val, (i 2).isLt⟩ : Fin 128), (⟨(i 3).val, (i 3).isLt⟩ : Fin 128), (⟨(i 4).val, (i 4).isLt⟩ : Fin 128)))
      (fun p => ix5 n c p.1 p.2.1 p.2.2) ?_ ?_ ?_ ?_ ?_
    · intro i _; exact Finset.mem_univ _
    · intro p _
      refine Finset.mem_filter.2 ⟨Finset.mem_univ _, ?_⟩
      funext b
      apply Fin.ext
      match b with
      | ⟨0, _⟩ => rfl
      | ⟨1, _⟩ => rfl
    · intro i hi
      exact back i (Finset.mem_filter.1 hi).2
    · intro p _; rfl
    · intro i hi
      exact congrArg y (back i (Finset.mem_filter.1 hi).2).symm
  rw [key, Fintype.sum_prod_type]
  refine congrArg (init + ·) (Finset.sum_congr rfl fun H _ => ?_)
  rw [Fintype.sum_prod_type]

/-- The three statistics at explicit coordinates (n, c). -/
theorem inter_at (x0 : (⟨S2x12x128x128x128, .f32⟩ : BufTy).Contents (Elt Ideal)) (x1 : (⟨S2x1x128x128x128, .i32⟩ : BufTy).Contents (Elt Ideal)) (n : Fin 2) (c : Fin 12) :
    val_main_v9 (F := Ideal) x0 x1 (ix2 n c) = Domino.inter (Domino.arr x0) (Domino.lab x1) n c := by
  unfold val_main_v9
  simp only [Host.reduceAdd, Ideal.hostReduceAdd_def]
  rw [sum234, val_main_cst_1_apply, Ideal.ofBits_def, Ideal.ofBits_zero_f32, zero_add]
  unfold Domino.inter
  refine Finset.sum_congr rfl fun H _ => Finset.sum_congr rfl fun W _ => Finset.sum_congr rfl fun Z _ => ?_
  rw [val_main_v8_apply, oh_stage, pr_stage, Ideal.mulf_def]

theorem inter_ref (x0 : (⟨S2x12x128x128x128, .f32⟩ : BufTy).Contents (Elt Ideal)) (x1 : (⟨S2x1x128x128x128, .i32⟩ : BufTy).Contents (Elt Ideal)) (j : S2x12.Idx) :
    val_main_v9 (F := Ideal) x0 x1 j = Domino.inter (Domino.arr x0) (Domino.lab x1) (j 0) (j 1) :=
  (congrArg (val_main_v9 (F := Ideal) x0 x1) (eq_ix2 j)).trans (inter_at x0 x1 (j 0) (j 1))

theorem ground_at (x1 : (⟨S2x1x128x128x128, .i32⟩ : BufTy).Contents (Elt Ideal)) (n : Fin 2) (c : Fin 12) :
    val_main_v10 (F := Ideal) x1 (ix2 n c) = Domino.ground (Domino.lab x1) n c := by
  unfold val_main_v10
  simp only [Host.reduceAdd, Ideal.hostReduceAdd_def]
  rw [sum234, val_main_cst_2_apply, Ideal.ofBits_def, Ideal.ofBits_zero_f32, zero_add]
  unfold Domino.ground
  refine Finset.sum_congr rfl fun H _ => Finset.sum_congr rfl fun W _ => Finset.sum_congr rfl fun Z _ => ?_
  rw [oh_stage]

theorem ground_ref (x1 : (⟨S2x1x128x128x128, .i32⟩ : BufTy).Contents (Elt Ideal)) (j : S2x12.Idx) :
    val_main_v10 (F := Ideal) x1 j = Domino.ground (Domino.lab x1) (j 0) (j 1) :=
  (congrArg (val_main_v10 (F := Ideal) x1) (eq_ix2 j)).trans (ground_at x1 (j 0) (j 1))

theorem pred_at (x0 : (⟨S2x12x128x128x128, .f32⟩ : BufTy).Contents (Elt Ideal)) (n : Fin 2) (c : Fin 12) :
    val_main_v11 (F := Ideal) x0 (ix2 n c) = Domino.pred (Domino.arr x0) n c := by
  unfold val_main_v11
  simp only [Host.reduceAdd, Ideal.hostReduceAdd_def]
  rw [sum234, val_main_cst_3_apply, Ideal.ofBits_def, Ideal.ofBits_zero_f32, zero_add]
  unfold Domino.pred
  refine Finset.sum_congr rfl fun H _ => Finset.sum_congr rfl fun W _ => Finset.sum_congr rfl fun Z _ => ?_
  rw [pr_stage]

theorem pred_ref (x0 : (⟨S2x12x128x128x128, .f32⟩ : BufTy).Contents (Elt Ideal)) (j : S2x12.Idx) :
    val_main_v11 (F := Ideal) x0 j = Domino.pred (Domino.arr x0) (j 0) (j 1) :=
  (congrArg (val_main_v11 (F := Ideal) x0) (eq_ix2 j)).trans (pred_at x0 (j 0) (j 1))

end Cert.ReferenceIdeal.RefVal

end
-- ==== Proof.RefSums.lean ====
/-
  The reference's cross-entropy and penalty totals, for labels in range.

  take_along_axis wraps a negative label by twelve, gathers the log-softmax at the label along the class axis and
  keeps the gathered value where the wrapped label lies in [0, 11]; for a label t in [0, 12) that is lp_t, which is
  Σ_c oh_c · lp_c.  The penalty gathers row t of the matrix and sums its product with the softmax over the classes:
  Σ_c M t c · p_c = Σ_t' oh_t' · Σ_c M t' c · p_c.  Both are then summed over every voxel of every sample.
-/
import proofs.«428624_j85598698209587_3_alg».proof.Proof.RefStage
import Idealize.ShloMosaic.Lib.ValueIdxRank6
import Idealize.ShloMosaic.Lib.ReduceAll
import Idealize.ShloMosaic.PureOps.Reduce

noncomputable section

namespace Cert.ReferenceIdeal.RefVal

open Cert.ReferenceIdeal Cert.ReferenceIdeal.Gen Idealize.ShloMosaic Idealize.ShloMosaic.ValueIdx Idealize.SL.Sem Idealize.ShloMosaic.StableHlo
open Cert.ReferenceIdeal.ReadP

/-! ## Sums over index sets by coordinates -/

/-- The indices of a [n0, 1, n2, n3, n4] array are the quadruples of its free coordinates. -/
def idxEquiv5u {n0 n2 n3 n4 : Nat} : (⟨5, ![n0, 1, n2, n3, n4]⟩ : Shape).Idx ≃ Fin n0 × Fin n2 × Fin n3 × Fin n4 where
  toFun i := (i 0, i 2, i 3, i 4)
  invFun p := ix5 p.1 (0 : Fin 1) p.2.1 p.2.2.1 p.2.2.2
  left_inv i := by
    funext a
    match a with
    | ⟨0, _⟩ => rfl
    | ⟨1, _⟩ => exact (Subsingleton.elim (α := Fin 1) _ _)
    | ⟨2, _⟩ => rfl
    | ⟨3, _⟩ => rfl
    | ⟨4, _⟩ => rfl
  right_inv _ := rfl

/-- A sum over the indices of a [n0, 1, n2, n3, n4] array is the fourfold sum over its free coordinates. -/
theorem sum_idx5u {M : Type*} [AddCommMonoid M] {n0 n2 n3 n4 : Nat} (f : (⟨5, ![n0, 1, n2, n3, n4]⟩ : Shape).Idx → M) :
    ∑ i, f i = ∑ a : Fin n0, ∑ c : Fin n2, ∑ d : Fin n3, ∑ e : Fin n4, f (ix5 a (0 : Fin 1) c d e) := by
  rw [← Equiv.sum_comp (idxEquiv5u (n0 := n0) (n2 := n2) (n3 := n3) (n4 := n4)).symm f]
  simp only [Fintype.sum_prod_type]
  rfl

/-- The indices of a rank-4 array are the quadruples of its coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over the indices of a rank-4 array is the fourfold sum over its coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ## A label word below twelve -/

/-- Read signed, a word below twelve is its unsigned value. -/
theorem toInt_small (t : BitVec 32) (h : t.toNat < 12) : t.toInt = (t.toNat : Int) :=
  BitVec.toInt_eq_toNat_of_lt (by omega)

/-- The wrap of a negative label leaves a label in range alone. -/
theorem wrap_id (t : BitVec 32) (h : t.toNat < 12) :
    Scalar.select (IntOp.cmpi .slt t 0#32) (IntOp.addi t 12#32) t = t := by
  have hz : IntOp.cmpi .slt t 0#32 = 0#1 := by
    apply eq_zero_of_ne_one
    intro h1
    rw [IntOp.cmpi_slt, toInt_small t h] at h1
    have : (0#32 : BitVec 32).toInt = 0 := by decide
    omega
  rw [hz, select_zero]

/-- The range test 0 ≤ t ≤ 11 holds of a label in range. -/
theorem range_one (t : BitVec 32) (h : t.toNat < 12) :
    IntOp.andi (IntOp.cmpi .sge t 0#32) (IntOp.cmpi .sle t 11#32) = 1#1 := by
  have h0 : (0#32 : BitVec 32).toInt = 0 := by decide
  have h11 : (11#32 : BitVec 32).toInt = 11 := by decide
  refine IntOp.andi_eq_one.2 ⟨IntOp.cmpi_sge.2 ?_, IntOp.cmpi_sle.2 ?_⟩
  · rw [toInt_small t h, h0]; omega
  · rw [toInt_small t h, h11]; omega

/-- Clamping into [0, 11] leaves a label in range alone. -/
theorem clamp_id (t : BitVec 32) (h : t.toNat < 12) : min t.toInt.toNat (12 - 1) = t.toNat := by
  rw [toInt_small t h, Int.toNat_natCast]
  omega

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, hl => by
    rw [List.foldl_cons]
    refine foldl_andi_one f l _ ?_ (fun n hn => hl n (List.mem_cons_of_mem _ hn))
    rw [hi, hl a List.mem_cons_self]
    decide

/-! ## The wrapped label and the range mask of take_along_axis -/

/-- The wrapped label is the label. -/
theorem call1_v4_eq (x1 : (⟨S2x1x128x128x128, .i32⟩ : BufTy).Contents (Elt Ideal)) (hr : Domino.InRange x1) (i : S2x1x128x128x128.Idx) :
    val_main_call1_v4 (F := Ideal) x1 i = x1 i := by
  rw [val_main_call1_v4_apply, val_main_call1_v1_apply, val_main_call1_v0_apply, val_main_call1_c_apply,
    val_main_call1_v3_apply, val_main_call1_v2_apply, val_main_call1_c_0_apply]
  exact wrap_id _ (hr i)

/-- Every element of the reshaped label array is a label in range. -/
theorem call1_v5_lt (x1 : (⟨S2x1x128x128x128, .i32⟩ : BufTy).Contents (Elt Ideal)) (hr : Domino.InRange x1) (i : S2x1x128x128x128x1.Idx) :
    (val_main_call1_v5 (F := Ideal) x1 i).toNat < 12 := by
  unfold val_main_call1_v5 shapeCast
  rw [call1_v4_eq x1 hr]
  exact hr _

/-- The reshaped label array at (n, 0, H, W, Z, 0) is the label at (n, 0, H, W, Z). -/
theorem call1_v5_eq (x1 : (⟨S2x1x128x128x128, .i32⟩ : BufTy).Contents (Elt Ideal)) (hr : Domino.InRange x1)
    (n : Fin 2) (u : Fin 1) (H W Z : Fin 128) (v : Fin 1) :
    val_main_call1_v5 (F := Ideal) x1 (ix6 n u H W Z v) = x1 (ix5 n u H W Z) := by
  unfold val_main_call1_v5
  rw [shapeCast_apply _ shapeCasts_S2x1x128x128x128_S2x1x128x128x128x1 (ix6 n u H W Z v) (ix5 n u H W Z)
    (by
      rw [Shape.rowMajor_val_five, Shape.rowMajor_val_six]
      show (((n.val * 1 + u.val) * 128 + H.val) * 128 + W.val) * 128 + Z.val
        = ((((n.val * 1 + u.val) * 128 + H.val) * 128 + W.val) * 128 + Z.val) * 1 + v.val
      omega)]
  exact call1_v4_eq x1 hr _

/-- The range mask is 1 everywhere. -/
theorem call1_v12_eq (x1 : (⟨S2x1x128x128x128, .i32⟩ : BufTy).Contents (Elt Ideal)) (hr : Domino.InRange x1) (j : S2x1x128x128x128.Idx) :
    val_main_call1_v12 (F := Ideal) x1 j = 1#1 := by
  unfold val_main_call1_v12
  rw [Host.reduce_eq_foldl]
  refine foldl_andi_one _ _ _ rfl (fun i _ => ?_)
  rw [val_main_call1_v11_apply, val_main_call1_v7_apply, val_main_call1_v10_apply, val_main_call1_v6_apply,
    val_main_call1_c_2_apply, val_main_call1_v9_apply, val_main_call1_v8_apply, val_main_call1_c_1_apply]
  exact range_one _ (call1_v5_lt x1 hr i)

/-! ## The two gathers read at an index -/

/-- The gather along the class axis reads the log-softmax at the voxel and at the label's class. -/
theorem call1_v13_eq (x0 : (⟨S2x12x128x128x128, .f32⟩ : BufTy).Contents (Elt Ideal)) (x1 : (⟨S2x1x128x128x128, .i32⟩ : BufTy).Contents (Elt Ideal)) (hr : Domino.InRange x1)
    (n : Fin 2) (H W Z : Fin 128) :
    val_main_call1_v13 (F := Ideal) x0 x1 (ix5 n (0 : Fin 1) H W Z)
      = val_main_v1 (F := Ideal) x0 (ix5 n (Domino.cls (x1 (ix5 n (0 : Fin 1) H W Z)) (hr _)) H W Z) := by
  unfold val_main_call1_v13 Host.gather
  congr 1
  funext a
  refine Fin.ext ?_
  generalize hd : gather_S2x12x128x128x128_S2x1x128x128x128x1_S2x1x128x128x128_n_1_0234_0234_1_5_11111 = d
  have hob : d.operandBatchingDims = [0, 2, 3, 4] := by rw [← hd]; rfl
  have hcs : d.collapsedSliceDims = [1] := by rw [← hd]; rfl
  show d.start (ix5 n (0 : Fin 1) H W Z) (val_main_call1_v5 (F := Ideal) x1) a
      + d.batchCoord (ix5 n (0 : Fin 1) H W Z) a + d.offCoord (ix5 n (0 : Fin 1) H W Z) a = _
  have hk : ∀ b : Fin 5, b ∉ d.sKept := by
    intro b hb
    have h2 := (d.mem_sKept b).1 hb
    rw [hob, hcs] at h2
    have hall : ∀ c : Fin 5, ¬(c ∉ ([1] : List (Fin 5)) ∧ c ∉ ([0, 2, 3, 4] : List (Fin 5))) := by decide
    exact hall b h2
  rw [d.offCoord_eq_zero _ a (hk a), Nat.add_zero]
  match a with
  | ⟨0, _⟩ =>
    rw [d.start_batching _ _ _ (by rw [hob]; decide +revert), Nat.zero_add]
    subst hd; rfl
  | ⟨1, _⟩ =>
    rw [d.batchCoord_eq_zero _ _ (by rw [hob]; decide +revert), Nat.add_zero]
    subst hd
    unfold GatherDims.start
    rw [dif_pos (by decide +revert)]
    have hsi : ∀ c, GatherDims.siIdx gather_S2x12x128x128x128_S2x1x128x128x128x1_S2x1x128x128x128_n_1_0234_0234_1_5_11111
        (ix5 n (0 : Fin 1) H W Z) c = ix6 n (0 : Fin 1) H W Z (0 : Fin 1) := by
      intro c
      funext b; refine Fin.ext ?_
      match b with
      | ⟨0, _⟩ => rfl
      | ⟨1, _⟩ => rfl
      | ⟨2, _⟩ => rfl
      | ⟨3, _⟩ => rfl
      | ⟨4, _⟩ => rfl
      | ⟨5, _⟩ => exact Nat.lt_one_iff.1 c.isLt
    rw [hsi, call1_v5_eq x1 hr]
    exact clamp_id _ (hr _)
  | ⟨2, _⟩ =>
    rw [d.start_batching _ _ _ (by rw [hob]; decide +revert), Nat.zero_add]
    subst hd; rfl
  | ⟨3, _⟩ =>
    rw [d.start_batching _ _ _ (by rw [hob]; decide +revert), Nat.zero_add]
    subst hd; rfl
  | ⟨4, _⟩ =>
    rw [d.start_batching _ _ _ (by rw [hob]; decide +revert), Nat.zero_add]
    subst hd; rfl

/-- The flattened label array at (n, H, W, Z) is the label at (n, 0, H, W, Z). -/
theorem v0_eq (x1 : (⟨S2x1x128x128x128, .i32⟩ : BufTy).Contents (Elt Ideal)) (n : Fin 2) (H W Z : Fin 128) :
    val_main_v0 (F := Ideal) x1 (ix4 n H W Z) = x1 (ix5 n (0 : Fin 1) H W Z) := by
  unfold val_main_v0
  exact shapeCast_apply x1 shapeCasts_S2x1x128x128x128_S2x128x128x128 (ix4 n H W Z) (ix5 n (0 : Fin 1) H W Z)
    (by
      rw [Shape.rowMajor_val_five, Shape.rowMajor_val_four]
      show (((n.val * 1 + 0) * 128 + H.val) * 128 + W.val) * 128 + Z.val
        = ((n.val * 128 + H.val) * 128 + W.val) * 128 + Z.val
      omega)

/-- The wrapped label with a trailing unit axis is the label. -/
theorem v29_eq (x1 : (⟨S2x1x128x128x128, .i32⟩ : BufTy).Contents (Elt Ideal)) (hr : Domino.InRange x1)
    (n : Fin 2) (H W Z : Fin 128) (v : Fin 1) :
    val_main_v29 (F := Ideal) x1 (ix5 n H W Z v) = x1 (ix5 n (0 : Fin 1) H W Z) := by
  have hi : idx_main_v29 (ix5 n H W Z v) = ix4 n H W Z := by
    funext a
    match a with
    | ⟨0, _⟩ => rfl
    | ⟨1, _⟩ => rfl
    | ⟨2, _⟩ => rfl
    | ⟨3, _⟩ => rfl
  rw [val_main_v29_apply, hi, val_main_v28_apply, val_main_v25_apply, val_main_v24_apply, val_main_c_apply,
    val_main_v27_apply, val_main_v26_apply, val_main_c_10_apply, v0_eq]
  exact wrap_id _ (hr _)

/-- The gather of the matrix's rows reads row t of the matrix, t the voxel's label. -/
theorem v30_eq (x1 : (⟨S2x1x128x128x128, .i32⟩ : BufTy).Contents (Elt Ideal)) (x2 : (⟨S12x12, .f32⟩ : BufTy).Contents (Elt Ideal)) (hr : Domino.InRange x1)
    (n : Fin 2) (H W Z : Fin 128) (k : Fin 12) :
    val_main_v30 (F := Ideal) x1 x2 (ix5 n H W Z k)
      = x2 (ix2 (Domino.cls (x1 (ix5 n (0 : Fin 1) H W Z)) (hr _)) k) := by
  unfold val_main_v30 Host.gather
  congr 1
  funext a
  refine Fin.ext ?_
  generalize hd : gather_S12x12_S2x128x128x128x1_S2x128x128x128x12_4_0_n_n_0_4_112 = d
  have hob : d.operandBatchingDims = [] := by rw [← hd]; rfl
  have hcs : d.collapsedSliceDims = [0] := by rw [← hd]; rfl
  show d.start (ix5 n H W Z k) (val_main_v29 (F := Ideal) x1) a
      + d.batchCoord (ix5 n H W Z k) a + d.offCoord (ix5 n H W Z k) a = _
  rw [d.batchCoord_eq_zero _ a (by rw [hob]; exact List.not_mem_nil), Nat.add_zero]
  match a with
  | ⟨0, _⟩ =>
    rw [d.offCoord_eq_zero _ _ (fun h => ((d.mem_sKept _).1 h).1 (by rw [hcs]; exact List.mem_singleton.2 (Fin.ext rfl))), Nat.add_zero]
    subst hd
    unfold GatherDims.start
    rw [dif_pos (by decide +revert)]
    have hsi : ∀ c, GatherDims.siIdx gather_S12x12_S2x128x128x128x1_S2x128x128x128x12_4_0_n_n_0_4_112
        (ix5 n H W Z k) c = ix5 n H W Z (0 : Fin 1) := by
      intro c
      funext b; refine Fin.ext ?_
      match b with
      | ⟨0, _⟩ => rfl
      | ⟨1, _⟩ => rfl
      | ⟨2, _⟩ => rfl
      | ⟨3, _⟩ => rfl
      | ⟨4, _⟩ => exact Nat.lt_one_iff.1 c.isLt
    rw [hsi, v29_eq x1 hr]
    exact clamp_id _ (hr _)
  | ⟨1, _⟩ =>
    subst hd
    unfold GatherDims.start
    rw [dif_neg (by decide +revert), Nat.zero_add]
    rfl

/-! ## The two totals -/

/-- The cross-entropy total before the division. -/
theorem ce_ref (x0 : (⟨S2x12x128x128x128, .f32⟩ : BufTy).Contents (Elt Ideal)) (x1 : (⟨S2x1x128x128x128, .i32⟩ : BufTy).Contents (Elt Ideal)) (hr : Domino.InRange x1) (i : S_.Idx) :
    val_main_v3 (F := Ideal) x0 x1 i
      = Ideal.ofBits .f32 0x00000000#32 + ∑ n : Fin 2, Domino.ceAcc (Domino.arr x0) (Domino.lab x1) n := by
  rw [val_main_v3_apply, val_main_cst_apply]
  refine congrArg (_ + ·) ?_
  rw [sum_idx5u]
  refine Finset.sum_congr rfl fun n _ => ?_
  unfold Domino.ceAcc
  refine Finset.sum_congr rfl fun H _ => Finset.sum_congr rfl fun W _ => Finset.sum_congr rfl fun Z _ => ?_
  -- the mask is 1, the gathered value is the log-softmax at the label, and the one-hot picks that term
  rw [val_main_v2_apply, call1_v12_eq x1 hr, select_one, call1_v13_eq x0 x1 hr, lp_stage]
  exact (Domino.oh_pick (Domino.lab x1 n H W Z) (hr _) _).symm

/-- The penalty total before the division. -/
theorem pen_ref (x0 : (⟨S2x12x128x128x128, .f32⟩ : BufTy).Contents (Elt Ideal)) (x1 : (⟨S2x1x128x128x128, .i32⟩ : BufTy).Contents (Elt Ideal)) (x2 : (⟨S12x12, .f32⟩ : BufTy).Contents (Elt Ideal)) (hr : Domino.InRange x1) (i : S_.Idx) :
    val_main_v34 (F := Ideal) x0 x1 x2 i
      = Ideal.ofBits .f32 0x00000000#32 + ∑ n : Fin 2, Domino.penAcc (Domino.arr x0) (Domino.lab x1) (Domino.mat x2) n := by
  rw [val_main_v34_apply, val_main_cst_12_apply]
  refine congrArg (_ + ·) ?_
  rw [sum_idx4]
  refine Finset.sum_congr rfl fun n _ => ?_
  unfold Domino.penAcc
  refine Finset.sum_congr rfl fun H _ => Finset.sum_congr rfl fun W _ => Finset.sum_congr rfl fun Z _ => ?_
  -- the inner sum starts from the zero word; the one-hot picks the label's row
  have hz : FloatOps.ofBits (F := Ideal) .f32 0x00000000#32 = 0 := Ideal.ofBits_zero_f32
  rw [val_main_v33_apply, val_main_cst_11_apply, hz, zero_add,
    Domino.oh_pick (Domino.lab x1 n H W Z) (hr _)
      (fun tt => ∑ cp, Domino.mat x2 tt cp * Domino.pr (Domino.vox (Domino.arr x0) n H W Z) cp)]
  refine Finset.sum_congr rfl fun k _ => ?_
  have hi : idx_main_v33 (ix4 n H W Z) k = ix5 n H W Z k := by
    funext a
    match a with
    | ⟨0, _⟩ => rfl
    | ⟨1, _⟩ => rfl
    | ⟨2, _⟩ => rfl
    | ⟨3, _⟩ => rfl
    | ⟨4, _⟩ => rfl
  have hj : idx_main_v31 (ix5 n H W Z k) = ix5 n k H W Z := by
    funext a
    match a with
    | ⟨0, _⟩ => rfl
    | ⟨1, _⟩ => rfl
    | ⟨2, _⟩ => rfl
    | ⟨3, _⟩ => rfl
    | ⟨4, _⟩ => rfl
  rw [hi, val_main_v32_apply, v30_eq x1 x2 hr, val_main_v31_apply, hj, pr_stage]
  rfl

end Cert.ReferenceIdeal.RefVal

end
-- ==== Proof.RefLoss.lean ====
/-
  The reference's result is the loss in the reference's arrangement.
-/
import proofs.«428624_j85598698209587_3_alg».proof.Proof.RefSums

noncomputable section

namespace Cert.ReferenceIdeal.RefVal

open Cert.ReferenceIdeal Cert.ReferenceIdeal.Gen Idealize.ShloMosaic Idealize.ShloMosaic.ValueIdx Idealize.SL.Sem Idealize.ShloMosaic.StableHlo
open Cert.ReferenceIdeal.ReadP

/-- One (sample, class) term of the Dice sum: 1 − (2·inter + ε) / (ground + pred + ε). -/
theorem dice_term (x0 : (⟨S2x12x128x128x128, .f32⟩ : BufTy).Contents (Elt Ideal)) (x1 : (⟨S2x1x128x128x128, .i32⟩ : BufTy).Contents (Elt Ideal)) (j : S2x12.Idx) :
    val_main_v21 (F := Ideal) x0 x1 j
      = Ideal.ofBits .f32 0x3F800000#32
          - Ideal.div (Ideal.ofBits .f32 0x40000000#32 * Domino.inter (Domino.arr x0) (Domino.lab x1) (j 0) (j 1)
                + Ideal.ofBits .f32 0x3727C5AC#32)
              (Domino.ground (Domino.lab x1) (j 0) (j 1) + Domino.pred (Domino.arr x0) (j 0) (j 1)
                + Ideal.ofBits .f32 0x3727C5AC#32) := by
  rw [val_main_v21_apply, val_main_v20_apply, val_main_cst_7_apply, val_main_v19_apply, val_main_v15_apply,
    val_main_v13_apply, val_main_v12_apply, val_main_cst_4_apply, inter_ref, val_main_v14_apply, val_main_cst_5_apply,
    val_main_v18_apply, val_main_v16_apply, ground_ref, pred_ref, val_main_v17_apply, val_main_cst_6_apply]
  simp only [Ideal.subf_def, Ideal.hostDivf_def, Ideal.addf_def, Ideal.mulf_def, Ideal.ofBits_def]

theorem ref_loss (x0 : (⟨S2x12x128x128x128, .f32⟩ : BufTy).Contents (Elt Ideal)) (x1 : (⟨S2x1x128x128x128, .i32⟩ : BufTy).Contents (Elt Ideal)) (x2 : (⟨S12x12, .f32⟩ : BufTy).Contents (Elt Ideal)) (hr : Domino.InRange x1) :
    val_main_v38 (F := Ideal) x0 x1 x2 = fun _ => Domino.lossR (Domino.arr x0) (Domino.lab x1) (Domino.mat x2) := by
  funext i
  rw [val_main_v38_apply, val_main_v37_apply, val_main_v5_apply, val_main_v4_apply, ce_ref x0 x1 hr, val_main_cst_0_apply,
    val_main_v23_apply, val_main_v22_apply, val_main_cst_8_apply, val_main_cst_9_apply,
    val_main_v36_apply, val_main_cst_14_apply, val_main_v35_apply, pen_ref x0 x1 x2 hr, val_main_cst_13_apply]
  simp only [dice_term]
  unfold Domino.lossR Domino.diceOf Domino.dice
  simp only [Ideal.addf_def, Ideal.hostNegf_def, Ideal.negf_def, Ideal.hostDivf_def, Ideal.mulf_def, Ideal.ofBits_def]

end Cert.ReferenceIdeal.RefVal

end
-- ==== Proof.PreDecode.lean ====
/-
  The precondition's label conjunct, decoded: every label lies in [0, 12).

  The printed precondition ends in the conjunction of three all-reductions; its last conjunct reduces, over every
  label t, the word (t ≥ 0 signed) ∧ (t < 12 signed).  When the whole predicate is true each such word is 1, so the
  label read as an unsigned word is below twelve.
-/
import proofs.«428624_j85598698209587_3_alg».proof.Defs
import proofs.«428624_j85598698209587_3_alg».proof.Proof.Gen.Pre_finite_inputs
import proofs.«428624_j85598698209587_3_alg».proof.Proof.Loss
import Idealize.ShloMosaic.Lib.StableHlo.Predicate
import Idealize.ShloMosaic.Lib.ReduceAll

noncomputable section

namespace Cert.Proof

open Idealize.ShloMosaic Idealize.SL.Sem

/-- The result shape of an all-reduction has rank 0, hence exactly one index. -/
instance subsingleton_scalar_idx : Subsingleton Cert.Pre_finite_inputs.S_.Idx :=
  ⟨fun a b => funext fun d => d.elim0⟩

/-- A 32-bit word that lies in [0, 12) when read signed is below twelve when read unsigned: a nonnegative signed
    reading has the top bit clear, so both readings are the same number. -/
theorem toNat_lt_twelve (t : BitVec 32) (h0 : (0#32 : BitVec 32).toInt ≤ t.toInt)
    (h12 : t.toInt < (12#32 : BitVec 32).toInt) : t.toNat < 12 := by
  have e0 : (0#32 : BitVec 32).toInt = 0 := by decide
  have e12 : (12#32 : BitVec 32).toInt = 12 := by decide
  rw [e0] at h0
  rw [e12] at h12
  rw [BitVec.toInt_eq_toNat_cond] at h0 h12
  have hlt := t.isLt
  split at h0 <;> omega

theorem inRange_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Domino.InRange (m ((c.tc : Thread Cert.KernelIdeal.nD Cert.KernelIdeal.τ).loc Cert.KernelIdeal.main_arg1)) := by
  intro i
  -- the predicate at its one index is the word 1
  have e := congrFun (h c) ValueIdx.ix0
  dsimp only [Cert.Pre_finite_inputs.fn] at e
  -- the outer conjunction: keep its last conjunct, the all-reduction over the labels
  have e14 := (IntOp.andi_eq_one.1 e).2
  -- an all-reduction by ∧ that came out 1 met a 1 at every label index, in particular at i
  have ei := Host.reduce_andi_all _ _ _ _ _ e14 i
  -- the word at i is (label ≥ 0) ∧ (label < 12), both signed
  obtain ⟨hge, hlt⟩ := IntOp.andi_eq_one.1 ei
  have hge' := IntOp.cmpi_sge.1 hge
  have hlt' := IntOp.cmpi_slt.1 hlt
  -- a scalar laid over every label index reads the scalar
  have hS : 0 < Cert.Pre_finite_inputs.S_.numel := Cert.Pre_finite_inputs.Gen.facts.h_S_
  rw [StableHlo.Predicate.bcast_scalar _ hS] at hge' hlt'
  exact toNat_lt_twelve _ hge' hlt'

end Cert.Proof

end
-- ==== Proof.lean ====
/-
  The certificate: the fused Dice + cross-entropy + penalty kernel against its jnp reference, over the extended reals,
  for finite logits and penalties and labels in [0, 12).

  Both programs compute, from the logits x, the labels t and the penalty matrix M,

      ( cross-entropy + mean Dice term ) + penalty

  with the per-sample statistics of Spec.lean.  The kernel accumulates them block by block over a 2 × 16 grid and its
  host code forms (−Σ ce)/S, the Dice mean and (3·Σ pen)/S; the reference takes a log-softmax, gathers it at the labels,
  builds the one-hot, gathers rows of M, and forms −(Σ ce / S), the same Dice mean and 3·(Σ pen / S).  For a label in
  range a gather at the label is the one-hot weighted sum over the classes, sums may be taken in any order, and the
  sign and the factor 3 pass through the division by the real S = 2·128³: the two results are one extended real.

  The frames of the two kernel programs are the generated ones; the reference's frame is its run with the result
  dropped; the ideal pass rewrote nothing, so the preservation claim is trivial.
-/
import proofs.«428624_j85598698209587_3_alg».proof.Defs
import proofs.«428624_j85598698209587_3_alg».proof.Proof.Gen.Kernel
import proofs.«428624_j85598698209587_3_alg».proof.Proof.Gen.Kernel.Frame
import proofs.«428624_j85598698209587_3_alg».proof.Proof.Gen.KernelIdeal
import proofs.«428624_j85598698209587_3_alg».proof.Proof.Gen.KernelIdeal.Frame
import proofs.«428624_j85598698209587_3_alg».proof.Proof.Gen.ReferenceIdeal
import proofs.«428624_j85598698209587_3_alg».proof.Proof.Gen.Pre_finite_inputs
import proofs.«428624_j85598698209587_3_alg».proof.Proof.KRun
import proofs.«428624_j85598698209587_3_alg».proof.Proof.RefRun
import proofs.«428624_j85598698209587_3_alg».proof.Proof.RefLoss
import proofs.«428624_j85598698209587_3_alg».proof.Proof.PreDecode
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments both idealized programs end at the loss: the kernel at its arrangement,
    the reference at its own, and the two arrangements are one extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Domino.lossK (Cert.KernelIdeal.Mirror.xA m c) (Cert.KernelIdeal.Mirror.tA m c) (Cert.KernelIdeal.Mirror.mA m c),
    Cert.KernelIdeal.Mirror.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  rw [Cert.ReferenceIdeal.RefVal.ref_loss _ _ _ (inRange_of_pre m hpre c)]
  funext _
  exact (Domino.lossK_eq_lossR _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
